-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x3 : Shape := ⟨2, ![32768, 3]⟩
abbrev S32768 : Shape := ⟨1, ![32768]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S93x8 : Shape := ⟨2, ![93, 8]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S93x8 : S_.BroadcastsInDim S93x8 (![] : Fin 0 → Fin S93x8.rank)
  reducesTo_S93x8_S_d0_1 : S93x8.ReducesTo [0, 1] S_
  bcast_S_S32768 : S_.BroadcastsInDim S32768 (![] : Fin 0 → Fin S32768.rank)
  reducesTo_S32768_S_d0 : S32768.ReducesTo [0] S_

variable [Facts]

def fn_part2 {F : FTy → Type} [FloatOps F] (main_arg3 : IVec S32768 32) (main_v28 : IVec S_ 1) (main_v33 : IVec S32768 1) : IVec S_ 1 :=
  let main_c_12 : IVec S_ 1 := constantI S_ 1 1#1
  let main_v34 : IVec S_ 1 := (fun x v => Host.reduce IntOp.andi x v reducesTo_S32768_S_d0 h_S_) main_v33 main_c_12
  let main_v35 : IVec S_ 1 := andi main_v28 main_v34
  let main_c_13 : IVec S_ 32 := constantI S_ 32 4294934528#32
  let main_v36 : IVec S32768 32 := broadcastInDim S32768 ![] bcast_S_S32768 main_c_13
  let main_v37 : IVec S32768 1 := cmpi .sge main_arg3 main_v36
  let main_c_14 : IVec S_ 32 := constantI S_ 32 32768#32
  let main_v38 : IVec S32768 32 := broadcastInDim S32768 ![] bcast_S_S32768 main_c_14
  let main_v39 : IVec S32768 1 := cmpi .slt main_arg3 main_v38
  let main_v40 : IVec S32768 1 := andi main_v37 main_v39
  let main_c_15 : IVec S_ 1 := constantI S_ 1 1#1
  let main_v41 : IVec S_ 1 := (fun x v => Host.reduce IntOp.andi x v reducesTo_S32768_S_d0 h_S_) main_v40 main_c_15
  let main_v42 : IVec S_ 1 := andi main_v35 main_v41
  main_v42

def fn_part1 {F : FTy → Type} [FloatOps F] (main_arg2 : IVec S32768 32) (main_arg3 : IVec S32768 32) (main_arg7 : FVec F S512 .f32) (main_arg8 : FVec F S93x8 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S93x8 .f32 := Host.absf main_arg8
  let main_cst_8 : FVec F S_ .f32 := constant S_ .f32 0x7F800000#32
  let main_v25 : FVec F S93x8 .f32 := broadcastInDim S93x8 ![] bcast_S_S93x8 main_cst_8
  let main_v26 : IVec S93x8 1 := cmpf .olt main_v24 main_v25
  let main_c_9 : IVec S_ 1 := constantI S_ 1 1#1
  let main_v27 : IVec S_ 1 := (fun x v => Host.reduce IntOp.andi x v reducesTo_S93x8_S_d0_1 h_S_) main_v26 main_c_9
  let main_v28 : IVec S_ 1 := andi main_v23 main_v27
  let main_c_10 : IVec S_ 32 := constantI S_ 32 4294934528#32
  let main_v29 : IVec S32768 32 := broadcastInDim S32768 ![] bcast_S_S32768 main_c_10
  let main_v30 : IVec S32768 1 := cmpi .sge main_arg2 main_v29
  let main_c_11 : IVec S_ 32 := constantI S_ 32 32768#32
  let main_v31 : IVec S32768 32 := broadcastInDim S32768 ![] bcast_S_S32768 main_c_11
  let main_v32 : IVec S32768 1 := cmpi .slt main_arg2 main_v31
  let main_v33 : IVec S32768 1 := andi main_v30 main_v32
  fn_part2 (F := F) main_arg3 main_v28 main_v33

def fn {F : FTy → Type} [FloatOps F] (main_arg0 : FVec F S32768x512 .f32) (main_arg1 : IVec S32768x3 32) (main_arg2 : IVec S32768 32) (main_arg3 : IVec S32768 32) (main_arg4 : FVec F S512x1536 .f32) (main_arg5 : FVec F S1536 .f32) (main_arg6 : FVec F S512x512 .f32) (main_arg7 : FVec F S512 .f32) (main_arg8 : FVec F S93x8 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x1536 .f32 := Host.absf main_arg4
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S1536 .f32 := Host.absf main_arg5
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg6
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg2 main_arg3 main_arg7 main_arg8 main_v13 main_v16
-- ==== Kernel.lean ====
abbrev S32768x512 : Shape := ⟨2, ![32768, 512]⟩
abbrev S32768x3 : Shape := ⟨2, ![32768, 3]⟩
abbrev S32768 : Shape := ⟨1, ![32768]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S93x8 : Shape := ⟨2, ![93, 8]⟩
abbrev S1x1536 : Shape := ⟨2, ![1, 1536]⟩
abbrev S32768x1536 : Shape := ⟨2, ![32768, 1536]⟩
abbrev S1024x512 : Shape := ⟨2, ![1024, 512]⟩
abbrev S1024x1536 : Shape := ⟨2, ![1024, 1536]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S256x128x3x8x64 : Shape := ⟨5, ![256, 128, 3, 8, 64]⟩
abbrev S256x128x1x8x64 : Shape := ⟨5, ![256, 128, 1, 8, 64]⟩
abbrev S256x128x8x64 : Shape := ⟨4, ![256, 128, 8, 64]⟩
abbrev S256x8x128x64 : Shape := ⟨4, ![256, 8, 128, 64]⟩
abbrev S256x128x3 : Shape := ⟨3, ![256, 128, 3]⟩
abbrev S256x128x1x3 : Shape := ⟨4, ![256, 128, 1, 3]⟩
abbrev S256x1x128x3 : Shape := ⟨4, ![256, 1, 128, 3]⟩
abbrev S256x128x128x3 : Shape := ⟨4, ![256, 128, 128, 3]⟩
abbrev S256x128x128x8 : Shape := ⟨4, ![256, 128, 128, 8]⟩
abbrev S256x128x128x1 : Shape := ⟨4, ![256, 128, 128, 1]⟩
abbrev S256x128x128 : Shape := ⟨3, ![256, 128, 128]⟩
abbrev S1x1x1x1 : Shape := ⟨4, ![1, 1, 1, 1]⟩
abbrev S256x8x128x128 : Shape := ⟨4, ![256, 8, 128, 128]⟩
abbrev S4x8x128x64 : Shape := ⟨4, ![4, 8, 128, 64]⟩
abbrev S4x8x128x128 : Shape := ⟨4, ![4, 8, 128, 128]⟩
abbrev S32x128x64 : Shape := ⟨3, ![32, 128, 64]⟩
abbrev S32x128x128 : Shape := ⟨3, ![32, 128, 128]⟩
abbrev S32x128 : Shape := ⟨2, ![32, 128]⟩
abbrev S32x128x1 : Shape := ⟨3, ![32, 128, 1]⟩
abbrev S1x512 : Shape := ⟨2, ![1, 512]⟩

abbrev nBuf : Space → Nat
  | .hbm => 224
  | .vmem => 24
  | .smem => 0
  | _ => 0

abbrev hbmTy0_0 (i : Nat) : BufTy := match i % 128 with
  | 0 => ⟨S32768x512, .f32⟩
  | 1 => ⟨S32768x3, .i32⟩
  | 2 => ⟨S32768, .i32⟩
  | 3 => ⟨S32768, .i32⟩
  | 4 => ⟨S512x1536, .f32⟩
  | 5 => ⟨S1536, .f32⟩
  | 6 => ⟨S512x512, .f32⟩
  | 7 => ⟨S512, .f32⟩
  | 8 => ⟨S93x8, .f32⟩
  | 9 => ⟨S1x1536, .f32⟩
  | 10 => ⟨S32768x1536, .f32⟩
  | 11 => ⟨S_, .i32⟩
  | 12 => ⟨S32768, .i32⟩
  | 13 => ⟨S32768, .i1⟩
  | 14 => ⟨S_, .i32⟩
  | 15 => ⟨S32768, .i32⟩
  | 16 => ⟨S32768, .i32⟩
  | 17 => ⟨S32768, .i32⟩
  | 18 => ⟨S32768x1, .i32⟩
  | 19 => ⟨S1, .i32⟩
  | 20 => ⟨S_, .i32⟩
  | 21 => ⟨S32768x1, .i32⟩
  | 22 => ⟨S32768x1, .i1⟩
  | 23 => ⟨S1x1, .i32⟩
  | 24 => ⟨S32768x1, .i32⟩
  | 25 => ⟨S32768x1, .i1⟩
  | 26 => ⟨S32768x1, .i1⟩
  | 27 => ⟨S_, .i1⟩
  | 28 => ⟨S32768, .i1⟩
  | 29 => ⟨S32768x1536, .f32⟩
  | 30 => ⟨S32768x1536, .i1⟩
  | 31 => ⟨S_, .f32⟩
  | 32 => ⟨S32768x1536, .f32⟩
  | 33 => ⟨S32768x1536, .f32⟩
  | 34 => ⟨S256x128x3x8x64, .f32⟩
  | 35 => ⟨S256x128x1x8x64, .f32⟩
  | 36 => ⟨S256x128x8x64, .f32⟩
  | 37 => ⟨S256x8x128x64, .f32⟩
  | 38 => ⟨S256x128x1x8x64, .f32⟩
  | 39 => ⟨S256x128x8x64, .f32⟩
  | 40 => ⟨S256x8x128x64, .f32⟩
  | 41 => ⟨S256x128x1x8x64, .f32⟩
  | 42 => ⟨S256x128x8x64, .f32⟩
  | 43 => ⟨S256x8x128x64, .f32⟩
  | 44 => ⟨S_, .i32⟩
  | 45 => ⟨S32768, .i32⟩
  | 46 => ⟨S32768, .i1⟩
  | 47 => ⟨S_, .i32⟩
  | 48 => ⟨S32768, .i32⟩
  | 49 => ⟨S32768, .i32⟩
  | 50 => ⟨S32768, .i32⟩
  | 51 => ⟨S32768x1, .i32⟩
  | 52 => ⟨S1, .i32⟩
  | 53 => ⟨S_, .i32⟩
  | 54 => ⟨S32768x1, .i32⟩
  | 55 => ⟨S32768x1, .i1⟩
  | 56 => ⟨S1x1, .i32⟩
  | 57 => ⟨S32768x1, .i32⟩
  | 58 => ⟨S32768x1, .i1⟩
  | 59 => ⟨S32768x1, .i1⟩
  | 60 => ⟨S_, .i1⟩
  | 61 => ⟨S32768, .i1⟩
  | 62 => ⟨S32768x3, .i32⟩
  | 63 => ⟨S32768x3, .i1⟩
  | 64 => ⟨S_, .i32⟩
  | 65 => ⟨S32768x3, .i32⟩
  | 66 => ⟨S32768x3, .i32⟩
  | 67 => ⟨S256x128x3, .i32⟩
  | 68 => ⟨S256x128x1x3, .i32⟩
  | 69 => ⟨S256x1x128x3, .i32⟩
  | 70 => ⟨S256x128x128x3, .i32⟩
  | 71 => ⟨S256x128x128x3, .i32⟩
  | 72 => ⟨S256x128x128x3, .i32⟩
  | 73 => ⟨S_, .f32⟩
  | 74 => ⟨S256x128x128x8, .f32⟩
  | 75 => ⟨S256x128x128x1, .i32⟩
  | 76 => ⟨S256x128x128, .i32⟩
  | 77 => ⟨S_, .i32⟩
  | 78 => ⟨S_, .i32⟩
  | 79 => ⟨S_, .i32⟩
  | 80 => ⟨S256x128x128, .i32⟩
  | 81 => ⟨S256x128x128, .i32⟩
  | 82 => ⟨S_, .i32⟩
  | 83 => ⟨S256x128x128, .i32⟩
  | 84 => ⟨S256x128x128, .i32⟩
  | 85 => ⟨S_, .i32⟩
  | 86 => ⟨S256x128x128, .i32⟩
  | 87 => ⟨S256x128x128, .i32⟩
  | 88 => ⟨S_, .i32⟩
  | 89 => ⟨S256x128x128, .i32⟩
  | 90 => ⟨S256x128x128, .i32⟩
  | 91 => ⟨S_, .i32⟩
  | 92 => ⟨S256x128x128, .i32⟩
  | 93 => ⟨S256x128x128, .i1⟩
  | 94 => ⟨S_, .i32⟩
  | 95 => ⟨S256x128x128, .i32⟩
  | 96 => ⟨S256x128x128, .i32⟩
  | 97 => ⟨S256x128x128, .i32⟩
  | 98 => ⟨S256x128x128x1, .i32⟩
  | 99 => ⟨S1, .i32⟩
  | 100 => ⟨S_, .i32⟩
  | 101 => ⟨S256x128x128x1, .i32⟩
  | 102 => ⟨S256x128x128x1, .i1⟩
  | 103 => ⟨S1x1x1x1, .i32⟩
  | 104 => ⟨S256x128x128x1, .i32⟩
  | 105 => ⟨S256x128x128x1, .i1⟩
  | 106 => ⟨S256x128x128x1, .i1⟩
  | 107 => ⟨S_, .i1⟩
  | 108 => ⟨S256x128x128, .i1⟩
  | 109 => ⟨S256x128x128x8, .f32⟩
  | 110 => ⟨S256x128x128x8, .i1⟩
  | 111 => ⟨S_, .f32⟩
  | 112 => ⟨S256x128x128x8, .f32⟩
  | 113 => ⟨S256x128x128x8, .f32⟩
  | 114 => ⟨S256x128x128x8, .f32⟩
  | 115 => ⟨S256x128x128x1, .i32⟩
  | 116 => ⟨S256x128x128, .i32⟩
  | 117 => ⟨S_, .i32⟩
  | 118 => ⟨S_, .i32⟩
  | 119 => ⟨S_, .i32⟩
  | 120 => ⟨S256x128x128, .i32⟩
  | 121 => ⟨S256x128x128, .i32⟩
  | 122 => ⟨S_, .i32⟩
  | 123 => ⟨S256x128x128, .i32⟩
  | 124 => ⟨S256x128x128, .i32⟩
  | 125 => ⟨S_, .i32⟩
  | 126 => ⟨S256x128x128, .i32⟩
  | 127 => ⟨S256x128x128, .i32⟩
  | _ => ⟨S32768x512, .f32⟩

abbrev hbmTy0_1 (i : Nat) : BufTy := match i % 128 with
  | 0 => ⟨S_, .i32⟩
  | 1 => ⟨S256x128x128, .i32⟩
  | 2 => ⟨S256x128x128, .i32⟩
  | 3 => ⟨S_, .i32⟩
  | 4 => ⟨S256x128x128, .i32⟩
  | 5 => ⟨S256x128x128, .i1⟩
  | 6 => ⟨S_, .i32⟩
  | 7 => ⟨S256x128x128, .i32⟩
  | 8 => ⟨S256x128x128, .i32⟩
  | 9 => ⟨S256x128x128, .i32⟩
  | 10 => ⟨S256x128x128x1, .i32⟩
  | 11 => ⟨S1, .i32⟩
  | 12 => ⟨S_, .i32⟩
  | 13 => ⟨S256x128x128x1, .i32⟩
  | 14 => ⟨S256x128x128x1, .i1⟩
  | 15 => ⟨S1x1x1x1, .i32⟩
  | 16 => ⟨S256x128x128x1, .i32⟩
  | 17 => ⟨S256x128x128x1, .i1⟩
  | 18 => ⟨S256x128x128x1, .i1⟩
  | 19 => ⟨S_, .i1⟩
  | 20 => ⟨S256x128x128, .i1⟩
  | 21 => ⟨S256x128x128x8, .f32⟩
  | 22 => ⟨S256x128x128x8, .i1⟩
  | 23 => ⟨S_, .f32⟩
  | 24 => ⟨S256x128x128x8, .f32⟩
  | 25 => ⟨S256x128x128x8, .f32⟩
  | 26 => ⟨S256x128x128x8, .f32⟩
  | 27 => ⟨S256x128x128x1, .i32⟩
  | 28 => ⟨S256x128x128, .i32⟩
  | 29 => ⟨S_, .i32⟩
  | 30 => ⟨S_, .i32⟩
  | 31 => ⟨S_, .i32⟩
  | 32 => ⟨S256x128x128, .i32⟩
  | 33 => ⟨S256x128x128, .i32⟩
  | 34 => ⟨S_, .i32⟩
  | 35 => ⟨S256x128x128, .i32⟩
  | 36 => ⟨S256x128x128, .i32⟩
  | 37 => ⟨S_, .i32⟩
  | 38 => ⟨S256x128x128, .i32⟩
  | 39 => ⟨S256x128x128, .i32⟩
  | 40 => ⟨S_, .i32⟩
  | 41 => ⟨S256x128x128, .i32⟩
  | 42 => ⟨S256x128x128, .i32⟩
  | 43 => ⟨S_, .i32⟩
  | 44 => ⟨S256x128x128, .i32⟩
  | 45 => ⟨S256x128x128, .i1⟩
  | 46 => ⟨S_, .i32⟩
  | 47 => ⟨S256x128x128, .i32⟩
  | 48 => ⟨S256x128x128, .i32⟩
  | 49 => ⟨S256x128x128, .i32⟩
  | 50 => ⟨S256x128x128x1, .i32⟩
  | 51 => ⟨S1, .i32⟩
  | 52 => ⟨S_, .i32⟩
  | 53 => ⟨S256x128x128x1, .i32⟩
  | 54 => ⟨S256x128x128x1, .i1⟩
  | 55 => ⟨S1x1x1x1, .i32⟩
  | 56 => ⟨S256x128x128x1, .i32⟩
  | 57 => ⟨S256x128x128x1, .i1⟩
  | 58 => ⟨S256x128x128x1, .i1⟩
  | 59 => ⟨S_, .i1⟩
  | 60 => ⟨S256x128x128, .i1⟩
  | 61 => ⟨S256x128x128x8, .f32⟩
  | 62 => ⟨S256x128x128x8, .i1⟩
  | 63 => ⟨S_, .f32⟩
  | 64 => ⟨S256x128x128x8, .f32⟩
  | 65 => ⟨S256x128x128x8, .f32⟩
  | 66 => ⟨S256x128x128x8, .f32⟩
  | 67 => ⟨S256x8x128x128, .f32⟩
  | 68 => ⟨S256x8x128x64, .f32⟩
  | 69 => ⟨S256x128x8x64, .f32⟩
  | 70 => ⟨S32768x512, .f32⟩
  | 71 => ⟨S_, .i32⟩
  | 72 => ⟨S32768, .i32⟩
  | 73 => ⟨S32768, .i1⟩
  | 74 => ⟨S_, .i32⟩
  | 75 => ⟨S32768, .i32⟩
  | 76 => ⟨S32768, .i32⟩
  | 77 => ⟨S32768, .i32⟩
  | 78 => ⟨S32768x1, .i32⟩
  | 79 => ⟨S1, .i32⟩
  | 80 => ⟨S_, .i32⟩
  | 81 => ⟨S32768x1, .i32⟩
  | 82 => ⟨S32768x1, .i1⟩
  | 83 => ⟨S1x1, .i32⟩
  | 84 => ⟨S32768x1, .i32⟩
  | 85 => ⟨S32768x1, .i1⟩
  | 86 => ⟨S32768x1, .i1⟩
  | 87 => ⟨S_, .i1⟩
  | 88 => ⟨S32768, .i1⟩
  | 89 => ⟨S32768x512, .f32⟩
  | 90 => ⟨S32768x512, .i1⟩
  | 91 => ⟨S_, .f32⟩
  | 92 => ⟨S32768x512, .f32⟩
  | 93 => ⟨S32768x512, .f32⟩
  | 94 => ⟨S1x512, .f32⟩
  | 95 => ⟨S32768x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S512x1536, .f32⟩
  | .local _ .vmem, ⟨3, _⟩ => ⟨S1x1536, .f32⟩
  | .local _ .vmem, ⟨4, _⟩ => ⟨S1024x1536, .f32⟩
  | .local _ .vmem, ⟨5, _⟩ => ⟨S1024x1536, .f32⟩
  | .local _ .vmem, ⟨6, _⟩ => ⟨S4x8x128x64, .f32⟩
  | .local _ .vmem, ⟨7, _⟩ => ⟨S4x8x128x64, .f32⟩
  | .local _ .vmem, ⟨8, _⟩ => ⟨S4x8x128x64, .f32⟩
  | .local _ .vmem, ⟨9, _⟩ => ⟨S4x8x128x64, .f32⟩
  | .local _ .vmem, ⟨10, _⟩ => ⟨S4x8x128x64, .f32⟩
  | .local _ .vmem, ⟨11, _⟩ => ⟨S4x8x128x64, .f32⟩
  | .local _ .vmem, ⟨12, _⟩ => ⟨S4x8x128x128, .f32⟩
  | .local _ .vmem, ⟨13, _⟩ => ⟨S4x8x128x128, .f32⟩
  | .local _ .vmem, ⟨14, _⟩ => ⟨S4x8x128x64, .f32⟩
  | .local _ .vmem, ⟨15, _⟩ => ⟨S4x8x128x64, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S512x512, .f32⟩
  | .local _ .vmem, ⟨21, _⟩ => ⟨S1x512, .f32⟩
  | .local _ .vmem, ⟨22, _⟩ => ⟨S1024x512, .f32⟩
  | .local _ .vmem, ⟨23, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_c_4 : Ref sig .tc := ⟨.hbm, 64, rfl⟩
abbrev main_call1_v15 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_c : Ref sig .tc := ⟨.hbm, 77, rfl⟩
abbrev main_c_0 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v23 : Ref sig .tc := ⟨.hbm, 84, rfl⟩
abbrev main_c_1 : Ref sig .tc := ⟨.hbm, 85, rfl⟩
abbrev main_v24 : Ref sig .tc := ⟨.hbm, 86, rfl⟩
abbrev main_v25 : Ref sig .tc := ⟨.hbm, 87, rfl⟩
abbrev main_c_2 : Ref sig .tc := ⟨.hbm, 88, rfl⟩
abbrev main_v26 : Ref sig .tc := ⟨.hbm, 89, rfl⟩
abbrev main_v27 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v28 : Ref sig .tc := ⟨.hbm, 113, rfl⟩
abbrev main_v29 : Ref sig .tc := ⟨.hbm, 114, rfl⟩
abbrev main_v30 : Ref sig .tc := ⟨.hbm, 115, rfl⟩
abbrev main_v31 : Ref sig .tc := ⟨.hbm, 116, rfl⟩
abbrev main_c_3 : Ref sig .tc := ⟨.hbm, 117, rfl⟩
abbrev main_c_4 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_v32 : Ref sig .tc := ⟨.hbm, 124, rfl⟩
abbrev main_c_5 : Ref sig .tc := ⟨.hbm, 125, rfl⟩
abbrev main_v33 : Ref sig .tc := ⟨.hbm, 126, rfl⟩
abbrev main_v34 : Ref sig .tc := ⟨.hbm, 127, rfl⟩
abbrev main_c_6 : Ref sig .tc := ⟨.hbm, 128, rfl⟩
abbrev main_v35 : Ref sig .tc := ⟨.hbm, 129, rfl⟩
abbrev main_v36 : Ref sig .tc := ⟨.hbm, 130, rfl⟩
abbrev main_call5_c : Ref sig .tc := ⟨.hbm, 131, rfl⟩
abbrev main_call5_v0 : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_c_1 : Ref sig .tc := ⟨.hbm, 139, rfl⟩
abbrev main_call5_c_2 : Ref sig .tc := ⟨.hbm, 140, rfl⟩
abbrev main_call5_v6 : Ref sig .tc := ⟨.hbm, 141, rfl⟩
abbrev main_call5_v7 : Ref sig .tc := ⟨.hbm, 142, rfl⟩
abbrev main_call5_v8 : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_c_3 : Ref sig .tc := ⟨.hbm, 147, rfl⟩
abbrev main_call5_v12 : Ref sig .tc := ⟨.hbm, 148, rfl⟩
abbrev main_call5_v13 : Ref sig .tc := ⟨.hbm, 149, rfl⟩
abbrev main_call5_v14 : Ref sig .tc := ⟨.hbm, 150, rfl⟩
abbrev main_call5_cst : Ref sig .tc := ⟨.hbm, 151, rfl⟩
abbrev main_call5_v15 : Ref sig .tc := ⟨.hbm, 152, rfl⟩
abbrev main_v37 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_c_7 : Ref sig .tc := ⟨.hbm, 157, rfl⟩
abbrev main_c_8 : Ref sig .tc := ⟨.hbm, 158, rfl⟩
abbrev main_call6_v0 : Ref sig .tc := ⟨.hbm, 159, rfl⟩
abbrev main_call6_v1 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_v41 : Ref sig .tc := ⟨.hbm, 164, rfl⟩
abbrev main_c_9 : Ref sig .tc := ⟨.hbm, 165, rfl⟩
abbrev main_v42 : Ref sig .tc := ⟨.hbm, 166, rfl⟩
abbrev main_v43 : Ref sig .tc := ⟨.hbm, 167, rfl⟩
abbrev main_c_10 : Ref sig .tc := ⟨.hbm, 168, rfl⟩
abbrev main_v44 : Ref sig .tc := ⟨.hbm, 169, rfl⟩
abbrev main_v45 : Ref sig .tc := ⟨.hbm, 170, rfl⟩
abbrev main_call7_c : Ref sig .tc := ⟨.hbm, 171, rfl⟩
abbrev main_call7_v0 : Ref sig .tc := ⟨.hbm, 172, rfl⟩
abbrev main_call7_v1 : Ref sig .tc := ⟨.hbm, 173, rfl⟩
abbrev main_call7_c_0 : Ref sig .tc := ⟨.hbm, 174, rfl⟩
abbrev main_call7_v2 : Ref sig .tc := ⟨.hbm, 175, rfl⟩
abbrev main_call7_v3 : Ref sig .tc := ⟨.hbm, 176, rfl⟩
abbrev main_call7_v4 : Ref sig .tc := ⟨.hbm, 177, rfl⟩
abbrev main_call7_v5 : Ref sig .tc := ⟨.hbm, 178, rfl⟩
abbrev main_call7_c_1 : Ref sig .tc := ⟨.hbm, 179, rfl⟩
abbrev main_call7_c_2 : Ref sig .tc := ⟨.hbm, 180, rfl⟩
abbrev main_call7_v6 : Ref sig .tc := ⟨.hbm, 181, rfl⟩
abbrev main_call7_v7 : Ref sig .tc := ⟨.hbm, 182, rfl⟩
abbrev main_call7_v8 : Ref sig .tc := ⟨.hbm, 183, rfl⟩
abbrev main_call7_v9 : Ref sig .tc := ⟨.hbm, 184, rfl⟩
abbrev main_call7_v10 : Ref sig .tc := ⟨.hbm, 185, rfl⟩
abbrev main_call7_v11 : Ref sig .tc := ⟨.hbm, 186, rfl⟩
abbrev main_call7_c_3 : Ref sig .tc := ⟨.hbm, 187, rfl⟩
abbrev main_call7_v12 : Ref sig .tc := ⟨.hbm, 188, rfl⟩
abbrev main_call7_v13 : Ref sig .tc := ⟨.hbm, 189, rfl⟩
abbrev main_call7_v14 : Ref sig .tc := ⟨.hbm, 190, rfl⟩
abbrev main_call7_cst : Ref sig .tc := ⟨.hbm, 191, rfl⟩
abbrev main_call7_v15 : Ref sig .tc := ⟨.hbm, 192, rfl⟩
abbrev main_v46 : Ref sig .tc := ⟨.hbm, 193, rfl⟩
abbrev main_v47 : Ref sig .tc := ⟨.hbm, 194, rfl⟩
abbrev main_v48 : Ref sig .tc := ⟨.hbm, 195, rfl⟩
abbrev main_v49 : Ref sig .tc := ⟨.hbm, 196, rfl⟩
abbrev main_v50 : Ref sig .tc := ⟨.hbm, 197, rfl⟩
abbrev main_v51 : Ref sig .tc := ⟨.hbm, 198, rfl⟩
abbrev main_call8_c : Ref sig .tc := ⟨.hbm, 199, rfl⟩
abbrev main_call8_v0 : Ref sig .tc := ⟨.hbm, 200, rfl⟩
abbrev main_call8_v1 : Ref sig .tc := ⟨.hbm, 201, rfl⟩
abbrev main_call8_c_0 : Ref sig .tc := ⟨.hbm, 202, rfl⟩
abbrev main_call8_v2 : Ref sig .tc := ⟨.hbm, 203, rfl⟩
abbrev main_call8_v3 : Ref sig .tc := ⟨.hbm, 204, rfl⟩
abbrev main_call8_v4 : Ref sig .tc := ⟨.hbm, 205, rfl⟩
abbrev main_call8_v5 : Ref sig .tc := ⟨.hbm, 206, rfl⟩
abbrev main_call8_c_1 : Ref sig .tc := ⟨.hbm, 207, rfl⟩
abbrev main_call8_c_2 : Ref sig .tc := ⟨.hbm, 208, rfl⟩
abbrev main_call8_v6 : Ref sig .tc := ⟨.hbm, 209, rfl⟩
abbrev main_call8_v7 : Ref sig .tc := ⟨.hbm, 210, rfl⟩
abbrev main_call8_v8 : Ref sig .tc := ⟨.hbm, 211, rfl⟩
abbrev main_call8_v9 : Ref sig .tc := ⟨.hbm, 212, rfl⟩
abbrev main_call8_v10 : Ref sig .tc := ⟨.hbm, 213, rfl⟩
abbrev main_call8_v11 : Ref sig .tc := ⟨.hbm, 214, rfl⟩
abbrev main_call8_c_3 : Ref sig .tc := ⟨.hbm, 215, rfl⟩
abbrev main_call8_v12 : Ref sig .tc := ⟨.hbm, 216, rfl⟩
abbrev main_call8_v13 : Ref sig .tc := ⟨.hbm, 217, rfl⟩
abbrev main_call8_v14 : Ref sig .tc := ⟨.hbm, 218, rfl⟩
abbrev main_call8_cst : Ref sig .tc := ⟨.hbm, 219, rfl⟩
abbrev main_call8_v15 : Ref sig .tc := ⟨.hbm, 220, rfl⟩
abbrev main_v52 : Ref sig .tc := ⟨.hbm, 221, rfl⟩
abbrev main_v53 : Ref sig .tc := ⟨.hbm, 222, rfl⟩
abbrev main_v54 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x8x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x8x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x8x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x8x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x8x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768_S32768x1536_0 : S32768.BroadcastsInDim S32768x1536 (![0] : Fin 1 → Fin S32768x1536.rank)
  bcast_S_S32768x1536 : S_.BroadcastsInDim S32768x1536 (![] : Fin 0 → Fin S32768x1536.rank)
  shapeCasts_S32768x1536_S256x128x3x8x64 : S32768x1536.ShapeCasts S256x128x3x8x64
  slices_S256x128x3x8x64_S256x128x1x8x64_0_0_0_0_0 : S256x128x3x8x64.Slices ![0, 0, 0, 0, 0] S256x128x1x8x64
  shapeCasts_S256x128x1x8x64_S256x128x8x64 : S256x128x1x8x64.ShapeCasts S256x128x8x64
  transposes_S256x128x8x64_S256x8x128x64_0_2_1_3 : S256x128x8x64.Transposes [0, 2, 1, 3] S256x8x128x64
  slices_S256x128x3x8x64_S256x128x1x8x64_0_0_1_0_0 : S256x128x3x8x64.Slices ![0, 0, 1, 0, 0] S256x128x1x8x64
  slices_S256x128x3x8x64_S256x128x1x8x64_0_0_2_0_0 : S256x128x3x8x64.Slices ![0, 0, 2, 0, 0] S256x128x1x8x64
  bcast_S32768_S32768x3_0 : S32768.BroadcastsInDim S32768x3 (![0] : Fin 1 → Fin S32768x3.rank)
  bcast_S_S32768x3 : S_.BroadcastsInDim S32768x3 (![] : Fin 0 → Fin S32768x3.rank)
  shapeCasts_S32768x3_S256x128x3 : S32768x3.ShapeCasts S256x128x3
  bcast_S256x128x3_S256x128x1x3_0_1_3 : S256x128x3.BroadcastsInDim S256x128x1x3 (![0, 1, 3] : Fin 3 → Fin S256x128x1x3.rank)
  bcast_S256x128x3_S256x1x128x3_0_2_3 : S256x128x3.BroadcastsInDim S256x1x128x3 (![0, 2, 3] : Fin 3 → Fin S256x1x128x3.rank)
  bcast_S256x128x1x3_S256x128x128x3_0_1_2_3 : S256x128x1x3.BroadcastsInDim S256x128x128x3 (![0, 1, 2, 3] : Fin 4 → Fin S256x128x128x3.rank)
  bcast_S256x1x128x3_S256x128x128x3_0_1_2_3 : S256x1x128x3.BroadcastsInDim S256x128x128x3 (![0, 1, 2, 3] : Fin 4 → Fin S256x128x128x3.rank)
  bcast_S_S256x128x128x8 : S_.BroadcastsInDim S256x128x128x8 (![] : Fin 0 → Fin S256x128x128x8.rank)
  slices_S256x128x128x3_S256x128x128x1_0_0_0_0 : S256x128x128x3.Slices ![0, 0, 0, 0] S256x128x128x1
  shapeCasts_S256x128x128x1_S256x128x128 : S256x128x128x1.ShapeCasts S256x128x128
  bcast_S_S256x128x128 : S_.BroadcastsInDim S256x128x128 (![] : Fin 0 → Fin S256x128x128.rank)
  bcast_S256x128x128_S256x128x128x1_0_1_2 : S256x128x128.BroadcastsInDim S256x128x128x1 (![0, 1, 2] : Fin 3 → Fin S256x128x128x1.rank)
  bcast_S_S256x128x128x1 : S_.BroadcastsInDim S256x128x128x1 (![] : Fin 0 → Fin S256x128x128x1.rank)
  bcast_S1_S1x1x1x1_3 : S1.BroadcastsInDim S1x1x1x1 (![3] : Fin 1 → Fin S1x1x1x1.rank)
  bcast_S1x1x1x1_S256x128x128x1_0_1_2_3 : S1x1x1x1.BroadcastsInDim S256x128x128x1 (![0, 1, 2, 3] : Fin 4 → Fin S256x128x128x1.rank)
  reducesTo_S256x128x128x1_S256x128x128_d3 : S256x128x128x1.ReducesTo [3] S256x128x128
  bcast_S256x128x128_S256x128x128x8_0_1_2 : S256x128x128.BroadcastsInDim S256x128x128x8 (![0, 1, 2] : Fin 3 → Fin S256x128x128x8.rank)
  slices_S256x128x128x3_S256x128x128x1_0_0_0_1 : S256x128x128x3.Slices ![0, 0, 0, 1] S256x128x128x1
  slices_S256x128x128x3_S256x128x128x1_0_0_0_2 : S256x128x128x3.Slices ![0, 0, 0, 2] S256x128x128x1
  transposes_S256x128x128x8_S256x8x128x128_0_3_1_2 : S256x128x128x8.Transposes [0, 3, 1, 2] S256x8x128x128
  inb_S4x8x128x64_S4x8x128x64_0_0_0_0 : ∀ a, (![0, 0, 0, 0] : Fin 4 → Nat) a + S4x8x128x64.size a ≤ S4x8x128x64.size a
  h_S4x8x128x64 : 0 < S4x8x128x64.numel
  shapeCasts_S4x8x128x64_S4x8x128x64 : S4x8x128x64.ShapeCasts S4x8x128x64
  inb_S4x8x128x128_S4x8x128x128_0_0_0_0 : ∀ a, (![0, 0, 0, 0] : Fin 4 → Nat) a + S4x8x128x128.size a ≤ S4x8x128x128.size a
  h_S4x8x128x128 : 0 < S4x8x128x128.numel
  shapeCasts_S4x8x128x128_S4x8x128x128 : S4x8x128x128.ShapeCasts S4x8x128x128
  shapeCasts_S4x8x128x64_S32x128x64 : S4x8x128x64.ShapeCasts S32x128x64
  shapeCasts_S4x8x128x128_S32x128x128 : S4x8x128x128.ShapeCasts S32x128x128
  reduces_S32x128x128_S32x128 : S32x128x128.Reduces [2] S32x128
  shapeCasts_S32x128_S32x128x1 : S32x128.ShapeCasts S32x128x1
  broadcasts_S32x128x1_S32x128x128 : S32x128x1.Broadcasts S32x128x128
  shapeCasts_S32x128x64_S4x8x128x64 : S32x128x64.ShapeCasts S4x8x128x64
  transposes_S256x8x128x64_S256x128x8x64_0_2_1_3 : S256x8x128x64.Transposes [0, 2, 1, 3] S256x128x8x64
  shapeCasts_S256x128x8x64_S32768x512 : S256x128x8x64.ShapeCasts S32768x512
  bcast_S32768_S32768x512_0 : S32768.BroadcastsInDim S32768x512 (![0] : Fin 1 → Fin S32768x512.rank)
  bcast_S_S32768x512 : S_.BroadcastsInDim S32768x512 (![] : Fin 0 → Fin S32768x512.rank)
  shapeCasts_S512_S1x512 : S512.ShapeCasts S1x512
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x1536_S1024x1536_1_0_0_1_n_n_wf : DotDims.WF S1024x512 S512x1536 S1024x1536 [1] [0] [0] [1] [] []
  gather_S32768x1536_S32768x1_S32768x1536_1_0_n_n_0_1_11536_wf : GatherDims.WF S32768x1536 S32768x1 S32768x1536 [1] [0] [] [0] [] 1 ![1, 1536]
  gather_S32768x3_S32768x1_S32768x3_1_0_n_n_0_1_13_wf : GatherDims.WF S32768x3 S32768x1 S32768x3 [1] [0] [] [0] [] 1 ![1, 3]
  gather_S93x8_S256x128x128x1_S256x128x128x8_3_0_n_n_0_3_18_wf : GatherDims.WF S93x8 S256x128x128x1 S256x128x128x8 [3] [0] [] [0] [] 3 ![1, 8]
  dot_S32x128x64_S32x128x64_S32x128x128_2_2_1_1_0_0_wf : DotDims.WF S32x128x64 S32x128x64 S32x128x128 [2] [2] [1] [1] [0] [0]
  dot_S32x128x128_S32x128x64_S32x128x64_2_1_1_2_0_0_wf : DotDims.WF S32x128x128 S32x128x64 S32x128x64 [2] [1] [1] [2] [0] [0]
  gather_S32768x512_S32768x1_S32768x512_1_0_n_n_0_1_1512_wf : GatherDims.WF S32768x512 S32768x1 S32768x512 [1] [0] [] [0] [] 1 ![1, 512]
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S32768x1536.size a
  hwx0_3 : ∀ i : grid0.Coords, EltTy.bits .f32 = 32 ∨ (Rect.block (s := S32768x1536) S1024x1536.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x8x128x64.size a ≤ S256x8x128x64.size a
  hwx1_0 : ∀ i : grid1.Coords, EltTy.bits .f32 = 32 ∨ (Rect.block (s := S256x8x128x64) S4x8x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x8x128x64.size a ≤ S256x8x128x64.size a
  hwx1_1 : ∀ i : grid1.Coords, EltTy.bits .f32 = 32 ∨ (Rect.block (s := S256x8x128x64) S4x8x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x8x128x64.size a ≤ S256x8x128x64.size a
  hwx1_2 : ∀ i : grid1.Coords, EltTy.bits .f32 = 32 ∨ (Rect.block (s := S256x8x128x64) S4x8x128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x8x128x128.size a ≤ S256x8x128x128.size a
  hwx1_3 : ∀ i : grid1.Coords, EltTy.bits .f32 = 32 ∨ (Rect.block (s := S256x8x128x128) S4x8x128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x8x128x64.size a ≤ S256x8x128x64.size a
  hwx1_4 : ∀ i : grid1.Coords, EltTy.bits .f32 = 32 ∨ (Rect.block (s := S256x8x128x64) S4x8x128x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S32768x512.size a
  hwx2_0 : ∀ i : grid2.Coords, EltTy.bits .f32 = 32 ∨ (Rect.block (s := S32768x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S32768x512.size a
  hwx2_1 : ∀ i : grid2.Coords, EltTy.bits .f32 = 32 ∨ (Rect.block (s := S32768x512) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S32768x512.size a
  hwx2_4 : ∀ i : grid2.Coords, EltTy.bits .f32 = 32 ∨ (Rect.block (s := S32768x512) S1024x512.size (cc2_transform_4 i) (hinb2_4 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def gather_S32768x1536_S32768x1_S32768x1536_1_0_n_n_0_1_11536 : GatherDims S32768x1536 S32768x1 S32768x1536 where
  offsetDims := [1]
  collapsedSliceDims := [0]
  operandBatchingDims := []
  startIndicesBatchingDims := []
  startIndexMap := [0]
  indexVectorDim := 1
  sliceSizes := ![1, 1536]
  wf := gather_S32768x1536_S32768x1_S32768x1536_1_0_n_n_0_1_11536_wf
def gather_S32768x3_S32768x1_S32768x3_1_0_n_n_0_1_13 : GatherDims S32768x3 S32768x1 S32768x3 where
  offsetDims := [1]
  collapsedSliceDims := [0]
  operandBatchingDims := []
  startIndicesBatchingDims := []
  startIndexMap := [0]
  indexVectorDim := 1
  sliceSizes := ![1, 3]
  wf := gather_S32768x3_S32768x1_S32768x3_1_0_n_n_0_1_13_wf
def gather_S93x8_S256x128x128x1_S256x128x128x8_3_0_n_n_0_3_18 : GatherDims S93x8 S256x128x128x1 S256x128x128x8 where
  offsetDims := [3]
  collapsedSliceDims := [0]
  operandBatchingDims := []
  startIndicesBatchingDims := []
  startIndexMap := [0]
  indexVectorDim := 3
  sliceSizes := ![1, 8]
  wf := gather_S93x8_S256x128x128x1_S256x128x128x8_3_0_n_n_0_3_18_wf
def dot_S32x128x64_S32x128x64_S32x128x128_2_2_1_1_0_0 : DotDims S32x128x64 S32x128x64 S32x128x128 where
  lhsContracting := [2]
  rhsContracting := [2]
  lhsNonContracting := [1]
  rhsNonContracting := [1]
  lhsBatch := [0]
  rhsBatch := [0]
  wf := dot_S32x128x64_S32x128x64_S32x128x128_2_2_1_1_0_0_wf
def dot_S32x128x128_S32x128x64_S32x128x64_2_1_1_2_0_0 : DotDims S32x128x128 S32x128x64 S32x128x64 where
  lhsContracting := [2]
  rhsContracting := [1]
  lhsNonContracting := [1]
  rhsNonContracting := [2]
  lhsBatch := [0]
  rhsBatch := [0]
  wf := dot_S32x128x128_S32x128x64_S32x128x64_2_1_1_2_0_0_wf
def gather_S32768x512_S32768x1_S32768x512_1_0_n_n_0_1_1512 : GatherDims S32768x512 S32768x1 S32768x512 where
  offsetDims := [1]
  collapsedSliceDims := [0]
  operandBatchingDims := []
  startIndicesBatchingDims := []
  startIndexMap := [0]
  indexVectorDim := 1
  sliceSizes := ![1, 512]
  wf := gather_S32768x512_S32768x1_S32768x512_1_0_n_n_0_1_1512_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S4x8x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4x8x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4x8x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S4x8x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v49) S4x8x128x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1024x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S32768x512 : Shape := ⟨2, ![32768, 512]⟩
abbrev S32768x3 : Shape := ⟨2, ![32768, 3]⟩
abbrev S32768 : Shape := ⟨1, ![32768]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S93x8 : Shape := ⟨2, ![93, 8]⟩
abbrev S32768x1536 : Shape := ⟨2, ![32768, 1536]⟩
abbrev S1x1536 : Shape := ⟨2, ![1, 1536]⟩
abbrev S_ : Shape := ⟨0, ![]⟩
abbrev S32768x1 : Shape := ⟨2, ![32768, 1]⟩
abbrev S256x128x3x8x64 : Shape := ⟨5, ![256, 128, 3, 8, 64]⟩
abbrev S256x128x1x8x64 : Shape := ⟨5, ![256, 128, 1, 8, 64]⟩
abbrev S256x128x8x64 : Shape := ⟨4, ![256, 128, 8, 64]⟩
abbrev S256x8x128x64 : Shape := ⟨4, ![256, 8, 128, 64]⟩
abbrev S256x8x128x128 : Shape := ⟨4, ![256, 8, 128, 128]⟩
abbrev S256x128x3 : Shape := ⟨3, ![256, 128, 3]⟩
abbrev S256x128x1x3 : Shape := ⟨4, ![256, 128, 1, 3]⟩
abbrev S256x1x128x3 : Shape := ⟨4, ![256, 1, 128, 3]⟩
abbrev S256x128x128x3 : Shape := ⟨4, ![256, 128, 128, 3]⟩
abbrev S3 : Shape := ⟨1, ![3]⟩
abbrev S1x1x1x3 : Shape := ⟨4, ![1, 1, 1, 3]⟩
abbrev S256x128x128x3x1 : Shape := ⟨5, ![256, 128, 128, 3, 1]⟩
abbrev S256x128x128x3x8 : Shape := ⟨5, ![256, 128, 128, 3, 8]⟩
abbrev S256x128x128x8 : Shape := ⟨4, ![256, 128, 128, 8]⟩
abbrev S256x8x128 : Shape := ⟨3, ![256, 8, 128]⟩
abbrev S256x8x128x1 : Shape := ⟨4, ![256, 8, 128, 1]⟩
abbrev S1x512 : Shape := ⟨2, ![1, 512]⟩

abbrev nBuf : Space → Nat
  | .hbm => 113
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x3, .i32⟩
  | .hbm, ⟨2, _⟩ => ⟨S32768, .i32⟩
  | .hbm, ⟨3, _⟩ => ⟨S32768, .i32⟩
  | .hbm, ⟨4, _⟩ => ⟨S512x1536, .f32⟩
  | .hbm, ⟨5, _⟩ => ⟨S1536, .f32⟩
  | .hbm, ⟨6, _⟩ => ⟨S512x512, .f32⟩
  | .hbm, ⟨7, _⟩ => ⟨S512, .f32⟩
  | .hbm, ⟨8, _⟩ => ⟨S93x8, .f32⟩
  | .hbm, ⟨9, _⟩ => ⟨S32768x1536, .f32⟩
  | .hbm, ⟨10, _⟩ => ⟨S1x1536, .f32⟩
  | .hbm, ⟨11, _⟩ => ⟨S32768x1536, .f32⟩
  | .hbm, ⟨12, _⟩ => ⟨S32768x1536, .f32⟩
  | .hbm, ⟨13, _⟩ => ⟨S_, .i32⟩
  | .hbm, ⟨14, _⟩ => ⟨S32768, .i32⟩
  | .hbm, ⟨15, _⟩ => ⟨S32768, .i1⟩
  | .hbm, ⟨16, _⟩ => ⟨S_, .i32⟩
  | .hbm, ⟨17, _⟩ => ⟨S32768, .i32⟩
  | .hbm, ⟨18, _⟩ => ⟨S32768, .i32⟩
  | .hbm, ⟨19, _⟩ => ⟨S32768, .i32⟩
  | .hbm, ⟨20, _⟩ => ⟨S32768x1, .i32⟩
  | .hbm, ⟨21, _⟩ => ⟨S32768x1536, .f32⟩
  | .hbm, ⟨22, _⟩ => ⟨S256x128x3x8x64, .f32⟩
  | .hbm, ⟨23, _⟩ => ⟨S256x128x1x8x64, .f32⟩
  | .hbm, ⟨24, _⟩ => ⟨S256x128x8x64, .f32⟩
  | .hbm, ⟨25, _⟩ => ⟨S256x8x128x64, .f32⟩
  | .hbm, ⟨26, _⟩ => ⟨S256x128x1x8x64, .f32⟩
  | .hbm, ⟨27, _⟩ => ⟨S256x128x8x64, .f32⟩
  | .hbm, ⟨28, _⟩ => ⟨S256x8x128x64, .f32⟩
  | .hbm, ⟨29, _⟩ => ⟨S256x128x1x8x64, .f32⟩
  | .hbm, ⟨30, _⟩ => ⟨S256x128x8x64, .f32⟩
  | .hbm, ⟨31, _⟩ => ⟨S256x8x128x64, .f32⟩
  | .hbm, ⟨32, _⟩ => ⟨S_, .f32⟩
  | .hbm, ⟨33, _⟩ => ⟨S256x8x128x64, .f32⟩
  | .hbm, ⟨34, _⟩ => ⟨S256x8x128x64, .f32⟩
  | .hbm, ⟨35, _⟩ => ⟨S256x8x128x128, .f32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S32768x1, .i32⟩
  | .hbm, ⟨44, _⟩ => ⟨S32768x3, .i32⟩
  | .hbm, ⟨45, _⟩ => ⟨S256x128x3, .i32⟩
  | .hbm, ⟨46, _⟩ => ⟨S256x128x1x3, .i32⟩
  | .hbm, ⟨47, _⟩ => ⟨S256x1x128x3, .i32⟩
  | .hbm, ⟨48, _⟩ => ⟨S256x128x128x3, .i32⟩
  | .hbm, ⟨49, _⟩ => ⟨S256x128x128x3, .i32⟩
  | .hbm, ⟨50, _⟩ => ⟨S256x128x128x3, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S256x128x128x3, .i32⟩
  | .hbm, ⟨55, _⟩ => ⟨S256x128x128x3, .i32⟩
  | .hbm, ⟨56, _⟩ => ⟨S_, .i32⟩
  | .hbm, ⟨57, _⟩ => ⟨S256x128x128x3, .i32⟩
  | .hbm, ⟨58, _⟩ => ⟨S256x128x128x3, .i32⟩
  | .hbm, ⟨59, _⟩ => ⟨S_, .i32⟩
  | .hbm, ⟨60, _⟩ => ⟨S256x128x128x3, .i32⟩
  | .hbm, ⟨61, _⟩ => ⟨S256x128x128x3, .i32⟩
  | .hbm, ⟨62, _⟩ => ⟨S3, .i32⟩
  | .hbm, ⟨63, _⟩ => ⟨S_, .i32⟩
  | .hbm, ⟨64, _⟩ => ⟨S3, .i32⟩
  | .hbm, ⟨65, _⟩ => ⟨S3, .i32⟩
  | .hbm, ⟨66, _⟩ => ⟨S1x1x1x3, .i32⟩
  | .hbm, ⟨67, _⟩ => ⟨S256x128x128x3, .i32⟩
  | .hbm, ⟨68, _⟩ => ⟨S256x128x128x3, .i32⟩
  | .hbm, ⟨69, _⟩ => ⟨S_, .i32⟩
  | .hbm, ⟨70, _⟩ => ⟨S256x128x128x3, .i32⟩
  | .hbm, ⟨71, _⟩ => ⟨S256x128x128x3, .i1⟩
  | .hbm, ⟨72, _⟩ => ⟨S_, .i32⟩
  | .hbm, ⟨73, _⟩ => ⟨S256x128x128x3, .i32⟩
  | .hbm, ⟨74, _⟩ => ⟨S256x128x128x3, .i32⟩
  | .hbm, ⟨75, _⟩ => ⟨S256x128x128x3, .i32⟩
  | .hbm, ⟨76, _⟩ => ⟨S256x128x128x3x1, .i32⟩
  | .hbm, ⟨77, _⟩ => ⟨S256x128x128x3x8, .f32⟩
  | .hbm, ⟨78, _⟩ => ⟨S_, .f32⟩
  | .hbm, ⟨79, _⟩ => ⟨S256x128x128x8, .f32⟩
  | .hbm, ⟨80, _⟩ => ⟨S256x8x128x128, .f32⟩
  | .hbm, ⟨81, _⟩ => ⟨S256x8x128x128, .f32⟩
  | .hbm, ⟨82, _⟩ => ⟨S_, .f32⟩
  | .hbm, ⟨83, _⟩ => ⟨S256x8x128, .f32⟩
  | .hbm, ⟨84, _⟩ => ⟨S_, .f32⟩
  | .hbm, ⟨85, _⟩ => ⟨S256x8x128, .f32⟩
  | .hbm, ⟨86, _⟩ => ⟨S256x8x128, .f32⟩
  | .hbm, ⟨87, _⟩ => ⟨S256x8x128x1, .f32⟩
  | .hbm, ⟨88, _⟩ => ⟨S256x8x128x128, .f32⟩
  | .hbm, ⟨89, _⟩ => ⟨S256x8x128x128, .f32⟩
  | .hbm, ⟨90, _⟩ => ⟨S256x8x128x128, .f32⟩
  | .hbm, ⟨91, _⟩ => ⟨S_, .f32⟩
  | .hbm, ⟨92, _⟩ => ⟨S256x8x128, .f32⟩
  | .hbm, ⟨93, _⟩ => ⟨S256x8x128x1, .f32⟩
  | .hbm, ⟨94, _⟩ => ⟨S256x8x128x128, .f32⟩
  | .hbm, ⟨95, _⟩ => ⟨S256x8x128x128, .f32⟩
  | .hbm, ⟨96, _⟩ => ⟨S256x8x128x64, .f32⟩
  | .hbm, ⟨97, _⟩ => ⟨S256x128x8x64, .f32⟩
  | .hbm, ⟨98, _⟩ => ⟨S32768x512, .f32⟩
  | .hbm, ⟨99, _⟩ => ⟨S_, .i32⟩
  | .hbm, ⟨100, _⟩ => ⟨S32768, .i32⟩
  | .hbm, ⟨101, _⟩ => ⟨S32768, .i1⟩
  | .hbm, ⟨102, _⟩ => ⟨S_, .i32⟩
  | .hbm, ⟨103, _⟩ => ⟨S32768, .i32⟩
  | .hbm, ⟨104, _⟩ => ⟨S32768, .i32⟩
  | .hbm, ⟨105, _⟩ => ⟨S32768, .i32⟩
  | .hbm, ⟨106, _⟩ => ⟨S32768x1, .i32⟩
  | .hbm, ⟨107, _⟩ => ⟨S32768x512, .f32⟩
  | .hbm, ⟨108, _⟩ => ⟨S32768x512, .f32⟩
  | .hbm, ⟨109, _⟩ => ⟨S1x512, .f32⟩
  | .hbm, ⟨110, _⟩ => ⟨S32768x512, .f32⟩
  | .hbm, ⟨111, _⟩ => ⟨S32768x512, .f32⟩
  | .hbm, ⟨112, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_3 : Ref sig .tc := ⟨.hbm, 51, rfl⟩
abbrev main_c_4 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  bcast_S1536_S1x1536_1 : S1536.BroadcastsInDim S1x1536 (![1] : Fin 1 → Fin S1x1536.rank)
  bcast_S1x1536_S32768x1536_0_1 : S1x1536.BroadcastsInDim S32768x1536 (![0, 1] : Fin 2 → Fin S32768x1536.rank)
  bcast_S_S32768 : S_.BroadcastsInDim S32768 (![] : Fin 0 → Fin S32768.rank)
  bcast_S32768_S32768x1_0 : S32768.BroadcastsInDim S32768x1 (![0] : Fin 1 → Fin S32768x1.rank)
  shapeCasts_S32768x1536_S256x128x3x8x64 : S32768x1536.ShapeCasts S256x128x3x8x64
  slices_S256x128x3x8x64_S256x128x1x8x64_0_0_0_0_0 : S256x128x3x8x64.Slices ![0, 0, 0, 0, 0] S256x128x1x8x64
  shapeCasts_S256x128x1x8x64_S256x128x8x64 : S256x128x1x8x64.ShapeCasts S256x128x8x64
  transposes_S256x128x8x64_S256x8x128x64_0_2_1_3 : S256x128x8x64.Transposes [0, 2, 1, 3] S256x8x128x64
  slices_S256x128x3x8x64_S256x128x1x8x64_0_0_1_0_0 : S256x128x3x8x64.Slices ![0, 0, 1, 0, 0] S256x128x1x8x64
  slices_S256x128x3x8x64_S256x128x1x8x64_0_0_2_0_0 : S256x128x3x8x64.Slices ![0, 0, 2, 0, 0] S256x128x1x8x64
  bcast_S_S256x8x128x64 : S_.BroadcastsInDim S256x8x128x64 (![] : Fin 0 → Fin S256x8x128x64.rank)
  shapeCasts_S32768x3_S256x128x3 : S32768x3.ShapeCasts S256x128x3
  bcast_S256x128x3_S256x128x1x3_0_1_3 : S256x128x3.BroadcastsInDim S256x128x1x3 (![0, 1, 3] : Fin 3 → Fin S256x128x1x3.rank)
  bcast_S256x128x3_S256x1x128x3_0_2_3 : S256x128x3.BroadcastsInDim S256x1x128x3 (![0, 2, 3] : Fin 3 → Fin S256x1x128x3.rank)
  bcast_S256x128x1x3_S256x128x128x3_0_1_2_3 : S256x128x1x3.BroadcastsInDim S256x128x128x3 (![0, 1, 2, 3] : Fin 4 → Fin S256x128x128x3.rank)
  bcast_S256x1x128x3_S256x128x128x3_0_1_2_3 : S256x1x128x3.BroadcastsInDim S256x128x128x3 (![0, 1, 2, 3] : Fin 4 → Fin S256x128x128x3.rank)
  bcast_S_S256x128x128x3 : S_.BroadcastsInDim S256x128x128x3 (![] : Fin 0 → Fin S256x128x128x3.rank)
  bcast_S_S3 : S_.BroadcastsInDim S3 (![] : Fin 0 → Fin S3.rank)
  bcast_S3_S1x1x1x3_3 : S3.BroadcastsInDim S1x1x1x3 (![3] : Fin 1 → Fin S1x1x1x3.rank)
  bcast_S1x1x1x3_S256x128x128x3_0_1_2_3 : S1x1x1x3.BroadcastsInDim S256x128x128x3 (![0, 1, 2, 3] : Fin 4 → Fin S256x128x128x3.rank)
  bcast_S256x128x128x3_S256x128x128x3x1_0_1_2_3 : S256x128x128x3.BroadcastsInDim S256x128x128x3x1 (![0, 1, 2, 3] : Fin 4 → Fin S256x128x128x3x1.rank)
  reducesTo_S256x128x128x3x8_S256x128x128x8_d3 : S256x128x128x3x8.ReducesTo [3] S256x128x128x8
  h_S_ : 0 < S_.numel
  transposes_S256x128x128x8_S256x8x128x128_0_3_1_2 : S256x128x128x8.Transposes [0, 3, 1, 2] S256x8x128x128
  reducesTo_S256x8x128x128_S256x8x128_d3 : S256x8x128x128.ReducesTo [3] S256x8x128
  bcast_S_S256x8x128 : S_.BroadcastsInDim S256x8x128 (![] : Fin 0 → Fin S256x8x128.rank)
  bcast_S256x8x128_S256x8x128x1_0_1_2 : S256x8x128.BroadcastsInDim S256x8x128x1 (![0, 1, 2] : Fin 3 → Fin S256x8x128x1.rank)
  bcast_S256x8x128x1_S256x8x128x128_0_1_2_3 : S256x8x128x1.BroadcastsInDim S256x8x128x128 (![0, 1, 2, 3] : Fin 4 → Fin S256x8x128x128.rank)
  transposes_S256x8x128x64_S256x128x8x64_0_2_1_3 : S256x8x128x64.Transposes [0, 2, 1, 3] S256x128x8x64
  shapeCasts_S256x128x8x64_S32768x512 : S256x128x8x64.ShapeCasts S32768x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x512_S512x1536_S32768x1536_1_0_0_1_n_n_wf : DotDims.WF S32768x512 S512x1536 S32768x1536 [1] [0] [0] [1] [] []
  gather_S32768x1536_S32768x1_S32768x1536_1_0_n_n_0_1_11536_wf : GatherDims.WF S32768x1536 S32768x1 S32768x1536 [1] [0] [] [0] [] 1 ![1, 1536]
  dot_S256x8x128x64_S256x8x128x64_S256x8x128x128_3_3_2_2_01_01_wf : DotDims.WF S256x8x128x64 S256x8x128x64 S256x8x128x128 [3] [3] [2] [2] [0, 1] [0, 1]
  gather_S32768x3_S32768x1_S32768x3_1_0_n_n_0_1_13_wf : GatherDims.WF S32768x3 S32768x1 S32768x3 [1] [0] [] [0] [] 1 ![1, 3]
  gather_S93x8_S256x128x128x3x1_S256x128x128x3x8_4_0_n_n_0_4_18_wf : GatherDims.WF S93x8 S256x128x128x3x1 S256x128x128x3x8 [4] [0] [] [0] [] 4 ![1, 8]
  dot_S256x8x128x128_S256x8x128x64_S256x8x128x64_3_2_2_3_01_01_wf : DotDims.WF S256x8x128x128 S256x8x128x64 S256x8x128x64 [3] [2] [2] [3] [0, 1] [0, 1]
  gather_S32768x512_S32768x1_S32768x512_1_0_n_n_0_1_1512_wf : GatherDims.WF S32768x512 S32768x1 S32768x512 [1] [0] [] [0] [] 1 ![1, 512]
  dot_S32768x512_S512x512_S32768x512_1_0_0_1_n_n_wf : DotDims.WF S32768x512 S512x512 S32768x512 [1] [0] [0] [1] [] []

variable [Facts₀]

def dot_S32768x512_S512x1536_S32768x1536_1_0_0_1_n_n : DotDims S32768x512 S512x1536 S32768x1536 where
  lhsContracting := [1]
  rhsContracting := [0]
  lhsNonContracting := [0]
  rhsNonContracting := [1]
  lhsBatch := []
  rhsBatch := []
  wf := dot_S32768x512_S512x1536_S32768x1536_1_0_0_1_n_n_wf
def gather_S32768x1536_S32768x1_S32768x1536_1_0_n_n_0_1_11536 : GatherDims S32768x1536 S32768x1 S32768x1536 where
  offsetDims := [1]
  collapsedSliceDims := [0]
  operandBatchingDims := []
  startIndicesBatchingDims := []
  startIndexMap := [0]
  indexVectorDim := 1
  sliceSizes := ![1, 1536]
  wf := gather_S32768x1536_S32768x1_S32768x1536_1_0_n_n_0_1_11536_wf
def dot_S256x8x128x64_S256x8x128x64_S256x8x128x128_3_3_2_2_01_01 : DotDims S256x8x128x64 S256x8x128x64 S256x8x128x128 where
  lhsContracting := [3]
  rhsContracting := [3]
  lhsNonContracting := [2]
  rhsNonContracting := [2]
  lhsBatch := [0, 1]
  rhsBatch := [0, 1]
  wf := dot_S256x8x128x64_S256x8x128x64_S256x8x128x128_3_3_2_2_01_01_wf
def gather_S32768x3_S32768x1_S32768x3_1_0_n_n_0_1_13 : GatherDims S32768x3 S32768x1 S32768x3 where
  offsetDims := [1]
  collapsedSliceDims := [0]
  operandBatchingDims := []
  startIndicesBatchingDims := []
  startIndexMap := [0]
  indexVectorDim := 1
  sliceSizes := ![1, 3]
  wf := gather_S32768x3_S32768x1_S32768x3_1_0_n_n_0_1_13_wf
def gather_S93x8_S256x128x128x3x1_S256x128x128x3x8_4_0_n_n_0_4_18 : GatherDims S93x8 S256x128x128x3x1 S256x128x128x3x8 where
  offsetDims := [4]
  collapsedSliceDims := [0]
  operandBatchingDims := []
  startIndicesBatchingDims := []
  startIndexMap := [0]
  indexVectorDim := 4
  sliceSizes := ![1, 8]
  wf := gather_S93x8_S256x128x128x3x1_S256x128x128x3x8_4_0_n_n_0_4_18_wf
def dot_S256x8x128x128_S256x8x128x64_S256x8x128x64_3_2_2_3_01_01 : DotDims S256x8x128x128 S256x8x128x64 S256x8x128x64 where
  lhsContracting := [3]
  rhsContracting := [2]
  lhsNonContracting := [2]
  rhsNonContracting := [3]
  lhsBatch := [0, 1]
  rhsBatch := [0, 1]
  wf := dot_S256x8x128x128_S256x8x128x64_S256x8x128x64_3_2_2_3_01_01_wf
def gather_S32768x512_S32768x1_S32768x512_1_0_n_n_0_1_1512 : GatherDims S32768x512 S32768x1 S32768x512 where
  offsetDims := [1]
  collapsedSliceDims := [0]
  operandBatchingDims := []
  startIndicesBatchingDims := []
  startIndexMap := [0]
  indexVectorDim := 1
  sliceSizes := ![1, 512]
  wf := gather_S32768x512_S32768x1_S32768x512_1_0_n_n_0_1_1512_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.TakeMask.lean ====
import proofs.«411299_j71957882077526_1_alg».proof.Defs
import proofs.«411299_j71957882077526_1_alg».proof.Proof.Gen.KernelIdeal
import proofs.«411299_j71957882077526_1_alg».proof.Proof.Gen.Pre_finite_inputs
import Idealize.ShloMosaic.Lib.StableHlo.Predicate
import Idealize.ShloMosaic.Lib.ReduceAll

/-! `jnp.take` guards its gather: an index is first wrapped (a negative one counts from the end), then tested
    against `[0, n)`, and a row whose index fails the test is filled instead of gathered. Here: on indices that
    are valid for the axis the test is true everywhere, so the guarded gather is the gather; and the
    precondition says that the two index inputs are valid. -/

noncomputable section

namespace Cert.KernelIdeal.Val

open Idealize.ShloMosaic Cert.KernelIdeal Cert.KernelIdeal.Facts₀ Cert.KernelIdeal.Facts

namespace TakeMask

/-! ### Words

Facts about single 32-bit words, each read as a signed integer (`toInt`). None of the sums below leaves
`[-2^31, 2^31)`, so the machine's wrapping addition is the integers' addition on them. -/

/-- Where the integers' sum of two words fits in 32 bits signed, the words' sum reads as it. -/
theorem toInt_add_of_fits (a b : BitVec 32) (lo : -2147483648 ≤ a.toInt + b.toInt) (hi : a.toInt + b.toInt < 2147483648) :
    (a + b).toInt = a.toInt + b.toInt := by
  rw [BitVec.toInt_add]
  exact Int.bmod_eq_of_le (by omega) (by omega)

/-- A scalar select on a true condition is its first branch, on a condition that is not true its second. -/
theorem select_of_one {α : Type} (c : BitVec 1) (a b : α) (h : c = 1#1) : Scalar.select c a b = a := if_pos h
theorem select_of_ne_one {α : Type} (c : BitVec 1) (a b : α) (h : ¬ c = 1#1) : Scalar.select c a b = b := if_neg h

/-- numpy's wrap of an index `w` in `[-32768, 32768)` — `w + 32768` where `w` is negative, else `w` — lies in
    `[0, 32767]`, so both halves of the range test are true. -/
theorem wrap_row_ok (w : BitVec 32) (h : -32768 ≤ w.toInt ∧ w.toInt < 32768) :
    IntOp.andi
      (IntOp.cmpi .sge (Scalar.select (IntOp.cmpi .slt w 0#32) (IntOp.addi w 32768#32) w) 0#32)
      (IntOp.cmpi .sle (Scalar.select (IntOp.cmpi .slt w 0#32) (IntOp.addi w 32768#32) w) 32767#32) = 1#1 := by
  have e0 : (0#32 : BitVec 32).toInt = 0 := by decide
  have e1 : (32768#32 : BitVec 32).toInt = 32768 := by decide
  have e2 : (32767#32 : BitVec 32).toInt = 32767 := by decide
  rw [IntOp.andi_eq_one, IntOp.cmpi_sge, IntOp.cmpi_sle, e0, e2]
  by_cases hc : IntOp.cmpi .slt w 0#32 = 1#1
  · rw [select_of_one _ _ _ hc]
    rw [IntOp.cmpi_slt, e0] at hc
    show 0 ≤ (w + 32768#32).toInt ∧ (w + 32768#32).toInt ≤ 32767
    rw [toInt_add_of_fits _ _ (by omega) (by omega), e1]
    omega
  · rw [select_of_ne_one _ _ _ hc]
    rw [IntOp.cmpi_slt, e0] at hc
    omega

/-- The same wrap against an axis of extent 93, at an index already in `[0, 92]`: the index is not negative, the
    wrap leaves it alone, and it passes both halves of the test. -/
theorem wrap_tab_ok (w : BitVec 32) (h : 0 ≤ w.toInt ∧ w.toInt ≤ 92) :
    IntOp.andi
      (IntOp.cmpi .sge (Scalar.select (IntOp.cmpi .slt w 0#32) (IntOp.addi w 93#32) w) 0#32)
      (IntOp.cmpi .sle (Scalar.select (IntOp.cmpi .slt w 0#32) (IntOp.addi w 93#32) w) 92#32) = 1#1 := by
  have e0 : (0#32 : BitVec 32).toInt = 0 := by decide
  have e2 : (92#32 : BitVec 32).toInt = 92 := by decide
  have hc : ¬ IntOp.cmpi .slt w 0#32 = 1#1 := by rw [IntOp.cmpi_slt, e0]; omega
  rw [select_of_ne_one _ _ _ hc, IntOp.andi_eq_one, IntOp.cmpi_sge, IntOp.cmpi_sle, e0, e2]
  exact h

/-- `min(15, max(-15, x))` lies in `[-15, 15]` whatever the word `x`; adding 15 gives `[0, 30]`, and adding an
    offset `k ≤ 62` gives `[0, 92]`. -/
theorem clip_shift_word (x k : BitVec 32) (hk : k.toNat ≤ 62) :
    0 ≤ (IntOp.addi (IntOp.addi (IntOp.minsi 15#32 (IntOp.maxsi 4294967281#32 x)) 15#32) k).toInt
      ∧ (IntOp.addi (IntOp.addi (IntOp.minsi 15#32 (IntOp.maxsi 4294967281#32 x)) 15#32) k).toInt ≤ 92 := by
  have e15 : (15#32 : BitVec 32).toInt = 15 := by decide
  have em : (4294967281#32 : BitVec 32).toInt = -15 := by decide
  have ek : k.toInt = k.toNat := BitVec.toInt_eq_toNat_of_lt (by omega)
  -- the clip, as a signed integer, is in [-15, 15]
  have hclip : -15 ≤ (IntOp.minsi 15#32 (IntOp.maxsi 4294967281#32 x)).toInt
      ∧ (IntOp.minsi 15#32 (IntOp.maxsi 4294967281#32 x)).toInt ≤ 15 := by
    unfold IntOp.minsi IntOp.maxsi
    simp only [BitVec.slt_iff_toInt_lt]
    split_ifs <;> omega
  show 0 ≤ (((IntOp.minsi 15#32 (IntOp.maxsi 4294967281#32 x)) + 15#32) + k).toInt
      ∧ (((IntOp.minsi 15#32 (IntOp.maxsi 4294967281#32 x)) + 15#32) + k).toInt ≤ 92
  have s1 : ((IntOp.minsi 15#32 (IntOp.maxsi 4294967281#32 x)) + 15#32).toInt
      = (IntOp.minsi 15#32 (IntOp.maxsi 4294967281#32 x)).toInt + 15 := by
    rw [toInt_add_of_fits _ _ (by omega) (by omega), e15]
  rw [toInt_add_of_fits _ _ (by omega) (by omega), s1, ek]
  omega

/-- The precondition's test of one index word, read back as signed integers: `-32768 ≤ w < 32768`. -/
theorem range_of_test (w : BitVec 32)
    (h : IntOp.andi (IntOp.cmpi .sge w 4294934528#32) (IntOp.cmpi .slt w 32768#32) = 1#1) :
    -32768 ≤ w.toInt ∧ w.toInt < 32768 := by
  have em : (4294934528#32 : BitVec 32).toInt = -32768 := by decide
  have e1 : (32768#32 : BitVec 32).toInt = 32768 := by decide
  rw [IntOp.andi_eq_one, IntOp.cmpi_sge, IntOp.cmpi_slt, em, e1] at h
  exact h

/-! ### `jnp.all` of a vector of ones -/

/-- A left fold by `and` that starts at 1 and meets only 1s ends at 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl =>
    foldl_andi_ones f l _ (IntOp.andi_eq_one.2 ⟨h, hl a List.mem_cons_self⟩) fun n hn => hl n (List.mem_cons_of_mem _ hn)

/-- The and-reduction, from the constant 1, of a vector that is 1 at every index is 1 at every result index: each
    result is a left fold by `and` over some of the operand's entries. -/
theorem reduce_andi_ones {s t u : Shape} {axes : List (Fin s.rank)} (x : s.Idx → BitVec 1) (h : s.ReducesTo axes t)
    (hu : 0 < u.numel) (hx : ∀ i, x i = 1#1) :
    Host.reduce IntOp.andi x (constantI u 1 1#1) h hu = fun _ => 1#1 := by
  funext j
  rw [Host.reduce_eq_foldl]
  exact foldl_andi_ones x _ _ rfl fun n _ => hx n

end TakeMask

/-- An index vector into an axis of extent 32768, numpy's way: each entry in `[-32768, 32768)`. -/
def IdxOk (o : IVec S32768 32) : Prop := ∀ i, -32768 ≤ (o i).toInt ∧ (o i).toInt < 32768

/-- The wrapped index, laid out as the one-column start-index table the gather takes. -/
abbrev idxCol (o : IVec S32768 32) : IVec S32768x1 32 :=
  broadcastInDim S32768x1 ![0] bcast_S32768_S32768x1_0
    (select (cmpi .slt o (broadcastInDim S32768 ![] bcast_S_S32768 (constantI S_ 32 0#32)))
      (addi o (broadcastInDim S32768 ![] bcast_S_S32768 (constantI S_ 32 32768#32))) o)

/-- On valid indices the range test of a row take is true at every row. -/
theorem mask_rows_true (o : IVec S32768 32) (ho : IdxOk o) :
    Host.reduce IntOp.andi
        (andi (cmpi .sge (idxCol o) (broadcastInDim S32768x1 ![] bcast_S_S32768x1 (constantI S_ 32 0#32)))
          (cmpi .sle (idxCol o) (broadcastInDim S32768x1 ![0, 1] bcast_S1x1_S32768x1_0_1
            (broadcastInDim S1x1 ![1] bcast_S1_S1x1_1 (constantI S1 32 32767#32)))))
        (constantI S_ 1 1#1) reducesTo_S32768x1_S32768_d1 h_S_
      = fun _ => 1#1 := by
  -- entry (r, 0) of the test reads the one wrapped word of row r
  refine TakeMask.reduce_andi_ones _ _ _ fun i => ?_
  exact TakeMask.wrap_row_ok _ (ho _)

/-- A select whose condition is an all-true vector laid out along some axes is its first branch. -/
theorem select_bcast_one {S T : Shape} {α : Type} (dims : Fin S.rank → Fin T.rank) (hb : S.BroadcastsInDim T dims)
    (G N : T.Idx → α) :
    select (broadcastInDim T dims hb (fun _ : S.Idx => (1#1 : BitVec 1))) G N = G := by
  -- the condition is 1 at every index, whatever entry of the operand the layout reads there
  funext i
  exact TakeMask.select_of_one _ _ _ rfl

/-- An index into the 93-row table that already lies in `[0, 92]` passes the table take's range test everywhere. -/
theorem mask_tab_true (I : IVec S256x128x128 32) (hI : ∀ j, 0 ≤ (I j).toInt ∧ (I j).toInt ≤ 92) :
    Host.reduce IntOp.andi
        (andi
          (cmpi .sge
            (broadcastInDim S256x128x128x1 ![0, 1, 2] bcast_S256x128x128_S256x128x128x1_0_1_2
              (select (cmpi .slt I (broadcastInDim S256x128x128 ![] bcast_S_S256x128x128 (constantI S_ 32 0#32)))
                (addi I (broadcastInDim S256x128x128 ![] bcast_S_S256x128x128 (constantI S_ 32 93#32))) I))
            (broadcastInDim S256x128x128x1 ![] bcast_S_S256x128x128x1 (constantI S_ 32 0#32)))
          (cmpi .sle
            (broadcastInDim S256x128x128x1 ![0, 1, 2] bcast_S256x128x128_S256x128x128x1_0_1_2
              (select (cmpi .slt I (broadcastInDim S256x128x128 ![] bcast_S_S256x128x128 (constantI S_ 32 0#32)))
                (addi I (broadcastInDim S256x128x128 ![] bcast_S_S256x128x128 (constantI S_ 32 93#32))) I))
            (broadcastInDim S256x128x128x1 ![0, 1, 2, 3] bcast_S1x1x1x1_S256x128x128x1_0_1_2_3
              (broadcastInDim S1x1x1x1 ![3] bcast_S1_S1x1x1x1_3 (constantI S1 32 92#32)))))
        (constantI S_ 1 1#1) reducesTo_S256x128x128x1_S256x128x128_d3 h_S_
      = fun _ => 1#1 := by
  -- entry (a, b, c, 0) of the test reads the one word I (a, b, c)
  refine TakeMask.reduce_andi_ones _ _ _ fun i => ?_
  exact TakeMask.wrap_tab_ok _ (hI _)

/-- A difference of coordinates clipped to `[-15, 15]`, shifted by 15 and by the offset `k ≤ 62` of its
    coordinate's third of the table, lies in `[0, 92]`. -/
theorem clip_shift_range (X : IVec S256x128x128 32) (k : BitVec 32) (hk : k.toNat ≤ 62) :
    ∀ j, 0 ≤ ((addi (addi (minsi (broadcastInDim S256x128x128 ![] bcast_S_S256x128x128 (id (constantI S_ 32 15#32)))
                  (maxsi (broadcastInDim S256x128x128 ![] bcast_S_S256x128x128 (id (constantI S_ 32 4294967281#32))) X))
                (broadcastInDim S256x128x128 ![] bcast_S_S256x128x128 (constantI S_ 32 15#32)))
              (broadcastInDim S256x128x128 ![] bcast_S_S256x128x128 (constantI S_ 32 k))) j).toInt
        ∧ ((addi (addi (minsi (broadcastInDim S256x128x128 ![] bcast_S_S256x128x128 (id (constantI S_ 32 15#32)))
                  (maxsi (broadcastInDim S256x128x128 ![] bcast_S_S256x128x128 (id (constantI S_ 32 4294967281#32))) X))
                (broadcastInDim S256x128x128 ![] bcast_S_S256x128x128 (constantI S_ 32 15#32)))
              (broadcastInDim S256x128x128 ![] bcast_S_S256x128x128 (constantI S_ 32 k))) j).toInt ≤ 92 := by
  -- every operation is entrywise and every constant is the same at each entry
  intro j
  exact TakeMask.clip_shift_word (X j) k hk

/-- The precondition holds of a memory only if its two index inputs are valid indices of their axis. -/
theorem idxOk_of_pre (m : (ℓ : Loc nD τ sig) → Buf (Elt Ideal) ℓ) (h : Cert.Pre_KernelIdeal m) (c : Dev nD) :
    IdxOk (m ((c.tc : Thread nD τ).loc main_arg2)) ∧ IdxOk (m ((c.tc : Thread nD τ).loc main_arg3)) := by
  -- the precondition at its one (rank-0) result index, its chain of operations laid open
  have e := congrFun (h c) (fun a => a.elim0 : Cert.Pre_finite_inputs.S_.Idx)
  dsimp only [Cert.Pre_finite_inputs.fn, Cert.Pre_finite_inputs.fn_part1, Cert.Pre_finite_inputs.fn_part2] at e
  -- it is ((finiteness of the six float inputs ∧ all of the first index input's tests) ∧ all of the second's)
  obtain ⟨e', h3⟩ := IntOp.andi_eq_one.1 e
  obtain ⟨-, h2⟩ := IntOp.andi_eq_one.1 e'
  haveI : Subsingleton Cert.Pre_finite_inputs.S_.Idx := ⟨fun a b => funext fun d => d.elim0⟩
  constructor
  · intro i
    exact TakeMask.range_of_test _ (Host.reduce_andi_all _ _ _ _ _ h2 i)
  · intro i
    exact TakeMask.range_of_test _ (Host.reduce_andi_all _ _ _ _ _ h3 i)

end Cert.KernelIdeal.Val

end
-- ==== Proof.RegionQkv.lean ====
import proofs.«411299_j71957882077526_1_alg».proof.Proof.Gen.KernelIdeal.Frame
import proofs.«411299_j71957882077526_1_alg».proof.Proof.Gen.ReferenceIdeal
import Idealize.ShloMosaic.Lib.Pipeline.Value
import Idealize.ShloMosaic.Lib.ValueIdx
import Idealize.ShloMosaic.PureOps.Ideal.Laws

/-!
# The first region: the fused projection, block by block

The region walks a grid of 32 points. At point `t` it reads rows `[1024 t, 1024 t + 1024)` of the
`[32768, 512]` array `A`, the whole `[512, 1536]` array `W` and the whole `[1, 1536]` row `B`, and writes
rows `[1024 t, 1024 t + 1024)` of the `[32768, 1536]` output with `(A-block · W) + B` broadcast down the rows.
At the ideal values the narrowing casts are the identity and the block product accumulates into zero, so the
entry the region leaves at `(n, j)` is `∑ k, A[n, k] · W[k, j] + B[0, j]`, which is what the whole-array
product plus the broadcast row reads at `(n, j)`. The 32 row blocks tile the output, so the array after the
region is that whole-array term.
-/

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat)
open Idealize.ShloMosaic.ValueIdx

namespace Qkv

/-- The offsets `(0, 0)` are zero on every axis. -/
theorem zero_offsets : (![0, 0] : Fin 2 → Nat) = fun _ => 0 := funext fun a => by fin_cases a <;> rfl

/-! ## The block product `[1024, 512] · [512, 1536]` at an entry

Its dimension numbers contract axis 1 of the left operand with axis 0 of the right one and have no batch axis: at
output entry `i` and contraction index `q` the left operand is read at `(i 0, q)` and the right one at `(q, i 1)`. -/

/-- The left operand's row is the output's row. -/
theorem lhs_blk_0 (i : S1024x1536.Idx) (q : dot_S1024x512_S512x1536_S1024x1536_1_0_0_1_n_n.contr.Idx) :
    (dot_S1024x512_S512x1536_S1024x1536_1_0_0_1_n_n.lhsIdx i q 0).val = (i 0).val := by
  unfold DotDims.lhsIdx
  rw [dif_neg (show ¬(0 : Fin S1024x512.rank) ∈ dot_S1024x512_S512x1536_S1024x1536_1_0_0_1_n_n.lhsBatch by decide), dif_pos (show (0 : Fin S1024x512.rank) ∈ dot_S1024x512_S512x1536_S1024x1536_1_0_0_1_n_n.lhsNonContracting by decide)]
  rfl
/-- The left operand's column is the contraction index. -/
theorem lhs_blk_1 (i : S1024x1536.Idx) (q : dot_S1024x512_S512x1536_S1024x1536_1_0_0_1_n_n.contr.Idx) :
    (dot_S1024x512_S512x1536_S1024x1536_1_0_0_1_n_n.lhsIdx i q 1).val = (q ⟨0, by decide⟩).val :=
  dot_S1024x512_S512x1536_S1024x1536_1_0_0_1_n_n.lhsIdx_val_of_single rfl i q
/-- The right operand's row is the contraction index. -/
theorem rhs_blk_0 (i : S1024x1536.Idx) (q : dot_S1024x512_S512x1536_S1024x1536_1_0_0_1_n_n.contr.Idx) :
    (dot_S1024x512_S512x1536_S1024x1536_1_0_0_1_n_n.rhsIdx i q 0).val = (q ⟨0, by decide⟩).val :=
  dot_S1024x512_S512x1536_S1024x1536_1_0_0_1_n_n.rhsIdx_val_of_single rfl i q
/-- The right operand's column is the output's column. -/
theorem rhs_blk_1 (i : S1024x1536.Idx) (q : dot_S1024x512_S512x1536_S1024x1536_1_0_0_1_n_n.contr.Idx) :
    (dot_S1024x512_S512x1536_S1024x1536_1_0_0_1_n_n.rhsIdx i q 1).val = (i 1).val := by
  unfold DotDims.rhsIdx
  rw [dif_neg (show ¬(1 : Fin S512x1536.rank) ∈ dot_S1024x512_S512x1536_S1024x1536_1_0_0_1_n_n.rhsBatch by decide), dif_pos (show (1 : Fin S512x1536.rank) ∈ dot_S1024x512_S512x1536_S1024x1536_1_0_0_1_n_n.rhsNonContracting by decide)]
  rfl

/-- The block product into the zero splat, at entry `(r, j)`: the sum over the 512 contraction coordinates of
    the left block's `(r, k)` times the right block's `(k, j)` — the sum over the one-axis contraction index,
    re-indexed by its coordinate. -/
theorem blockProduct_apply {φ₁ φ₂ : FTy} (x0 : FVec Ideal S1024x512 φ₁) (x1 : FVec Ideal S512x1536 φ₂) (r : Fin 1024) (j : Fin 1536) :
    matmul (F := Ideal) dot_S1024x512_S512x1536_S1024x1536_1_0_0_1_n_n none x0 x1 (constant (F := Ideal) S1024x1536 .f32 0x00000000#32) (ix2 r j)
      = ∑ k : Fin 512, x0 (ix2 r k) * x1 (ix2 k j) := by
  refine (Ideal.matmul_constant_zero_apply dot_S1024x512_S512x1536_S1024x1536_1_0_0_1_n_n none x0 x1 (ix2 r j)).trans ?_
  rw [← Equiv.sum_comp (contrEquiv1 dot_S1024x512_S512x1536_S1024x1536_1_0_0_1_n_n 512 rfl rfl).symm]
  refine Finset.sum_congr rfl fun k _ => ?_
  have hk := contrEquiv1_symm_val dot_S1024x512_S512x1536_S1024x1536_1_0_0_1_n_n 512 rfl rfl k
  have el : dot_S1024x512_S512x1536_S1024x1536_1_0_0_1_n_n.lhsIdx (ix2 r j) ((contrEquiv1 dot_S1024x512_S512x1536_S1024x1536_1_0_0_1_n_n 512 rfl rfl).symm k) = ix2 r k := funext fun a => Fin.ext (by
    match a with
    | ⟨0, _⟩ => exact lhs_blk_0 _ _
    | ⟨1, _⟩ => exact (lhs_blk_1 _ _).trans hk)
  have er : dot_S1024x512_S512x1536_S1024x1536_1_0_0_1_n_n.rhsIdx (ix2 r j) ((contrEquiv1 dot_S1024x512_S512x1536_S1024x1536_1_0_0_1_n_n 512 rfl rfl).symm k) = ix2 k j := funext fun a => Fin.ext (by
    match a with
    | ⟨0, _⟩ => exact (rhs_blk_0 _ _).trans hk
    | ⟨1, _⟩ => exact rhs_blk_1 _ _)
  rw [el, er]

/-- WHAT THE BODY STORES, at entry `(r, j)` of its `[1024, 1536]` block, from the three blocks it loads: the
    narrowing casts are the identity on extended reals, the product accumulates into zero, the cast of the bias
    row to its own shape is the identity, and its broadcast down the rows reads row 0 at column `j`. -/
theorem pay_apply (x0 : Vec Ideal S1024x512 .f32) (x1 : Vec Ideal S512x1536 .f32) (x2 : Vec Ideal S1x1536 .f32) (r : Fin 1024) (j : Fin 1536) :
    k0_pay1 (F := Ideal) x0 x1 x2 (ix2 r j) = (∑ k : Fin 512, x0 (ix2 r k) * x1 (ix2 k j)) + x2 (ix2 (0 : Fin 1) j) := by
  unfold k0_pay1
  refine (addf_apply _ _ _).trans ?_
  refine congrArg₂ (· + ·) ?_ ?_
  · exact blockProduct_apply (truncf .bf16 x0 bitsLt_bf16_f32) (truncf .bf16 x1 bitsLt_bf16_f32) r j
  · rw [shapeCast_self]
    exact broadcastTo_apply x2 broadcasts_S1x1536_S1024x1536 (ix2 r j) (ix2 (0 : Fin 1) j) (fun a => match a with
      | ⟨0, _⟩ => by show (0 : Nat) = if (1 : Nat) = 1 then 0 else _; rw [if_pos rfl]
      | ⟨1, _⟩ => by show j.val = if (1536 : Nat) = 1 then 0 else _; rw [if_neg (by decide)]; rfl)

/-! ## The whole-array product `[32768, 512] · [512, 1536]` at an entry

The same dimension numbers at the full extents: the left operand at `(i 0, q)`, the right one at `(q, i 1)`. -/

/-- The left operand's row is the output's row. -/
theorem lhs_ref_0 (i : Cert.ReferenceIdeal.S32768x1536.Idx) (q : Cert.ReferenceIdeal.dot_S32768x512_S512x1536_S32768x1536_1_0_0_1_n_n.contr.Idx) :
    (Cert.ReferenceIdeal.dot_S32768x512_S512x1536_S32768x1536_1_0_0_1_n_n.lhsIdx i q 0).val = (i 0).val := by
  unfold DotDims.lhsIdx
  rw [dif_neg (show ¬(0 : Fin Cert.ReferenceIdeal.S32768x512.rank) ∈ Cert.ReferenceIdeal.dot_S32768x512_S512x1536_S32768x1536_1_0_0_1_n_n.lhsBatch by decide), dif_pos (show (0 : Fin Cert.ReferenceIdeal.S32768x512.rank) ∈ Cert.ReferenceIdeal.dot_S32768x512_S512x1536_S32768x1536_1_0_0_1_n_n.lhsNonContracting by decide)]
  rfl
/-- The left operand's column is the contraction index. -/
theorem lhs_ref_1 (i : Cert.ReferenceIdeal.S32768x1536.Idx) (q : Cert.ReferenceIdeal.dot_S32768x512_S512x1536_S32768x1536_1_0_0_1_n_n.contr.Idx) :
    (Cert.ReferenceIdeal.dot_S32768x512_S512x1536_S32768x1536_1_0_0_1_n_n.lhsIdx i q 1).val = (q ⟨0, by decide⟩).val :=
  Cert.ReferenceIdeal.dot_S32768x512_S512x1536_S32768x1536_1_0_0_1_n_n.lhsIdx_val_of_single rfl i q
/-- The right operand's row is the contraction index. -/
theorem rhs_ref_0 (i : Cert.ReferenceIdeal.S32768x1536.Idx) (q : Cert.ReferenceIdeal.dot_S32768x512_S512x1536_S32768x1536_1_0_0_1_n_n.contr.Idx) :
    (Cert.ReferenceIdeal.dot_S32768x512_S512x1536_S32768x1536_1_0_0_1_n_n.rhsIdx i q 0).val = (q ⟨0, by decide⟩).val :=
  Cert.ReferenceIdeal.dot_S32768x512_S512x1536_S32768x1536_1_0_0_1_n_n.rhsIdx_val_of_single rfl i q
/-- The right operand's column is the output's column. -/
theorem rhs_ref_1 (i : Cert.ReferenceIdeal.S32768x1536.Idx) (q : Cert.ReferenceIdeal.dot_S32768x512_S512x1536_S32768x1536_1_0_0_1_n_n.contr.Idx) :
    (Cert.ReferenceIdeal.dot_S32768x512_S512x1536_S32768x1536_1_0_0_1_n_n.rhsIdx i q 1).val = (i 1).val := by
  unfold DotDims.rhsIdx
  rw [dif_neg (show ¬(1 : Fin Cert.ReferenceIdeal.S512x1536.rank) ∈ Cert.ReferenceIdeal.dot_S32768x512_S512x1536_S32768x1536_1_0_0_1_n_n.rhsBatch by decide), dif_pos (show (1 : Fin Cert.ReferenceIdeal.S512x1536.rank) ∈ Cert.ReferenceIdeal.dot_S32768x512_S512x1536_S32768x1536_1_0_0_1_n_n.rhsNonContracting by decide)]
  rfl

/-- The whole-array product at entry `(n, j)`: the sum over the 512 contraction coordinates of `A[n, k] · W[k, j]`. -/
theorem refProduct_apply (A : FVec Ideal S32768x512 .f32) (W : FVec Ideal S512x1536 .f32) (n : Fin 32768) (j : Fin 1536) :
    Host.dotGeneral (F := Ideal) (φ₁ := .f32) (φ₂ := .f32) Cert.ReferenceIdeal.dot_S32768x512_S512x1536_S32768x1536_1_0_0_1_n_n none A W (ix2 n j)
      = ∑ k : Fin 512, A (ix2 n k) * W (ix2 k j) := by
  simp only [Host.dotGeneral]
  rw [Ideal.dotGeneral_apply, ← Equiv.sum_comp (contrEquiv1 Cert.ReferenceIdeal.dot_S32768x512_S512x1536_S32768x1536_1_0_0_1_n_n 512 rfl rfl).symm]
  refine Finset.sum_congr rfl fun k _ => ?_
  have hk := contrEquiv1_symm_val Cert.ReferenceIdeal.dot_S32768x512_S512x1536_S32768x1536_1_0_0_1_n_n 512 rfl rfl k
  have el : Cert.ReferenceIdeal.dot_S32768x512_S512x1536_S32768x1536_1_0_0_1_n_n.lhsIdx (ix2 n j) ((contrEquiv1 Cert.ReferenceIdeal.dot_S32768x512_S512x1536_S32768x1536_1_0_0_1_n_n 512 rfl rfl).symm k) = ix2 n k := funext fun a => Fin.ext (by
    match a with
    | ⟨0, _⟩ => exact lhs_ref_0 _ _
    | ⟨1, _⟩ => exact (lhs_ref_1 _ _).trans hk)
  have er : Cert.ReferenceIdeal.dot_S32768x512_S512x1536_S32768x1536_1_0_0_1_n_n.rhsIdx (ix2 n j) ((contrEquiv1 Cert.ReferenceIdeal.dot_S32768x512_S512x1536_S32768x1536_1_0_0_1_n_n 512 rfl rfl).symm k) = ix2 k j := funext fun a => Fin.ext (by
    match a with
    | ⟨0, _⟩ => exact (rhs_ref_0 _ _).trans hk
    | ⟨1, _⟩ => exact rhs_ref_1 _ _)
  rw [el, er]

/-- The whole-array term over any three arrays: the product of `A` and `W` plus the row `B` broadcast down the rows. -/
abbrev refTerm (A : FVec Ideal S32768x512 .f32) (W : FVec Ideal S512x1536 .f32) (B : FVec Ideal S1x1536 .f32) : FVec Ideal S32768x1536 .f32 :=
  addf (F := Ideal) (Host.dotGeneral (F := Ideal) (φ₁ := .f32) (φ₂ := .f32) Cert.ReferenceIdeal.dot_S32768x512_S512x1536_S32768x1536_1_0_0_1_n_n none A W)
    (broadcastInDim (α := Ideal .f32) Cert.ReferenceIdeal.S32768x1536 ![0, 1] Cert.ReferenceIdeal.Facts₀.bcast_S1x1536_S32768x1536_0_1 B)

/-- It reads, at entry `(n, j)`, `∑ k, A[n, k] · W[k, j] + B[0, j]`: the broadcast along both axes of a row of
    extent 1 reads row 0 at column `j`. -/
theorem refTerm_apply (A : FVec Ideal S32768x512 .f32) (W : FVec Ideal S512x1536 .f32) (B : FVec Ideal S1x1536 .f32) (n : Fin 32768) (j : Fin 1536) :
    refTerm A W B (ix2 n j) = (∑ k : Fin 512, A (ix2 n k) * W (ix2 k j)) + B (ix2 (0 : Fin 1) j) := by
  refine (addf_apply _ _ _).trans ?_
  refine congrArg₂ (· + ·) (refProduct_apply A W n j) ?_
  exact broadcastInDim_apply _ Cert.ReferenceIdeal.Facts₀.bcast_S1x1536_S32768x1536_0_1 B (ix2 n j) (ix2 (0 : Fin 1) j) (fun a => match a with
    | ⟨0, _⟩ => by show (0 : Nat) = if (1 : Nat) = 1 then 0 else _; rw [if_pos rfl]
    | ⟨1, _⟩ => by show j.val = if (1536 : Nat) = 1 then 0 else _; rw [if_neg (by decide)]; rfl)

/-! ## From the blocks to the array -/

/-- The index maps over the 32 points: the two row windows (`A`'s and the output's) sit at block `(t, 0)`, the
    windows of `W` and of `B` at block `(0, 0)` throughout. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the whole-array term of the three arrays as the region finds
    them. Entry `(r, j)` of the block sits at `(1024 t + r, j)` of the output (block index times block size plus
    the coordinate inside the block); there both sides are `∑ k, · + ·`, and the three loaded blocks read their
    arrays where the sum needs them: `A`'s block at `(r, k)` is `A[1024 t + r, k]`, the blocks of `W` and `B` are
    the arrays themselves. -/
theorem flushed_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal)
      (refTerm (V c main_arg0) (V c main_arg4) (V c main_v0)) := by
  show (cfg0.win 3).cut (grid0.coords t) ((dat0 V c).after 3 t) = _
  rw [after0_3]
  unfold out0_3
  rw [View.canon_unit_zero zero_offsets]
  simp only [View.ld_unit_zero (S := S1024x512) zero_offsets, View.ld_unit_zero (S := S512x1536) zero_offsets, View.ld_unit_zero (S := S1x1536) zero_offsets]
  obtain ⟨e00, e01, e10, e11, e20, e21, e30, e31⟩ := index_facts t
  have ht : t.val < 32 := Nat.lt_of_lt_of_eq t.isLt N_0
  show (fun y : S1024x1536.Idx => k0_pay1 (F := Ideal) (iblk0 V c 0 t) (iblk0 V c 1 t) (iblk0 V c 2 t) y)
    = fun y : S1024x1536.Idx => refTerm (V c main_arg0) (V c main_arg4) (V c main_v0) (((cfg0.win 3).blk t).view.emb y)
  funext y
  obtain ⟨r, j, rfl⟩ : ∃ (r : Fin 1024) (j : Fin 1536), y = ix2 r j := ⟨y 0, y 1, eq_ix2 y⟩
  have hemb : ((cfg0.win 3).blk t).view.emb (ix2 r j) = ix2 (⟨1024 * t.val + r.val, by omega⟩ : Fin 32768) j := funext fun a => Fin.ext (by
    match a with
    | ⟨0, _⟩ => show win0_3.index t (0 : Fin 2) * 1024 + 1 * r.val = 1024 * t.val + r.val; rw [e30]; omega
    | ⟨1, _⟩ => show win0_3.index t (1 : Fin 2) * 1536 + 1 * j.val = j.val; rw [e31]; omega)
  refine (pay_apply (iblk0 V c 0 t) (iblk0 V c 1 t) (iblk0 V c 2 t) r j).trans ?_
  refine Eq.trans ?_ (congrArg (refTerm (V c main_arg0) (V c main_arg4) (V c main_v0)) hemb).symm
  refine Eq.trans ?_ (refTerm_apply (V c main_arg0) (V c main_arg4) (V c main_v0) _ j).symm
  refine congrArg₂ (· + ·) (Finset.sum_congr rfl fun k _ => congrArg₂ (· * ·) ?_ ?_) ?_
  · show V c main_arg0 (((cfg0.win 0).blk t).view.emb (ix2 r k)) = _
    refine congrArg (V c main_arg0) (funext fun a => Fin.ext ?_)
    match a with
    | ⟨0, _⟩ => show win0_0.index t (0 : Fin 2) * 1024 + 1 * r.val = 1024 * t.val + r.val; rw [e00]; omega
    | ⟨1, _⟩ => show win0_0.index t (1 : Fin 2) * 512 + 1 * k.val = k.val; rw [e01]; omega
  · show V c main_arg4 (((cfg0.win 1).blk t).view.emb (ix2 k j)) = _
    refine congrArg (V c main_arg4) (funext fun a => Fin.ext ?_)
    match a with
    | ⟨0, _⟩ => show win0_1.index t (0 : Fin 2) * 512 + 1 * k.val = k.val; rw [e10]; omega
    | ⟨1, _⟩ => show win0_1.index t (1 : Fin 2) * 1536 + 1 * j.val = j.val; rw [e11]; omega
  · show V c main_v0 (((cfg0.win 2).blk t).view.emb (ix2 (0 : Fin 1) j)) = _
    refine congrArg (V c main_v0) (funext fun a => Fin.ext ?_)
    match a with
    | ⟨0, _⟩ => show win0_2.index t (0 : Fin 2) * 1 + 1 * 0 = 0; rw [e20]
    | ⟨1, _⟩ => show win0_2.index t (1 : Fin 2) * 1536 + 1 * j.val = j.val; rw [e21]; omega

/-- An index of the output array lies in point `t`'s block iff, axis by axis, it lies in the block's range. -/
theorem mem_blk (t : Fin cfg0.N) (i : S32768x1536.Idx) :
    i ∈ ((cfg0.win 3).blk t).view.set ↔ ∀ a : Fin 2, win0_3.index t a * S1024x1536.size a ≤ (i a).val ∧ (i a).val < win0_3.index t a * S1024x1536.size a + S1024x1536.size a := by
  show i ∈ ((View.whole main_v1).slice (win0_3.rect t)).set ↔ _
  rw [View.set_slice_whole, Rect.mem_set_unit]
  exact Iff.rfl

/-- THE COVER: row `n` of the output lies in the block of point `n / 1024`, and every point writes its block back. -/
theorem covered (i : S32768x1536.Idx) :
    ∃ t : Fin cfg0.N, (cfg0.win 3).flush t = true ∧ i ∈ ((cfg0.win 3).blk t).view.set := by
  have hi0 : (i 0).val < 32768 := (i 0).isLt
  have hi1 : (i 1).val < 1536 := (i 1).isLt
  have hq : (i 0).val / 1024 < cfg0.N := by rw [show cfg0.N = 32 from N_0]; omega
  obtain ⟨-, -, -, -, -, -, e30, e31⟩ := index_facts ⟨(i 0).val / 1024, hq⟩
  refine ⟨⟨(i 0).val / 1024, hq⟩, flush0_3 _, ?_⟩
  rw [mem_blk]
  intro a
  match a with
  | ⟨0, _⟩ => show win0_3.index ⟨(i 0).val / 1024, hq⟩ (0 : Fin 2) * 1024 ≤ (i 0).val ∧ (i 0).val < win0_3.index ⟨(i 0).val / 1024, hq⟩ (0 : Fin 2) * 1024 + 1024; rw [e30]; show (i 0).val / 1024 * 1024 ≤ (i 0).val ∧ (i 0).val < (i 0).val / 1024 * 1024 + 1024; omega
  | ⟨1, _⟩ => show win0_3.index ⟨(i 0).val / 1024, hq⟩ (1 : Fin 2) * 1536 ≤ (i 1).val ∧ (i 1).val < win0_3.index ⟨(i 0).val / 1024, hq⟩ (1 : Fin 2) * 1536 + 1536; rw [e31]; omega

end Qkv

/-- THE ARRAY AFTER THE REGION, whatever the contents the region finds: every point writes back its block of
    the whole-array term and the blocks cover the output, so the output ends holding that term. -/
theorem qkv_arrAt (V : (c : Dev nD) → (b : Ref sig .tc) → Buf (Elt Ideal) ((c : Thread nD τ).loc b)) (c : Dev nD) :
    (dat0 (F := Ideal) V c).arrAt 3 cfg0.N
      = addf (F := Ideal) (Host.dotGeneral (F := Ideal) (φ₁ := .f32) (φ₂ := .f32) Cert.ReferenceIdeal.dot_S32768x512_S512x1536_S32768x1536_1_0_0_1_n_n none (V c main_arg0) (V c main_arg4))
          (broadcastInDim (α := Ideal .f32) Cert.ReferenceIdeal.S32768x1536 ![0, 1] Cert.ReferenceIdeal.Facts₀.bcast_S1x1536_S32768x1536_0_1 (V c main_v0)) :=
  (dat0 (F := Ideal) V c).arrAt_eq_of_cover 3 (Qkv.refTerm (V c main_arg0) (V c main_arg4) (V c main_v0)) (fun t _ => Qkv.flushed_eq V c t) Qkv.covered

end Cert.KernelIdeal.Val

end
-- ==== Proof.AttnSpec.lean ====
import proofs.«411299_j71957882077526_1_alg».proof.Proof.Gen.ReferenceIdeal
import Idealize.ShloMosaic.PureOps.Ideal

/-! Patch attention as the reference computes it, named piece by piece: scores, the shifted exponentials, the
    normalised weights, and the weighted sum of the values. Each piece is the reference's own operations, so the
    reference's stages unfold to these by definition. -/

noncomputable section

namespace Cert.AttnSpec

open Idealize.ShloMosaic Cert.ReferenceIdeal Cert.ReferenceIdeal.Facts₀ Cert.ReferenceIdeal.Facts

/-- `q · 1/8` against `k` over the head dimension, plus the position bias: [patch, head, query, key]. -/
def scores (q k : FVec Ideal S256x8x128x64 .f32) (bias : FVec Ideal S256x8x128x128 .f32) : FVec Ideal S256x8x128x128 .f32 :=
  addf (Host.dotGeneral dot_S256x8x128x64_S256x8x128x64_S256x8x128x128_3_3_2_2_01_01 none
      (mulf q (broadcastInDim S256x8x128x64 ![] bcast_S_S256x8x128x64 (constant S_ .f32 0x3E000000#32))) k) bias

/-- `exp (s - max over keys)`, the maximum taken from `-∞`. -/
def expShift (s : FVec Ideal S256x8x128x128 .f32) : FVec Ideal S256x8x128x128 .f32 :=
  Host.exp (subf s (broadcastInDim S256x8x128x128 ![0, 1, 2, 3] bcast_S256x8x128x1_S256x8x128x128_0_1_2_3
    (broadcastInDim S256x8x128x1 ![0, 1, 2] bcast_S256x8x128_S256x8x128x1_0_1_2
      (maximumf (broadcastInDim S256x8x128 ![] bcast_S_S256x8x128 (constant S_ .f32 0xFF800000#32))
        (Host.reduce FloatOps.maximumf s (constant S_ .f32 0xFF800000#32) reducesTo_S256x8x128x128_S256x8x128_d3 h_S_)))))

/-- Each exponential over the sum of its row. -/
def weights (e : FVec Ideal S256x8x128x128 .f32) : FVec Ideal S256x8x128x128 .f32 :=
  Host.divf e (broadcastInDim S256x8x128x128 ![0, 1, 2, 3] bcast_S256x8x128x1_S256x8x128x128_0_1_2_3
    (broadcastInDim S256x8x128x1 ![0, 1, 2] bcast_S256x8x128_S256x8x128x1_0_1_2
      (Host.reduceAdd e (constant S_ .f32 0x00000000#32) reducesTo_S256x8x128x128_S256x8x128_d3 h_S_)))

/-- Softmax over the keys of the scores, applied to the values: [patch, head, query, head dimension]. -/
def attn (q k v : FVec Ideal S256x8x128x64 .f32) (bias : FVec Ideal S256x8x128x128 .f32) : FVec Ideal S256x8x128x64 .f32 :=
  Host.dotGeneral dot_S256x8x128x128_S256x8x128x64_S256x8x128x64_3_2_2_3_01_01 none (weights (expShift (scores q k bias))) v

end Cert.AttnSpec

end
-- ==== Proof.RegionAttn.lean ====
import proofs.«411299_j71957882077526_1_alg».proof.Proof.Gen.KernelIdeal.Frame
import proofs.«411299_j71957882077526_1_alg».proof.Proof.Gen.ReferenceIdeal
import proofs.«411299_j71957882077526_1_alg».proof.Proof.AttnSpec
import Idealize.ShloMosaic.Lib.Pipeline.Value
import Idealize.ShloMosaic.Lib.ValueIdx
import Idealize.ShloMosaic.PureOps.Ideal.Laws

/-! Region 1 of the kernel program (patch attention, four patches a grid point) leaves in its output array the
    reference's attention of the four arrays it reads. Both sides are brought, index by index, to ONE formula of a
    single (patch, head) pair's query, key, value and bias slices; the body's block at a grid point is read off the
    arrays at the patches the point covers; and the 64 blocks tile the array. -/

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat)
open Idealize.ShloMosaic.ValueIdx

/-! ## One head of one patch

Attention of one (patch, head) pair: the 128 query rows `qs`, key rows `ks`, value rows `vs` (64 entries each) and the
128 × 128 bias `bs`. -/

/-- The score of query `qi` against key `m`: the scaled query row against the key row, plus the bias. -/
def score (qs ks : Fin 128 → Fin 64 → EReal) (bs : Fin 128 → Fin 128 → EReal) (qi m : Fin 128) : EReal :=
  (∑ d : Fin 64, (qs qi d * Ideal.ofBits .f32 0x3E000000#32) * ks m d) + bs qi m

/-- The largest score of query `qi`, taken from `-∞`. -/
def rowMax (qs ks : Fin 128 → Fin 64 → EReal) (bs : Fin 128 → Fin 128 → EReal) (qi : Fin 128) : EReal :=
  max (Ideal.ofBits .f32 0xFF800000#32)
    ((Finset.univ : Finset (Fin 128)).fold max (Ideal.ofBits .f32 0xFF800000#32) (fun m => score qs ks bs qi m))

/-- The shifted exponential of a score. -/
def expo (qs ks : Fin 128 → Fin 64 → EReal) (bs : Fin 128 → Fin 128 → EReal) (qi m : Fin 128) : EReal :=
  Ideal.exp (score qs ks bs qi m - rowMax qs ks bs qi)

/-- The softmax weight of key `m` for query `qi`. -/
def weight (qs ks : Fin 128 → Fin 64 → EReal) (bs : Fin 128 → Fin 128 → EReal) (qi m : Fin 128) : EReal :=
  Ideal.div (expo qs ks bs qi m) (∑ m' : Fin 128, expo qs ks bs qi m')

/-- The attention output of query `qi` at head-dimension entry `d`. -/
def attnRow (qs ks vs : Fin 128 → Fin 64 → EReal) (bs : Fin 128 → Fin 128 → EReal) (qi : Fin 128) (d : Fin 64) : EReal :=
  ∑ m : Fin 128, weight qs ks bs qi m * vs m d

/-- The slice of a [patch, head, ·, ·] array at one patch and one head. -/
abbrev sl64 {P : Nat} (x : (⟨4, ![P, 8, 128, 64]⟩ : Shape).Idx → EReal) (p : Fin P) (h : Fin 8) : Fin 128 → Fin 64 → EReal :=
  fun a c => x (ix4 p h a c)
abbrev sl128 {P : Nat} (x : (⟨4, ![P, 8, 128, 128]⟩ : Shape).Idx → EReal) (p : Fin P) (h : Fin 8) : Fin 128 → Fin 128 → EReal :=
  fun a c => x (ix4 p h a c)

/-! ## The reference's two products at an index -/

section HostDots
open Cert.ReferenceIdeal

theorem hqk_lhs_0 (i : Cert.ReferenceIdeal.S256x8x128x128.Idx) (q : dot_S256x8x128x64_S256x8x128x64_S256x8x128x128_3_3_2_2_01_01.contr.Idx) :
    (dot_S256x8x128x64_S256x8x128x64_S256x8x128x128_3_3_2_2_01_01.lhsIdx i q 0).val = (i 0).val := by
  unfold DotDims.lhsIdx
  rw [dif_pos (show (0 : Fin Cert.ReferenceIdeal.S256x8x128x64.rank) ∈ dot_S256x8x128x64_S256x8x128x64_S256x8x128x128_3_3_2_2_01_01.lhsBatch by decide)]
  rfl
theorem hqk_lhs_1 (i : Cert.ReferenceIdeal.S256x8x128x128.Idx) (q : dot_S256x8x128x64_S256x8x128x64_S256x8x128x128_3_3_2_2_01_01.contr.Idx) :
    (dot_S256x8x128x64_S256x8x128x64_S256x8x128x128_3_3_2_2_01_01.lhsIdx i q 1).val = (i 1).val := by
  unfold DotDims.lhsIdx
  rw [dif_pos (show (1 : Fin Cert.ReferenceIdeal.S256x8x128x64.rank) ∈ dot_S256x8x128x64_S256x8x128x64_S256x8x128x128_3_3_2_2_01_01.lhsBatch by decide)]
  rfl
theorem hqk_lhs_2 (i : Cert.ReferenceIdeal.S256x8x128x128.Idx) (q : dot_S256x8x128x64_S256x8x128x64_S256x8x128x128_3_3_2_2_01_01.contr.Idx) :
    (dot_S256x8x128x64_S256x8x128x64_S256x8x128x128_3_3_2_2_01_01.lhsIdx i q 2).val = (i 2).val := by
  unfold DotDims.lhsIdx
  rw [dif_neg (show ¬(2 : Fin Cert.ReferenceIdeal.S256x8x128x64.rank) ∈ dot_S256x8x128x64_S256x8x128x64_S256x8x128x128_3_3_2_2_01_01.lhsBatch by decide), dif_pos (show (2 : Fin Cert.ReferenceIdeal.S256x8x128x64.rank) ∈ dot_S256x8x128x64_S256x8x128x64_S256x8x128x128_3_3_2_2_01_01.lhsNonContracting by decide)]
  rfl
theorem hqk_lhs_3 (i : Cert.ReferenceIdeal.S256x8x128x128.Idx) (q : dot_S256x8x128x64_S256x8x128x64_S256x8x128x128_3_3_2_2_01_01.contr.Idx) :
    (dot_S256x8x128x64_S256x8x128x64_S256x8x128x128_3_3_2_2_01_01.lhsIdx i q 3).val = (q ⟨0, by decide⟩).val :=
  dot_S256x8x128x64_S256x8x128x64_S256x8x128x128_3_3_2_2_01_01.lhsIdx_val_of_single rfl i q
theorem hqk_rhs_0 (i : Cert.ReferenceIdeal.S256x8x128x128.Idx) (q : dot_S256x8x128x64_S256x8x128x64_S256x8x128x128_3_3_2_2_01_01.contr.Idx) :
    (dot_S256x8x128x64_S256x8x128x64_S256x8x128x128_3_3_2_2_01_01.rhsIdx i q 0).val = (i 0).val := by
  unfold DotDims.rhsIdx
  rw [dif_pos (show (0 : Fin Cert.ReferenceIdeal.S256x8x128x64.rank) ∈ dot_S256x8x128x64_S256x8x128x64_S256x8x128x128_3_3_2_2_01_01.rhsBatch by decide)]
  rfl
theorem hqk_rhs_1 (i : Cert.ReferenceIdeal.S256x8x128x128.Idx) (q : dot_S256x8x128x64_S256x8x128x64_S256x8x128x128_3_3_2_2_01_01.contr.Idx) :
    (dot_S256x8x128x64_S256x8x128x64_S256x8x128x128_3_3_2_2_01_01.rhsIdx i q 1).val = (i 1).val := by
  unfold DotDims.rhsIdx
  rw [dif_pos (show (1 : Fin Cert.ReferenceIdeal.S256x8x128x64.rank) ∈ dot_S256x8x128x64_S256x8x128x64_S256x8x128x128_3_3_2_2_01_01.rhsBatch by decide)]
  rfl
theorem hqk_rhs_2 (i : Cert.ReferenceIdeal.S256x8x128x128.Idx) (q : dot_S256x8x128x64_S256x8x128x64_S256x8x128x128_3_3_2_2_01_01.contr.Idx) :
    (dot_S256x8x128x64_S256x8x128x64_S256x8x128x128_3_3_2_2_01_01.rhsIdx i q 2).val = (i 3).val := by
  unfold DotDims.rhsIdx
  rw [dif_neg (show ¬(2 : Fin Cert.ReferenceIdeal.S256x8x128x64.rank) ∈ dot_S256x8x128x64_S256x8x128x64_S256x8x128x128_3_3_2_2_01_01.rhsBatch by decide), dif_pos (show (2 : Fin Cert.ReferenceIdeal.S256x8x128x64.rank) ∈ dot_S256x8x128x64_S256x8x128x64_S256x8x128x128_3_3_2_2_01_01.rhsNonContracting by decide)]
  rfl
theorem hqk_rhs_3 (i : Cert.ReferenceIdeal.S256x8x128x128.Idx) (q : dot_S256x8x128x64_S256x8x128x64_S256x8x128x128_3_3_2_2_01_01.contr.Idx) :
    (dot_S256x8x128x64_S256x8x128x64_S256x8x128x128_3_3_2_2_01_01.rhsIdx i q 3).val = (q ⟨0, by decide⟩).val :=
  dot_S256x8x128x64_S256x8x128x64_S256x8x128x128_3_3_2_2_01_01.rhsIdx_val_of_single rfl i q
theorem hpv_lhs_0 (i : Cert.ReferenceIdeal.S256x8x128x64.Idx) (q : dot_S256x8x128x128_S256x8x128x64_S256x8x128x64_3_2_2_3_01_01.contr.Idx) :
    (dot_S256x8x128x128_S256x8x128x64_S256x8x128x64_3_2_2_3_01_01.lhsIdx i q 0).val = (i 0).val := by
  unfold DotDims.lhsIdx
  rw [dif_pos (show (0 : Fin Cert.ReferenceIdeal.S256x8x128x128.rank) ∈ dot_S256x8x128x128_S256x8x128x64_S256x8x128x64_3_2_2_3_01_01.lhsBatch by decide)]
  rfl
theorem hpv_lhs_1 (i : Cert.ReferenceIdeal.S256x8x128x64.Idx) (q : dot_S256x8x128x128_S256x8x128x64_S256x8x128x64_3_2_2_3_01_01.contr.Idx) :
    (dot_S256x8x128x128_S256x8x128x64_S256x8x128x64_3_2_2_3_01_01.lhsIdx i q 1).val = (i 1).val := by
  unfold DotDims.lhsIdx
  rw [dif_pos (show (1 : Fin Cert.ReferenceIdeal.S256x8x128x128.rank) ∈ dot_S256x8x128x128_S256x8x128x64_S256x8x128x64_3_2_2_3_01_01.lhsBatch by decide)]
  rfl
theorem hpv_lhs_2 (i : Cert.ReferenceIdeal.S256x8x128x64.Idx) (q : dot_S256x8x128x128_S256x8x128x64_S256x8x128x64_3_2_2_3_01_01.contr.Idx) :
    (dot_S256x8x128x128_S256x8x128x64_S256x8x128x64_3_2_2_3_01_01.lhsIdx i q 2).val = (i 2).val := by
  unfold DotDims.lhsIdx
  rw [dif_neg (show ¬(2 : Fin Cert.ReferenceIdeal.S256x8x128x128.rank) ∈ dot_S256x8x128x128_S256x8x128x64_S256x8x128x64_3_2_2_3_01_01.lhsBatch by decide), dif_pos (show (2 : Fin Cert.ReferenceIdeal.S256x8x128x128.rank) ∈ dot_S256x8x128x128_S256x8x128x64_S256x8x128x64_3_2_2_3_01_01.lhsNonContracting by decide)]
  rfl
theorem hpv_lhs_3 (i : Cert.ReferenceIdeal.S256x8x128x64.Idx) (q : dot_S256x8x128x128_S256x8x128x64_S256x8x128x64_3_2_2_3_01_01.contr.Idx) :
    (dot_S256x8x128x128_S256x8x128x64_S256x8x128x64_3_2_2_3_01_01.lhsIdx i q 3).val = (q ⟨0, by decide⟩).val :=
  dot_S256x8x128x128_S256x8x128x64_S256x8x128x64_3_2_2_3_01_01.lhsIdx_val_of_single rfl i q
theorem hpv_rhs_0 (i : Cert.ReferenceIdeal.S256x8x128x64.Idx) (q : dot_S256x8x128x128_S256x8x128x64_S256x8x128x64_3_2_2_3_01_01.contr.Idx) :
    (dot_S256x8x128x128_S256x8x128x64_S256x8x128x64_3_2_2_3_01_01.rhsIdx i q 0).val = (i 0).val := by
  unfold DotDims.rhsIdx
  rw [dif_pos (show (0 : Fin Cert.ReferenceIdeal.S256x8x128x64.rank) ∈ dot_S256x8x128x128_S256x8x128x64_S256x8x128x64_3_2_2_3_01_01.rhsBatch by decide)]
  rfl
theorem hpv_rhs_1 (i : Cert.ReferenceIdeal.S256x8x128x64.Idx) (q : dot_S256x8x128x128_S256x8x128x64_S256x8x128x64_3_2_2_3_01_01.contr.Idx) :
    (dot_S256x8x128x128_S256x8x128x64_S256x8x128x64_3_2_2_3_01_01.rhsIdx i q 1).val = (i 1).val := by
  unfold DotDims.rhsIdx
  rw [dif_pos (show (1 : Fin Cert.ReferenceIdeal.S256x8x128x64.rank) ∈ dot_S256x8x128x128_S256x8x128x64_S256x8x128x64_3_2_2_3_01_01.rhsBatch by decide)]
  rfl
theorem hpv_rhs_2 (i : Cert.ReferenceIdeal.S256x8x128x64.Idx) (q : dot_S256x8x128x128_S256x8x128x64_S256x8x128x64_3_2_2_3_01_01.contr.Idx) :
    (dot_S256x8x128x128_S256x8x128x64_S256x8x128x64_3_2_2_3_01_01.rhsIdx i q 2).val = (q ⟨0, by decide⟩).val :=
  dot_S256x8x128x128_S256x8x128x64_S256x8x128x64_3_2_2_3_01_01.rhsIdx_val_of_single rfl i q
theorem hpv_rhs_3 (i : Cert.ReferenceIdeal.S256x8x128x64.Idx) (q : dot_S256x8x128x128_S256x8x128x64_S256x8x128x64_3_2_2_3_01_01.contr.Idx) :
    (dot_S256x8x128x128_S256x8x128x64_S256x8x128x64_3_2_2_3_01_01.rhsIdx i q 3).val = (i 3).val := by
  unfold DotDims.rhsIdx
  rw [dif_neg (show ¬(3 : Fin Cert.ReferenceIdeal.S256x8x128x64.rank) ∈ dot_S256x8x128x128_S256x8x128x64_S256x8x128x64_3_2_2_3_01_01.rhsBatch by decide), dif_pos (show (3 : Fin Cert.ReferenceIdeal.S256x8x128x64.rank) ∈ dot_S256x8x128x128_S256x8x128x64_S256x8x128x64_3_2_2_3_01_01.rhsNonContracting by decide)]
  rfl

/-- The reference's score product at (patch, head, query, key): the sum over the head dimension. -/
theorem hostQK (x : FVec Ideal Cert.ReferenceIdeal.S256x8x128x64 .f32) (y : FVec Ideal Cert.ReferenceIdeal.S256x8x128x64 .f32) (p : Fin 256) (h : Fin 8) (qi m : Fin 128) :
    Host.dotGeneral dot_S256x8x128x64_S256x8x128x64_S256x8x128x128_3_3_2_2_01_01 none x y (ix4 p h qi m) = ∑ d : Fin 64, x (ix4 p h qi d) * y (ix4 p h m d) := by
  simp only [Host.dotGeneral]
  rw [Ideal.dotGeneral_apply, ← Equiv.sum_comp (contrEquiv1 dot_S256x8x128x64_S256x8x128x64_S256x8x128x128_3_3_2_2_01_01 64 rfl rfl).symm]
  refine Finset.sum_congr rfl fun d _ => ?_
  have hk := contrEquiv1_symm_val dot_S256x8x128x64_S256x8x128x64_S256x8x128x128_3_3_2_2_01_01 64 rfl rfl d
  have el : dot_S256x8x128x64_S256x8x128x64_S256x8x128x128_3_3_2_2_01_01.lhsIdx (ix4 p h qi m) ((contrEquiv1 dot_S256x8x128x64_S256x8x128x64_S256x8x128x128_3_3_2_2_01_01 64 rfl rfl).symm d) = ix4 p h qi d := funext fun a => Fin.ext (by
    match a with
    | ⟨0, _⟩ => exact hqk_lhs_0 _ _
    | ⟨1, _⟩ => exact hqk_lhs_1 _ _
    | ⟨2, _⟩ => exact hqk_lhs_2 _ _
    | ⟨3, _⟩ => exact (hqk_lhs_3 _ _).trans hk)
  have er : dot_S256x8x128x64_S256x8x128x64_S256x8x128x128_3_3_2_2_01_01.rhsIdx (ix4 p h qi m) ((contrEquiv1 dot_S256x8x128x64_S256x8x128x64_S256x8x128x128_3_3_2_2_01_01 64 rfl rfl).symm d) = ix4 p h m d := funext fun a => Fin.ext (by
    match a with
    | ⟨0, _⟩ => exact hqk_rhs_0 _ _
    | ⟨1, _⟩ => exact hqk_rhs_1 _ _
    | ⟨2, _⟩ => exact hqk_rhs_2 _ _
    | ⟨3, _⟩ => exact (hqk_rhs_3 _ _).trans hk)
  rw [el, er]
/-- The reference's weighted sum of values at (patch, head, query, entry): the sum over the keys. -/
theorem hostPV (x : FVec Ideal Cert.ReferenceIdeal.S256x8x128x128 .f32) (y : FVec Ideal Cert.ReferenceIdeal.S256x8x128x64 .f32) (p : Fin 256) (h : Fin 8) (qi : Fin 128) (d : Fin 64) :
    Host.dotGeneral dot_S256x8x128x128_S256x8x128x64_S256x8x128x64_3_2_2_3_01_01 none x y (ix4 p h qi d) = ∑ m : Fin 128, x (ix4 p h qi m) * y (ix4 p h m d) := by
  simp only [Host.dotGeneral]
  rw [Ideal.dotGeneral_apply, ← Equiv.sum_comp (contrEquiv1 dot_S256x8x128x128_S256x8x128x64_S256x8x128x64_3_2_2_3_01_01 128 rfl rfl).symm]
  refine Finset.sum_congr rfl fun m _ => ?_
  have hk := contrEquiv1_symm_val dot_S256x8x128x128_S256x8x128x64_S256x8x128x64_3_2_2_3_01_01 128 rfl rfl m
  have el : dot_S256x8x128x128_S256x8x128x64_S256x8x128x64_3_2_2_3_01_01.lhsIdx (ix4 p h qi d) ((contrEquiv1 dot_S256x8x128x128_S256x8x128x64_S256x8x128x64_3_2_2_3_01_01 128 rfl rfl).symm m) = ix4 p h qi m := funext fun a => Fin.ext (by
    match a with
    | ⟨0, _⟩ => exact hpv_lhs_0 _ _
    | ⟨1, _⟩ => exact hpv_lhs_1 _ _
    | ⟨2, _⟩ => exact hpv_lhs_2 _ _
    | ⟨3, _⟩ => exact (hpv_lhs_3 _ _).trans hk)
  have er : dot_S256x8x128x128_S256x8x128x64_S256x8x128x64_3_2_2_3_01_01.rhsIdx (ix4 p h qi d) ((contrEquiv1 dot_S256x8x128x128_S256x8x128x64_S256x8x128x64_3_2_2_3_01_01 128 rfl rfl).symm m) = ix4 p h m d := funext fun a => Fin.ext (by
    match a with
    | ⟨0, _⟩ => exact hpv_rhs_0 _ _
    | ⟨1, _⟩ => exact hpv_rhs_1 _ _
    | ⟨2, _⟩ => exact (hpv_rhs_2 _ _).trans hk
    | ⟨3, _⟩ => exact hpv_rhs_3 _ _)
  rw [el, er]

end HostDots

/-! ## The reference's attention at an index -/

section Spec
open Cert.ReferenceIdeal Cert.ReferenceIdeal.Facts₀ Cert.ReferenceIdeal.Facts

/-- A per-row value spread along the keys, read at (patch, head, query, key): the row's value. -/
theorem hostCol_apply (y : FVec Ideal Cert.ReferenceIdeal.S256x8x128 .f32) (p : Fin 256) (h : Fin 8) (qi m : Fin 128) :
    broadcastInDim Cert.ReferenceIdeal.S256x8x128x128 ![0, 1, 2, 3] bcast_S256x8x128x1_S256x8x128x128_0_1_2_3
      (broadcastInDim Cert.ReferenceIdeal.S256x8x128x1 ![0, 1, 2] bcast_S256x8x128_S256x8x128x1_0_1_2 y) (ix4 p h qi m) = y (ix3 p h qi) := by
  refine (broadcastInDim_apply _ bcast_S256x8x128x1_S256x8x128x128_0_1_2_3 _ (ix4 p h qi m) (ix4 p h qi (0 : Fin 1)) (fun a => match a with
    | ⟨0, _⟩ => by show p.val = if (256 : Nat) = 1 then 0 else p.val; rw [if_neg (by decide)]
    | ⟨1, _⟩ => by show h.val = if (8 : Nat) = 1 then 0 else h.val; rw [if_neg (by decide)]
    | ⟨2, _⟩ => by show qi.val = if (128 : Nat) = 1 then 0 else qi.val; rw [if_neg (by decide)]
    | ⟨3, _⟩ => by show 0 = if (1 : Nat) = 1 then 0 else m.val; rw [if_pos rfl])).trans ?_
  exact broadcastInDim_apply _ bcast_S256x8x128_S256x8x128x1_0_1_2 y (ix4 p h qi (0 : Fin 1)) (ix3 p h qi) (fun a => match a with
    | ⟨0, _⟩ => by show p.val = if (256 : Nat) = 1 then 0 else p.val; rw [if_neg (by decide)]
    | ⟨1, _⟩ => by show h.val = if (8 : Nat) = 1 then 0 else h.val; rw [if_neg (by decide)]
    | ⟨2, _⟩ => by show qi.val = if (128 : Nat) = 1 then 0 else qi.val; rw [if_neg (by decide)])

/-- The reference's scores at (patch, head, query, key). -/
theorem scores_apply (q k : FVec Ideal Cert.ReferenceIdeal.S256x8x128x64 .f32) (b : FVec Ideal Cert.ReferenceIdeal.S256x8x128x128 .f32)
    (p : Fin 256) (h : Fin 8) (qi m : Fin 128) :
    Cert.AttnSpec.scores q k b (ix4 p h qi m) = score (sl64 q p h) (sl64 k p h) (sl128 b p h) qi m := by
  unfold Cert.AttnSpec.scores score
  rw [addf_apply, hostQK]
  rfl

/-- The reference's row maximum at (patch, head, query): the fold of `max` over the keys from `-∞`. -/
theorem hostMax_apply (s : FVec Ideal Cert.ReferenceIdeal.S256x8x128x128 .f32) (p : Fin 256) (h : Fin 8) (qi : Fin 128) :
    maximumf (broadcastInDim Cert.ReferenceIdeal.S256x8x128 ![] bcast_S_S256x8x128 (constant (F := Ideal) Cert.ReferenceIdeal.S_ .f32 0xFF800000#32))
        (Host.reduce FloatOps.maximumf s (constant (F := Ideal) Cert.ReferenceIdeal.S_ .f32 0xFF800000#32) reducesTo_S256x8x128x128_S256x8x128_d3 Cert.ReferenceIdeal.Facts₀.h_S_) (ix3 p h qi)
      = max (Ideal.ofBits .f32 0xFF800000#32)
          ((Finset.univ : Finset (Fin 128)).fold max (Ideal.ofBits .f32 0xFF800000#32) (fun m => s (ix4 p h qi m))) := by
  rw [maximumf_apply, Host.reduce_eq_fold_single FloatOps.maximumf s _ reducesTo_S256x8x128x128_S256x8x128_d3 (by decide) Cert.ReferenceIdeal.Facts₀.h_S_]
  refine congrArg₂ max rfl ?_
  refine congrArg (Finset.fold max (Ideal.ofBits .f32 0xFF800000#32) · Finset.univ) (funext fun m => ?_)
  exact congrArg s (funext fun a => Fin.ext (by match a with | ⟨0, _⟩ => rfl | ⟨1, _⟩ => rfl | ⟨2, _⟩ => rfl | ⟨3, _⟩ => rfl))

end Spec

section Spec2
open Cert.ReferenceIdeal Cert.ReferenceIdeal.Facts₀ Cert.ReferenceIdeal.Facts

/-- The reference's shifted exponentials at (patch, head, query, key), for any scores `s`. -/
theorem expShift_apply (s : FVec Ideal Cert.ReferenceIdeal.S256x8x128x128 .f32) (p : Fin 256) (h : Fin 8) (qi m : Fin 128) :
    Cert.AttnSpec.expShift s (ix4 p h qi m)
      = Ideal.exp (s (ix4 p h qi m) - max (Ideal.ofBits .f32 0xFF800000#32)
          ((Finset.univ : Finset (Fin 128)).fold max (Ideal.ofBits .f32 0xFF800000#32) (fun m' => s (ix4 p h qi m')))) := by
  unfold Cert.AttnSpec.expShift
  show Ideal.exp (s (ix4 p h qi m) - _) = _
  rw [hostCol_apply, hostMax_apply]

/-- The reference's weights at (patch, head, query, key), for any exponentials `e`: the element over its row's sum. -/
theorem weights_apply (e : FVec Ideal Cert.ReferenceIdeal.S256x8x128x128 .f32) (p : Fin 256) (h : Fin 8) (qi m : Fin 128) :
    Cert.AttnSpec.weights e (ix4 p h qi m) = Ideal.div (e (ix4 p h qi m)) (∑ m' : Fin 128, e (ix4 p h qi m')) := by
  unfold Cert.AttnSpec.weights
  show Ideal.div (e (ix4 p h qi m)) _ = _
  rw [hostCol_apply]
  refine congrArg (Ideal.div (e (ix4 p h qi m))) ?_
  simp only [Host.reduceAdd, Ideal.hostReduceAdd_def]
  rw [Ideal.hostReduceAdd_single reducesTo_S256x8x128x128_S256x8x128_d3 (by decide)]
  show Ideal.ofBits .f32 0x00000000#32 + _ = _
  rw [Ideal.ofBits_zero_f32, zero_add]
  refine Finset.sum_congr rfl fun m' _ => ?_
  exact congrArg e (funext fun a => Fin.ext (by match a with | ⟨0, _⟩ => rfl | ⟨1, _⟩ => rfl | ⟨2, _⟩ => rfl | ⟨3, _⟩ => rfl))

/-- THE REFERENCE at (patch, head, query, entry): one head's attention of that patch's and head's slices. -/
theorem spec_apply (q k v : FVec Ideal Cert.ReferenceIdeal.S256x8x128x64 .f32) (b : FVec Ideal Cert.ReferenceIdeal.S256x8x128x128 .f32)
    (p : Fin 256) (h : Fin 8) (qi : Fin 128) (d : Fin 64) :
    Cert.AttnSpec.attn q k v b (ix4 p h qi d)
      = attnRow (sl64 q p h) (sl64 k p h) (sl64 v p h) (sl128 b p h) qi d := by
  unfold Cert.AttnSpec.attn
  rw [hostPV]
  simp only [weights_apply, expShift_apply, scores_apply]
  rfl

end Spec2

/-! ## The kernel's two products at an index -/

section KernDots

theorem kqk_lhs_0 (i : S32x128x128.Idx) (q : dot_S32x128x64_S32x128x64_S32x128x128_2_2_1_1_0_0.contr.Idx) :
    (dot_S32x128x64_S32x128x64_S32x128x128_2_2_1_1_0_0.lhsIdx i q 0).val = (i 0).val := by
  unfold DotDims.lhsIdx
  rw [dif_pos (show (0 : Fin S32x128x64.rank) ∈ dot_S32x128x64_S32x128x64_S32x128x128_2_2_1_1_0_0.lhsBatch by decide)]
  rfl
theorem kqk_lhs_1 (i : S32x128x128.Idx) (q : dot_S32x128x64_S32x128x64_S32x128x128_2_2_1_1_0_0.contr.Idx) :
    (dot_S32x128x64_S32x128x64_S32x128x128_2_2_1_1_0_0.lhsIdx i q 1).val = (i 1).val := by
  unfold DotDims.lhsIdx
  rw [dif_neg (show ¬(1 : Fin S32x128x64.rank) ∈ dot_S32x128x64_S32x128x64_S32x128x128_2_2_1_1_0_0.lhsBatch by decide), dif_pos (show (1 : Fin S32x128x64.rank) ∈ dot_S32x128x64_S32x128x64_S32x128x128_2_2_1_1_0_0.lhsNonContracting by decide)]
  rfl
theorem kqk_lhs_2 (i : S32x128x128.Idx) (q : dot_S32x128x64_S32x128x64_S32x128x128_2_2_1_1_0_0.contr.Idx) :
    (dot_S32x128x64_S32x128x64_S32x128x128_2_2_1_1_0_0.lhsIdx i q 2).val = (q ⟨0, by decide⟩).val :=
  dot_S32x128x64_S32x128x64_S32x128x128_2_2_1_1_0_0.lhsIdx_val_of_single rfl i q
theorem kqk_rhs_0 (i : S32x128x128.Idx) (q : dot_S32x128x64_S32x128x64_S32x128x128_2_2_1_1_0_0.contr.Idx) :
    (dot_S32x128x64_S32x128x64_S32x128x128_2_2_1_1_0_0.rhsIdx i q 0).val = (i 0).val := by
  unfold DotDims.rhsIdx
  rw [dif_pos (show (0 : Fin S32x128x64.rank) ∈ dot_S32x128x64_S32x128x64_S32x128x128_2_2_1_1_0_0.rhsBatch by decide)]
  rfl
theorem kqk_rhs_1 (i : S32x128x128.Idx) (q : dot_S32x128x64_S32x128x64_S32x128x128_2_2_1_1_0_0.contr.Idx) :
    (dot_S32x128x64_S32x128x64_S32x128x128_2_2_1_1_0_0.rhsIdx i q 1).val = (i 2).val := by
  unfold DotDims.rhsIdx
  rw [dif_neg (show ¬(1 : Fin S32x128x64.rank) ∈ dot_S32x128x64_S32x128x64_S32x128x128_2_2_1_1_0_0.rhsBatch by decide), dif_pos (show (1 : Fin S32x128x64.rank) ∈ dot_S32x128x64_S32x128x64_S32x128x128_2_2_1_1_0_0.rhsNonContracting by decide)]
  rfl
theorem kqk_rhs_2 (i : S32x128x128.Idx) (q : dot_S32x128x64_S32x128x64_S32x128x128_2_2_1_1_0_0.contr.Idx) :
    (dot_S32x128x64_S32x128x64_S32x128x128_2_2_1_1_0_0.rhsIdx i q 2).val = (q ⟨0, by decide⟩).val :=
  dot_S32x128x64_S32x128x64_S32x128x128_2_2_1_1_0_0.rhsIdx_val_of_single rfl i q
theorem kpv_lhs_0 (i : S32x128x64.Idx) (q : dot_S32x128x128_S32x128x64_S32x128x64_2_1_1_2_0_0.contr.Idx) :
    (dot_S32x128x128_S32x128x64_S32x128x64_2_1_1_2_0_0.lhsIdx i q 0).val = (i 0).val := by
  unfold DotDims.lhsIdx
  rw [dif_pos (show (0 : Fin S32x128x128.rank) ∈ dot_S32x128x128_S32x128x64_S32x128x64_2_1_1_2_0_0.lhsBatch by decide)]
  rfl
theorem kpv_lhs_1 (i : S32x128x64.Idx) (q : dot_S32x128x128_S32x128x64_S32x128x64_2_1_1_2_0_0.contr.Idx) :
    (dot_S32x128x128_S32x128x64_S32x128x64_2_1_1_2_0_0.lhsIdx i q 1).val = (i 1).val := by
  unfold DotDims.lhsIdx
  rw [dif_neg (show ¬(1 : Fin S32x128x128.rank) ∈ dot_S32x128x128_S32x128x64_S32x128x64_2_1_1_2_0_0.lhsBatch by decide), dif_pos (show (1 : Fin S32x128x128.rank) ∈ dot_S32x128x128_S32x128x64_S32x128x64_2_1_1_2_0_0.lhsNonContracting by decide)]
  rfl
theorem kpv_lhs_2 (i : S32x128x64.Idx) (q : dot_S32x128x128_S32x128x64_S32x128x64_2_1_1_2_0_0.contr.Idx) :
    (dot_S32x128x128_S32x128x64_S32x128x64_2_1_1_2_0_0.lhsIdx i q 2).val = (q ⟨0, by decide⟩).val :=
  dot_S32x128x128_S32x128x64_S32x128x64_2_1_1_2_0_0.lhsIdx_val_of_single rfl i q
theorem kpv_rhs_0 (i : S32x128x64.Idx) (q : dot_S32x128x128_S32x128x64_S32x128x64_2_1_1_2_0_0.contr.Idx) :
    (dot_S32x128x128_S32x128x64_S32x128x64_2_1_1_2_0_0.rhsIdx i q 0).val = (i 0).val := by
  unfold DotDims.rhsIdx
  rw [dif_pos (show (0 : Fin S32x128x64.rank) ∈ dot_S32x128x128_S32x128x64_S32x128x64_2_1_1_2_0_0.rhsBatch by decide)]
  rfl
theorem kpv_rhs_1 (i : S32x128x64.Idx) (q : dot_S32x128x128_S32x128x64_S32x128x64_2_1_1_2_0_0.contr.Idx) :
    (dot_S32x128x128_S32x128x64_S32x128x64_2_1_1_2_0_0.rhsIdx i q 1).val = (q ⟨0, by decide⟩).val :=
  dot_S32x128x128_S32x128x64_S32x128x64_2_1_1_2_0_0.rhsIdx_val_of_single rfl i q
theorem kpv_rhs_2 (i : S32x128x64.Idx) (q : dot_S32x128x128_S32x128x64_S32x128x64_2_1_1_2_0_0.contr.Idx) :
    (dot_S32x128x128_S32x128x64_S32x128x64_2_1_1_2_0_0.rhsIdx i q 2).val = (i 2).val := by
  unfold DotDims.rhsIdx
  rw [dif_neg (show ¬(2 : Fin S32x128x64.rank) ∈ dot_S32x128x128_S32x128x64_S32x128x64_2_1_1_2_0_0.rhsBatch by decide), dif_pos (show (2 : Fin S32x128x64.rank) ∈ dot_S32x128x128_S32x128x64_S32x128x64_2_1_1_2_0_0.rhsNonContracting by decide)]
  rfl

/-- The kernel's score product at (batch, query, key), into the zero splat: the sum over the head dimension. -/
theorem kernQK (x : FVec Ideal S32x128x64 .bf16) (y : FVec Ideal S32x128x64 .bf16) (b : Fin 32) (qi m : Fin 128) :
    matmul dot_S32x128x64_S32x128x64_S32x128x128_2_2_1_1_0_0 none x y (constant _ .f32 0x00000000#32) (ix3 b qi m) = ∑ d : Fin 64, x (ix3 b qi d) * y (ix3 b m d) := by
  simp only [matmul]
  rw [Ideal.matmul_constant_zero_apply, ← Equiv.sum_comp (contrEquiv1 dot_S32x128x64_S32x128x64_S32x128x128_2_2_1_1_0_0 64 rfl rfl).symm]
  refine Finset.sum_congr rfl fun d _ => ?_
  have hk := contrEquiv1_symm_val dot_S32x128x64_S32x128x64_S32x128x128_2_2_1_1_0_0 64 rfl rfl d
  have el : dot_S32x128x64_S32x128x64_S32x128x128_2_2_1_1_0_0.lhsIdx (ix3 b qi m) ((contrEquiv1 dot_S32x128x64_S32x128x64_S32x128x128_2_2_1_1_0_0 64 rfl rfl).symm d) = ix3 b qi d := funext fun a => Fin.ext (by
    match a with
    | ⟨0, _⟩ => exact kqk_lhs_0 _ _
    | ⟨1, _⟩ => exact kqk_lhs_1 _ _
    | ⟨2, _⟩ => exact (kqk_lhs_2 _ _).trans hk)
  have er : dot_S32x128x64_S32x128x64_S32x128x128_2_2_1_1_0_0.rhsIdx (ix3 b qi m) ((contrEquiv1 dot_S32x128x64_S32x128x64_S32x128x128_2_2_1_1_0_0 64 rfl rfl).symm d) = ix3 b m d := funext fun a => Fin.ext (by
    match a with
    | ⟨0, _⟩ => exact kqk_rhs_0 _ _
    | ⟨1, _⟩ => exact kqk_rhs_1 _ _
    | ⟨2, _⟩ => exact (kqk_rhs_2 _ _).trans hk)
  rw [el, er]
/-- The kernel's weighted sum of values at (batch, query, entry), into the zero splat: the sum over the keys. -/
theorem kernPV (x : FVec Ideal S32x128x128 .bf16) (y : FVec Ideal S32x128x64 .bf16) (b : Fin 32) (qi : Fin 128) (d : Fin 64) :
    matmul dot_S32x128x128_S32x128x64_S32x128x64_2_1_1_2_0_0 none x y (constant _ .f32 0x00000000#32) (ix3 b qi d) = ∑ m : Fin 128, x (ix3 b qi m) * y (ix3 b m d) := by
  simp only [matmul]
  rw [Ideal.matmul_constant_zero_apply, ← Equiv.sum_comp (contrEquiv1 dot_S32x128x128_S32x128x64_S32x128x64_2_1_1_2_0_0 128 rfl rfl).symm]
  refine Finset.sum_congr rfl fun m _ => ?_
  have hk := contrEquiv1_symm_val dot_S32x128x128_S32x128x64_S32x128x64_2_1_1_2_0_0 128 rfl rfl m
  have el : dot_S32x128x128_S32x128x64_S32x128x64_2_1_1_2_0_0.lhsIdx (ix3 b qi d) ((contrEquiv1 dot_S32x128x128_S32x128x64_S32x128x64_2_1_1_2_0_0 128 rfl rfl).symm m) = ix3 b qi m := funext fun a => Fin.ext (by
    match a with
    | ⟨0, _⟩ => exact kpv_lhs_0 _ _
    | ⟨1, _⟩ => exact kpv_lhs_1 _ _
    | ⟨2, _⟩ => exact (kpv_lhs_2 _ _).trans hk)
  have er : dot_S32x128x128_S32x128x64_S32x128x64_2_1_1_2_0_0.rhsIdx (ix3 b qi d) ((contrEquiv1 dot_S32x128x128_S32x128x64_S32x128x64_2_1_1_2_0_0 128 rfl rfl).symm m) = ix3 b m d := funext fun a => Fin.ext (by
    match a with
    | ⟨0, _⟩ => exact kpv_rhs_0 _ _
    | ⟨1, _⟩ => exact (kpv_rhs_1 _ _).trans hk
    | ⟨2, _⟩ => exact kpv_rhs_2 _ _)
  rw [el, er]

end KernDots

/-! ## The kernel body, stage by stage

The body works on the block's four patches and eight heads as 32 batches, batch `8 p' + h` being head `h` of patch `p'`. -/

section Body

/-- The batch index of head `h` of the block's patch `p'`. -/
abbrev bh (p' : Fin 4) (h : Fin 8) : Fin 32 := ⟨p'.val * 8 + h.val, by omega⟩

/-- [4, 8, 128, 64] flattened to [32, 128, 64], read at batch (p', h). -/
theorem flat64_apply (x : S4x8x128x64.Idx → EReal) (p' : Fin 4) (h : Fin 8) (a : Fin 128) (c : Fin 64) :
    shapeCast S32x128x64 x shapeCasts_S4x8x128x64_S32x128x64 (ix3 (bh p' h) a c) = x (ix4 p' h a c) :=
  shapeCast_apply x _ _ _ (by
    rw [Shape.rowMajor_val_four, Shape.rowMajor_val_three]
    show ((p'.val * 8 + h.val) * 128 + a.val) * 64 + c.val = ((p'.val * 8 + h.val) * 128 + a.val) * 64 + c.val
    rfl)

/-- [4, 8, 128, 128] flattened to [32, 128, 128], read at batch (p', h). -/
theorem flat128_apply (x : S4x8x128x128.Idx → EReal) (p' : Fin 4) (h : Fin 8) (a c : Fin 128) :
    shapeCast S32x128x128 x shapeCasts_S4x8x128x128_S32x128x128 (ix3 (bh p' h) a c) = x (ix4 p' h a c) :=
  shapeCast_apply x _ _ _ (by
    rw [Shape.rowMajor_val_four, Shape.rowMajor_val_three]
    show ((p'.val * 8 + h.val) * 128 + a.val) * 128 + c.val = ((p'.val * 8 + h.val) * 128 + a.val) * 128 + c.val
    rfl)

/-- [32, 128, 64] split back to [4, 8, 128, 64], read at (p', h, ·, ·): batch (p', h). -/
theorem unflat64_apply (y : S32x128x64.Idx → EReal) (p' : Fin 4) (h : Fin 8) (a : Fin 128) (c : Fin 64) :
    shapeCast S4x8x128x64 y shapeCasts_S32x128x64_S4x8x128x64 (ix4 p' h a c) = y (ix3 (bh p' h) a c) :=
  shapeCast_apply y _ _ _ (by
    rw [Shape.rowMajor_val_four, Shape.rowMajor_val_three]
    show ((p'.val * 8 + h.val) * 128 + a.val) * 64 + c.val = ((p'.val * 8 + h.val) * 128 + a.val) * 64 + c.val
    rfl)

/-- A per-row value [32, 128] spread along the keys, read at (batch, query, key): the row's value. -/
theorem kernCol_apply (y : S32x128.Idx → EReal) (b : Fin 32) (qi m : Fin 128) :
    broadcastTo S32x128x128 (shapeCast S32x128x1 y shapeCasts_S32x128_S32x128x1) broadcasts_S32x128x1_S32x128x128 (ix3 b qi m) = y (ix2 b qi) := by
  refine (broadcastTo_apply _ broadcasts_S32x128x1_S32x128x128 (ix3 b qi m) (ix3 b qi (0 : Fin 1)) (fun a => match a with
    | ⟨0, _⟩ => by show b.val = if (32 : Nat) = 1 then 0 else b.val; rw [if_neg (by decide)]
    | ⟨1, _⟩ => by show qi.val = if (128 : Nat) = 1 then 0 else qi.val; rw [if_neg (by decide)]
    | ⟨2, _⟩ => by show 0 = if (1 : Nat) = 1 then 0 else m.val; rw [if_pos rfl])).trans ?_
  exact shapeCast_apply y _ _ _ (by
    rw [Shape.rowMajor_val_two, Shape.rowMajor_val_three]
    show b.val * 128 + qi.val = (b.val * 128 + qi.val) * 1 + 0
    omega)

/-- The kernel's row maximum at (batch, query): the fold of `max` over the keys from `-∞`. -/
theorem kernMax_apply (s : FVec Ideal S32x128x128 .f32) (b : Fin 32) (qi : Fin 128) (hacc : (0xFF800000#32 : BitVec 32) = 0xFF800000#32) :
    multiReduction .maximumf [2] S32x128 s 0xFF800000#32 reduces_S32x128x128_S32x128 (.inl rfl) hacc (ix2 b qi)
      = (Finset.univ : Finset (Fin 128)).fold max (Ideal.ofBits .f32 0xFF800000#32) (fun m => s (ix3 b qi m)) := by
  refine (Ideal.multiReduction_maximumf_single s 0xFF800000#32 reduces_S32x128x128_S32x128 (.inl rfl) hacc (ix2 b qi)).trans ?_
  refine congrArg (Finset.fold max (Ideal.ofBits .f32 0xFF800000#32) · Finset.univ) (funext fun m => ?_)
  exact congrArg s (funext fun a => Fin.ext (by match a with | ⟨0, _⟩ => rfl | ⟨1, _⟩ => rfl | ⟨2, _⟩ => rfl))

/-- The kernel's row sum at (batch, query): the sum over the keys. -/
theorem kernSum_apply (e : FVec Ideal S32x128x128 .f32) (b : Fin 32) (qi : Fin 128) (hacc : (0x00000000#32 : BitVec 32) = 0x00000000#32) :
    multiReduction .add [2] S32x128 e 0x00000000#32 reduces_S32x128x128_S32x128 (.inl rfl) hacc (ix2 b qi)
      = ∑ m : Fin 128, e (ix3 b qi m) := by
  refine (Ideal.multiReduction_add_single e 0x00000000#32 reduces_S32x128x128_S32x128 (.inl rfl) hacc (ix2 b qi)).trans ?_
  refine Finset.sum_congr rfl fun m _ => ?_
  exact congrArg e (funext fun a => Fin.ext (by match a with | ⟨0, _⟩ => rfl | ⟨1, _⟩ => rfl | ⟨2, _⟩ => rfl))

end Body

section Payload

/-- The block's scores, [batch, query, key]: the scaled queries against the keys into a zero splat, plus the bias. -/
def kScores (x0 x1 : Vec Ideal S4x8x128x64 .f32) (x3 : Vec Ideal S4x8x128x128 .f32) : FVec Ideal S32x128x128 .f32 :=
  addf (matmul dot_S32x128x64_S32x128x64_S32x128x128_2_2_1_1_0_0 none
      (truncf .bf16 (mulf (shapeCast S32x128x64 x0 shapeCasts_S4x8x128x64_S32x128x64) (broadcast S32x128x64 (Scalar.ofBits .f32 0x3E000000#32))) bitsLt_bf16_f32)
      (truncf .bf16 (shapeCast S32x128x64 x1 shapeCasts_S4x8x128x64_S32x128x64) bitsLt_bf16_f32)
      (constant S32x128x128 .f32 0x00000000#32))
    (shapeCast S32x128x128 x3 shapeCasts_S4x8x128x128_S32x128x128)

/-- The shifted exponentials of scores `s`. -/
def kExp (s : FVec Ideal S32x128x128 .f32) : FVec Ideal S32x128x128 .f32 :=
  exp (subf s (broadcastTo S32x128x128 (shapeCast S32x128x1
    (maximumf (broadcast S32x128 (Scalar.ofBits .f32 0xFF800000#32))
      (multiReduction .maximumf [2] S32x128 s 0xFF800000#32 reduces_S32x128x128_S32x128 (.inl rfl) rfl))
    shapeCasts_S32x128_S32x128x1) broadcasts_S32x128x1_S32x128x128))

/-- Exponentials `e` over their row sums. -/
def kWeights (e : FVec Ideal S32x128x128 .f32) : FVec Ideal S32x128x128 .f32 :=
  divf e (broadcastTo S32x128x128 (shapeCast S32x128x1
    (multiReduction .add [2] S32x128 e 0x00000000#32 reduces_S32x128x128_S32x128 (.inl rfl) rfl)
    shapeCasts_S32x128_S32x128x1) broadcasts_S32x128x1_S32x128x128)

/-- Weights `w` against the values into a zero splat, split back into patches and heads. -/
def kOut (w : FVec Ideal S32x128x128 .f32) (x2 : Vec Ideal S4x8x128x64 .f32) : FVec Ideal S4x8x128x64 .f32 :=
  shapeCast S4x8x128x64 (matmul dot_S32x128x128_S32x128x64_S32x128x64_2_1_1_2_0_0 none
      (truncf .bf16 w bitsLt_bf16_f32)
      (truncf .bf16 (shapeCast S32x128x64 x2 shapeCasts_S4x8x128x64_S32x128x64) bitsLt_bf16_f32)
      (constant S32x128x64 .f32 0x00000000#32))
    shapeCasts_S32x128x64_S4x8x128x64

/-- The body's payload is these four stages composed (its casts of a block to its own shape are the identity). -/
theorem pay_eq (x0 x1 x2 : Vec Ideal S4x8x128x64 .f32) (x3 : Vec Ideal S4x8x128x128 .f32) :
    k1_pay1 x0 x1 x2 x3 = kOut (kWeights (kExp (kScores x0 x1 x3))) x2 := by
  unfold k1_pay1 kOut kWeights kExp kScores
  simp only [shapeCast_self]

/-- The block's scores at batch (p', h), (query, key). -/
theorem kScores_apply (x0 x1 : Vec Ideal S4x8x128x64 .f32) (x3 : Vec Ideal S4x8x128x128 .f32)
    (p' : Fin 4) (h : Fin 8) (qi m : Fin 128) :
    kScores x0 x1 x3 (ix3 (bh p' h) qi m) = score (sl64 x0 p' h) (sl64 x1 p' h) (sl128 x3 p' h) qi m := by
  unfold kScores score
  rw [addf_apply, kernQK, flat128_apply]
  refine congrArg (· + _) (Finset.sum_congr rfl fun d _ => ?_)
  show (shapeCast S32x128x64 x0 shapeCasts_S4x8x128x64_S32x128x64 (ix3 (bh p' h) qi d) * Ideal.ofBits .f32 0x3E000000#32)
      * shapeCast S32x128x64 x1 shapeCasts_S4x8x128x64_S32x128x64 (ix3 (bh p' h) m d) = _
  rw [flat64_apply, flat64_apply]

/-- The shifted exponentials at (batch, query, key), for any scores `s`. -/
theorem kExp_apply (s : FVec Ideal S32x128x128 .f32) (b : Fin 32) (qi m : Fin 128) :
    kExp s (ix3 b qi m)
      = Ideal.exp (s (ix3 b qi m) - max (Ideal.ofBits .f32 0xFF800000#32)
          ((Finset.univ : Finset (Fin 128)).fold max (Ideal.ofBits .f32 0xFF800000#32) (fun m' => s (ix3 b qi m')))) := by
  unfold kExp
  show Ideal.exp (s (ix3 b qi m) - _) = _
  rw [kernCol_apply, maximumf_apply, kernMax_apply]
  rfl

/-- The weights at (batch, query, key), for any exponentials `e`. -/
theorem kWeights_apply (e : FVec Ideal S32x128x128 .f32) (b : Fin 32) (qi m : Fin 128) :
    kWeights e (ix3 b qi m) = Ideal.div (e (ix3 b qi m)) (∑ m' : Fin 128, e (ix3 b qi m')) := by
  unfold kWeights
  show Ideal.div (e (ix3 b qi m)) _ = _
  rw [kernCol_apply, kernSum_apply]

/-- The output at (p', h, query, entry), for any weights `w`. -/
theorem kOut_apply (w : FVec Ideal S32x128x128 .f32) (x2 : Vec Ideal S4x8x128x64 .f32)
    (p' : Fin 4) (h : Fin 8) (qi : Fin 128) (d : Fin 64) :
    kOut w x2 (ix4 p' h qi d) = ∑ m : Fin 128, w (ix3 (bh p' h) qi m) * x2 (ix4 p' h m d) := by
  unfold kOut
  rw [unflat64_apply, kernPV]
  refine Finset.sum_congr rfl fun m _ => ?_
  show w (ix3 (bh p' h) qi m) * shapeCast S32x128x64 x2 shapeCasts_S4x8x128x64_S32x128x64 (ix3 (bh p' h) m d) = _
  rw [flat64_apply]

/-- THE BODY at (p', h, query, entry) of its output block: one head's attention of the blocks' slices at (p', h). -/
theorem pay_apply (x0 x1 x2 : Vec Ideal S4x8x128x64 .f32) (x3 : Vec Ideal S4x8x128x128 .f32)
    (p' : Fin 4) (h : Fin 8) (qi : Fin 128) (d : Fin 64) :
    k1_pay1 x0 x1 x2 x3 (ix4 p' h qi d)
      = attnRow (sl64 x0 p' h) (sl64 x1 p' h) (sl64 x2 p' h) (sl128 x3 p' h) qi d := by
  rw [pay_eq, kOut_apply]
  simp only [kWeights_apply, kExp_apply, kScores_apply]
  rfl

end Payload

/-! ## Both sides at any index -/

section AtIndex

/-- The body at any index of its output block. -/
theorem pay_at (x0 x1 x2 : Vec Ideal S4x8x128x64 .f32) (x3 : Vec Ideal S4x8x128x128 .f32) (y : S4x8x128x64.Idx) :
    k1_pay1 x0 x1 x2 x3 y
      = attnRow (sl64 x0 (y 0) (y 1)) (sl64 x1 (y 0) (y 1)) (sl64 x2 (y 0) (y 1)) (sl128 x3 (y 0) (y 1)) (y 2) (y 3) := by
  obtain ⟨p', h, qi, d, rfl⟩ : ∃ (p' : Fin 4) (h : Fin 8) (qi : Fin 128) (d : Fin 64), y = ix4 p' h qi d :=
    ⟨y 0, y 1, y 2, y 3, eq_ix4 y⟩
  exact pay_apply x0 x1 x2 x3 p' h qi d

/-- The reference at any index of the array. -/
theorem spec_at (q k v : FVec Ideal Cert.ReferenceIdeal.S256x8x128x64 .f32) (b : FVec Ideal Cert.ReferenceIdeal.S256x8x128x128 .f32)
    (i : Cert.ReferenceIdeal.S256x8x128x64.Idx) :
    Cert.AttnSpec.attn q k v b i
      = attnRow (sl64 q (i 0) (i 1)) (sl64 k (i 0) (i 1)) (sl64 v (i 0) (i 1)) (sl128 b (i 0) (i 1)) (i 2) (i 3) := by
  obtain ⟨p, h, qi, d, rfl⟩ : ∃ (p : Fin 256) (h : Fin 8) (qi : Fin 128) (d : Fin 64), i = ix4 p h qi d :=
    ⟨i 0, i 1, i 2, i 3, eq_ix4 i⟩
  exact spec_apply q k v b p h qi d

end AtIndex

/-! ## From the blocks to the array -/

section Blocks

variable (V : (c : Dev nD) → (b : Ref sig .tc) → Buf (Elt Ideal) ((c : Thread nD τ).loc b)) (c : Dev nD)

theorem hz4 : (![0, 0, 0, 0] : Fin 4 → Nat) = fun _ => 0 := funext fun a => by fin_cases a <;> rfl

/-- The printed index maps, decided over the grid: at point `t` every window's block is block `t` along the patches
    and the whole of the other three axes. -/
theorem idx_facts : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ (win1_2.index t (0 : Fin 4) = t.val ∧ win1_2.index t (1 : Fin 4) = 0 ∧ win1_2.index t (2 : Fin 4) = 0 ∧ win1_2.index t (3 : Fin 4) = 0)
    ∧ (win1_3.index t (0 : Fin 4) = t.val ∧ win1_3.index t (1 : Fin 4) = 0 ∧ win1_3.index t (2 : Fin 4) = 0 ∧ win1_3.index t (3 : Fin 4) = 0)
    ∧ (win1_4.index t (0 : Fin 4) = t.val ∧ win1_4.index t (1 : Fin 4) = 0 ∧ win1_4.index t (2 : Fin 4) = 0 ∧ win1_4.index t (3 : Fin 4) = 0) :=
  (by decide +kernel : ∀ t : Fin grid1.N, _)

end Blocks

section Blocks2

variable (V : (c : Dev nD) → (b : Ref sig .tc) → Buf (Elt Ideal) ((c : Thread nD τ).loc b)) (c : Dev nD)

set_option maxHeartbeats 1000000 in
/-- WHAT POINT `t` WRITES BACK is block `t` of the reference's attention of the four arrays as the region finds them:
    an element of the block sits in the array at patch `4 t + p'` and at its own head, query and entry, and so do the
    elements of the four input blocks the body reads for it. -/
theorem flushed_eq (t : Fin cfg1.N) :
    (dat1 (F := Ideal) V c).flushed 4 t
      = ((cfg1.win 4).blk t).view.read (Elt Ideal) (Cert.AttnSpec.attn (V c main_v6) (V c main_v9) (V c main_v12) (V c main_v48)) := by
  show (cfg1.win 4).cut (grid1.coords t) ((dat1 V c).after 4 t) = _
  rw [after1_4]
  unfold out1_4
  rw [View.canon_unit_zero hz4]
  simp only [View.ld_unit_zero (S := S4x8x128x64) hz4, View.ld_unit_zero (S := S4x8x128x128) hz4]
  funext j
  rw [View.read_apply]
  show k1_pay1 (iblk1 V c 0 t) (iblk1 V c 1 t) (iblk1 V c 2 t) (iblk1 V c 3 t) ((cfg1.win 4).xinj (grid1.coords t) j)
    = Cert.AttnSpec.attn (V c main_v6) (V c main_v9) (V c main_v12) (V c main_v48) (((cfg1.win 4).blk t).view.emb j)
  rw [pay_at, spec_at]
  obtain ⟨⟨a0, a1, a2, a3⟩, ⟨b0, b1, b2, b3⟩, ⟨c0, c1, c2, c3⟩, ⟨d0, d1, d2, d3⟩, ⟨e0, e1, e2, e3⟩⟩ := idx_facts t
  have hq : sl64 (iblk1 V c 0 t) (((cfg1.win 4).xinj (grid1.coords t) j) 0) (((cfg1.win 4).xinj (grid1.coords t) j) 1)
      = sl64 (V c main_v6) ((((cfg1.win 4).blk t).view.emb j) 0) ((((cfg1.win 4).blk t).view.emb j) 1) := funext fun a => funext fun c' => by
    show V c main_v6 (((cfg1.win 0).blk t).view.emb (ix4 (((cfg1.win 4).xinj (grid1.coords t) j) 0) (((cfg1.win 4).xinj (grid1.coords t) j) 1) a c'))
      = V c main_v6 (ix4 ((((cfg1.win 4).blk t).view.emb j) 0) ((((cfg1.win 4).blk t).view.emb j) 1) a c')
    refine congrArg (V c main_v6) (funext fun ax => Fin.ext ?_)
    match ax with
    | ⟨0, _⟩ => show win1_0.index t (0 : Fin 4) * 4 + 1 * (j 0).val = win1_4.index t (0 : Fin 4) * 4 + 1 * (j 0).val; omega
    | ⟨1, _⟩ => show win1_0.index t (1 : Fin 4) * 8 + 1 * (j 1).val = win1_4.index t (1 : Fin 4) * 8 + 1 * (j 1).val; omega
    | ⟨2, _⟩ => show win1_0.index t (2 : Fin 4) * 128 + 1 * a.val = a.val; omega
    | ⟨3, _⟩ => show win1_0.index t (3 : Fin 4) * 64 + 1 * c'.val = c'.val; omega
  have hk : sl64 (iblk1 V c 1 t) (((cfg1.win 4).xinj (grid1.coords t) j) 0) (((cfg1.win 4).xinj (grid1.coords t) j) 1)
      = sl64 (V c main_v9) ((((cfg1.win 4).blk t).view.emb j) 0) ((((cfg1.win 4).blk t).view.emb j) 1) := funext fun a => funext fun c' => by
    show V c main_v9 (((cfg1.win 1).blk t).view.emb (ix4 (((cfg1.win 4).xinj (grid1.coords t) j) 0) (((cfg1.win 4).xinj (grid1.coords t) j) 1) a c'))
      = V c main_v9 (ix4 ((((cfg1.win 4).blk t).view.emb j) 0) ((((cfg1.win 4).blk t).view.emb j) 1) a c')
    refine congrArg (V c main_v9) (funext fun ax => Fin.ext ?_)
    match ax with
    | ⟨0, _⟩ => show win1_1.index t (0 : Fin 4) * 4 + 1 * (j 0).val = win1_4.index t (0 : Fin 4) * 4 + 1 * (j 0).val; omega
    | ⟨1, _⟩ => show win1_1.index t (1 : Fin 4) * 8 + 1 * (j 1).val = win1_4.index t (1 : Fin 4) * 8 + 1 * (j 1).val; omega
    | ⟨2, _⟩ => show win1_1.index t (2 : Fin 4) * 128 + 1 * a.val = a.val; omega
    | ⟨3, _⟩ => show win1_1.index t (3 : Fin 4) * 64 + 1 * c'.val = c'.val; omega
  have hv : sl64 (iblk1 V c 2 t) (((cfg1.win 4).xinj (grid1.coords t) j) 0) (((cfg1.win 4).xinj (grid1.coords t) j) 1)
      = sl64 (V c main_v12) ((((cfg1.win 4).blk t).view.emb j) 0) ((((cfg1.win 4).blk t).view.emb j) 1) := funext fun a => funext fun c' => by
    show V c main_v12 (((cfg1.win 2).blk t).view.emb (ix4 (((cfg1.win 4).xinj (grid1.coords t) j) 0) (((cfg1.win 4).xinj (grid1.coords t) j) 1) a c'))
      = V c main_v12 (ix4 ((((cfg1.win 4).blk t).view.emb j) 0) ((((cfg1.win 4).blk t).view.emb j) 1) a c')
    refine congrArg (V c main_v12) (funext fun ax => Fin.ext ?_)
    match ax with
    | ⟨0, _⟩ => show win1_2.index t (0 : Fin 4) * 4 + 1 * (j 0).val = win1_4.index t (0 : Fin 4) * 4 + 1 * (j 0).val; omega
    | ⟨1, _⟩ => show win1_2.index t (1 : Fin 4) * 8 + 1 * (j 1).val = win1_4.index t (1 : Fin 4) * 8 + 1 * (j 1).val; omega
    | ⟨2, _⟩ => show win1_2.index t (2 : Fin 4) * 128 + 1 * a.val = a.val; omega
    | ⟨3, _⟩ => show win1_2.index t (3 : Fin 4) * 64 + 1 * c'.val = c'.val; omega
  have hb : sl128 (iblk1 V c 3 t) (((cfg1.win 4).xinj (grid1.coords t) j) 0) (((cfg1.win 4).xinj (grid1.coords t) j) 1)
      = sl128 (V c main_v48) ((((cfg1.win 4).blk t).view.emb j) 0) ((((cfg1.win 4).blk t).view.emb j) 1) := funext fun a => funext fun c' => by
    show V c main_v48 (((cfg1.win 3).blk t).view.emb (ix4 (((cfg1.win 4).xinj (grid1.coords t) j) 0) (((cfg1.win 4).xinj (grid1.coords t) j) 1) a c'))
      = V c main_v48 (ix4 ((((cfg1.win 4).blk t).view.emb j) 0) ((((cfg1.win 4).blk t).view.emb j) 1) a c')
    refine congrArg (V c main_v48) (funext fun ax => Fin.ext ?_)
    match ax with
    | ⟨0, _⟩ => show win1_3.index t (0 : Fin 4) * 4 + 1 * (j 0).val = win1_4.index t (0 : Fin 4) * 4 + 1 * (j 0).val; omega
    | ⟨1, _⟩ => show win1_3.index t (1 : Fin 4) * 8 + 1 * (j 1).val = win1_4.index t (1 : Fin 4) * 8 + 1 * (j 1).val; omega
    | ⟨2, _⟩ => show win1_3.index t (2 : Fin 4) * 128 + 1 * a.val = a.val; omega
    | ⟨3, _⟩ => show win1_3.index t (3 : Fin 4) * 128 + 1 * c'.val = c'.val; omega
  have h2 : (((cfg1.win 4).xinj (grid1.coords t) j) 2 : Fin 128) = (((cfg1.win 4).blk t).view.emb j) 2 := Fin.ext (by
    show (j 2).val = win1_4.index t (2 : Fin 4) * 128 + 1 * (j 2).val; omega)
  have h3 : (((cfg1.win 4).xinj (grid1.coords t) j) 3 : Fin 64) = (((cfg1.win 4).blk t).view.emb j) 3 := Fin.ext (by
    show (j 3).val = win1_4.index t (3 : Fin 4) * 64 + 1 * (j 3).val; omega)
  rw [hq, hk, hv, hb, h2, h3]

end Blocks2

section Cover

variable (V : (c : Dev nD) → (b : Ref sig .tc) → Buf (Elt Ideal) ((c : Thread nD τ).loc b)) (c : Dev nD)

/-- An index of the array is in point `t`'s block iff each coordinate is in the block's range on its axis. -/
theorem mem_blk (t : Fin cfg1.N) (i : S256x8x128x64.Idx) :
    i ∈ ((cfg1.win 4).blk t).view.set ↔ ∀ a : Fin 4, win1_4.index t a * S4x8x128x64.size a ≤ (i a).val
      ∧ (i a).val < win1_4.index t a * S4x8x128x64.size a + S4x8x128x64.size a := by
  show i ∈ ((View.whole main_v49).slice (win1_4.rect t)).set ↔ _
  rw [View.set_slice_whole, Rect.mem_set_unit]
  exact Iff.rfl

/-- Every index of the array is in some point's block: patch `p` is in the block of point `p / 4`. -/
theorem cover (i : S256x8x128x64.Idx) :
    ∃ t : Fin cfg1.N, (cfg1.win 4).flush t = true ∧ i ∈ ((cfg1.win 4).blk t).view.set := by
  have hi0 : (i 0).val < 256 := (i 0).isLt
  have hi1 : (i 1).val < 8 := (i 1).isLt
  have hi2 : (i 2).val < 128 := (i 2).isLt
  have hi3 : (i 3).val < 64 := (i 3).isLt
  have hN : cfg1.N = 64 := N_1
  have ht : (i 0).val / 4 < cfg1.N := by rw [hN]; omega
  refine ⟨⟨(i 0).val / 4, ht⟩, flush1_4 _, ?_⟩
  rw [mem_blk]
  obtain ⟨-, -, -, -, ⟨e0, e1, e2, e3⟩⟩ := idx_facts ⟨(i 0).val / 4, ht⟩
  have e0' : win1_4.index ⟨(i 0).val / 4, ht⟩ (0 : Fin 4) = (i 0).val / 4 := e0
  intro a
  match a with
  | ⟨0, _⟩ =>
    show win1_4.index ⟨(i 0).val / 4, ht⟩ (0 : Fin 4) * 4 ≤ (i 0).val ∧ (i 0).val < win1_4.index ⟨(i 0).val / 4, ht⟩ (0 : Fin 4) * 4 + 4
    omega
  | ⟨1, _⟩ =>
    show win1_4.index ⟨(i 0).val / 4, ht⟩ (1 : Fin 4) * 8 ≤ (i 1).val ∧ (i 1).val < win1_4.index ⟨(i 0).val / 4, ht⟩ (1 : Fin 4) * 8 + 8
    omega
  | ⟨2, _⟩ =>
    show win1_4.index ⟨(i 0).val / 4, ht⟩ (2 : Fin 4) * 128 ≤ (i 2).val ∧ (i 2).val < win1_4.index ⟨(i 0).val / 4, ht⟩ (2 : Fin 4) * 128 + 128
    omega
  | ⟨3, _⟩ =>
    show win1_4.index ⟨(i 0).val / 4, ht⟩ (3 : Fin 4) * 64 ≤ (i 3).val ∧ (i 3).val < win1_4.index ⟨(i 0).val / 4, ht⟩ (3 : Fin 4) * 64 + 64
    omega

end Cover

/-- THE ATTENTION OUTPUT after region 1: the reference's attention of the four arrays the region reads. -/
theorem attn_arrAt (V : (c : Dev nD) → (b : Ref sig .tc) → Buf (Elt Ideal) ((c : Thread nD τ).loc b)) (c : Dev nD) :
    (dat1 (F := Ideal) V c).arrAt 4 cfg1.N
      = Cert.AttnSpec.attn (V c main_v6) (V c main_v9) (V c main_v12) (V c main_v48) :=
  (dat1 (F := Ideal) V c).arrAt_eq_of_cover 4 _ (fun t _ => flushed_eq V c t) cover

end Cert.KernelIdeal.Val

end
-- ==== Proof.RegionProj.lean ====
import proofs.«411299_j71957882077526_1_alg».proof.Proof.Gen.KernelIdeal.Frame
import proofs.«411299_j71957882077526_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat)

open Idealize.ShloMosaic.ValueIdx

namespace Proj

open Idealize.ShloMosaic.ValueIdx

/-- The zero offsets of a whole-block access, as the constant function. -/
theorem proj_zero_off : (![0, 0] : Fin 2 → Nat) = fun _ => 0 :=
  funext fun a => by match a with | ⟨0, _⟩ => rfl | ⟨1, _⟩ => rfl

/-! ## The block product read at an index

The operand indices of the block's matrix product at output index `i` and contraction index `q`, axis by axis: the left
operand is read at row `i 0` and the contracted coordinate, the right at the contracted coordinate and column `i 1`. -/

theorem lhs_blockdot_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_blockdot_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_blockdot_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_blockdot_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

set_option maxHeartbeats 400000 in
/-- The block's matrix product into the zero splat, at row `r` and column `q`: the sum over the contracted
    coordinate `k` of the left block at `(r, k)` times the right block at `(k, q)`. -/
theorem blockdot_apply (a : FVec Ideal S1024x512 .bf16) (w : FVec Ideal S512x512 .bf16) (r : Fin 1024) (q : Fin 512) :
    FloatOps.matmul dot_S1024x512_S512x512_S1024x512_1_0_0_1_n_n none a w (constant (F := Ideal) S1024x512 .f32 0x00000000#32) (ix2 r q)
      = ∑ k : Fin 512, a (ix2 r k) * w (ix2 k q) := by
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r q) ((contrEquiv1 dot_S1024x512_S512x512_S1024x512_1_0_0_1_n_n 512 rfl rfl).symm k) = ix2 r k := funext fun d => Fin.ext (by
    match d with
    | ⟨0, _⟩ => exact lhs_blockdot_0 _ _
    | ⟨1, _⟩ => exact (lhs_blockdot_1 _ _).trans hk)
  have er : dot_S1024x512_S512x512_S1024x512_1_0_0_1_n_n.rhsIdx (ix2 r q) ((contrEquiv1 dot_S1024x512_S512x512_S1024x512_1_0_0_1_n_n 512 rfl rfl).symm k) = ix2 k q := funext fun d => Fin.ext (by
    match d with
    | ⟨0, _⟩ => exact (rhs_blockdot_0 _ _).trans hk
    | ⟨1, _⟩ => exact rhs_blockdot_1 _ _)
  rw [el, er]

set_option maxHeartbeats 400000 in
/-- The body's stored value at row `r`, column `q` of the block: the residual block's entry plus the product's,
    plus the bias row's entry of that column. -/
theorem pay_apply (v0 : Vec Ideal S1024x512 .f32) (v3 : Vec Ideal S512x512 .f32) (v6 : Vec Ideal S1024x512 .f32) (v8 : Vec Ideal S1x512 .f32)
    (r : Fin 1024) (q : Fin 512) :
    k2_pay1 (F := Ideal) v0 v3 v6 v8 (ix2 r q)
      = (v6 (ix2 r q) + ∑ k : Fin 512, v0 (ix2 r k) * v3 (ix2 k q)) + v8 (ix2 (0 : Fin 1) q) := by
  unfold k2_pay1
  simp only [shapeCast_self]
  rw [addf_apply, addf_apply]
  refine congrArg₂ (· + ·) (congrArg₂ (· + ·) rfl ?_) ?_
  · exact blockdot_apply _ _ r q
  · refine broadcastTo_apply _ _ _ _ fun d => ?_
    match d with
    | ⟨0, _⟩ => rfl
    | ⟨1, _⟩ => rfl

/-! ## The reference's product read at an index

The same four coordinate facts for the whole arrays' product. -/

theorem lhs_rowdot_0 (i : Cert.ReferenceIdeal.S32768x512.Idx) (q : Cert.ReferenceIdeal.dot_S32768x512_S512x512_S32768x512_1_0_0_1_n_n.contr.Idx) :
    (Cert.ReferenceIdeal.dot_S32768x512_S512x512_S32768x512_1_0_0_1_n_n.lhsIdx i q 0).val = (i 0).val := by
  unfold DotDims.lhsIdx
  rw [dif_neg (show ¬(0 : Fin Cert.ReferenceIdeal.S32768x512.rank) ∈ Cert.ReferenceIdeal.dot_S32768x512_S512x512_S32768x512_1_0_0_1_n_n.lhsBatch by decide), dif_pos (show (0 : Fin Cert.ReferenceIdeal.S32768x512.rank) ∈ Cert.ReferenceIdeal.dot_S32768x512_S512x512_S32768x512_1_0_0_1_n_n.lhsNonContracting by decide)]
  rfl
theorem lhs_rowdot_1 (i : Cert.ReferenceIdeal.S32768x512.Idx) (q : Cert.ReferenceIdeal.dot_S32768x512_S512x512_S32768x512_1_0_0_1_n_n.contr.Idx) :
    (Cert.ReferenceIdeal.dot_S32768x512_S512x512_S32768x512_1_0_0_1_n_n.lhsIdx i q 1).val = (q ⟨0, by decide⟩).val :=
  Cert.ReferenceIdeal.dot_S32768x512_S512x512_S32768x512_1_0_0_1_n_n.lhsIdx_val_of_single rfl i q
theorem rhs_rowdot_0 (i : Cert.ReferenceIdeal.S32768x512.Idx) (q : Cert.ReferenceIdeal.dot_S32768x512_S512x512_S32768x512_1_0_0_1_n_n.contr.Idx) :
    (Cert.ReferenceIdeal.dot_S32768x512_S512x512_S32768x512_1_0_0_1_n_n.rhsIdx i q 0).val = (q ⟨0, by decide⟩).val :=
  Cert.ReferenceIdeal.dot_S32768x512_S512x512_S32768x512_1_0_0_1_n_n.rhsIdx_val_of_single rfl i q
theorem rhs_rowdot_1 (i : Cert.ReferenceIdeal.S32768x512.Idx) (q : Cert.ReferenceIdeal.dot_S32768x512_S512x512_S32768x512_1_0_0_1_n_n.contr.Idx) :
    (Cert.ReferenceIdeal.dot_S32768x512_S512x512_S32768x512_1_0_0_1_n_n.rhsIdx i q 1).val = (i 1).val := by
  unfold DotDims.rhsIdx
  rw [dif_neg (show ¬(1 : Fin Cert.ReferenceIdeal.S512x512.rank) ∈ Cert.ReferenceIdeal.dot_S32768x512_S512x512_S32768x512_1_0_0_1_n_n.rhsBatch by decide), dif_pos (show (1 : Fin Cert.ReferenceIdeal.S512x512.rank) ∈ Cert.ReferenceIdeal.dot_S32768x512_S512x512_S32768x512_1_0_0_1_n_n.rhsNonContracting by decide)]
  rfl

set_option maxHeartbeats 400000 in
/-- The whole arrays' product at row `n` and column `q`: the sum over `k` of the left array at `(n, k)` times the
    right at `(k, q)`. -/
theorem rowdot_apply (x : FVec Ideal Cert.ReferenceIdeal.S32768x512 .f32) (w : FVec Ideal Cert.ReferenceIdeal.S512x512 .f32) (n : Fin 32768) (q : Fin 512) :
    Host.dotGeneral (F := Ideal) (φ₁ := .f32) (φ₂ := .f32) Cert.ReferenceIdeal.dot_S32768x512_S512x512_S32768x512_1_0_0_1_n_n none x w (ix2 n q)
      = ∑ k : Fin 512, x (ix2 n k) * w (ix2 k q) := by
  simp only [Host.dotGeneral]
  rw [Ideal.dotGeneral_apply, ← Equiv.sum_comp (contrEquiv1 Cert.ReferenceIdeal.dot_S32768x512_S512x512_S32768x512_1_0_0_1_n_n 512 rfl rfl).symm]
  refine Finset.sum_congr rfl fun k _ => ?_
  have hk := contrEquiv1_symm_val Cert.ReferenceIdeal.dot_S32768x512_S512x512_S32768x512_1_0_0_1_n_n 512 rfl rfl k
  have el : Cert.ReferenceIdeal.dot_S32768x512_S512x512_S32768x512_1_0_0_1_n_n.lhsIdx (ix2 n q) ((contrEquiv1 Cert.ReferenceIdeal.dot_S32768x512_S512x512_S32768x512_1_0_0_1_n_n 512 rfl rfl).symm k) = ix2 n k := funext fun d => Fin.ext (by
    match d with
    | ⟨0, _⟩ => exact lhs_rowdot_0 _ _
    | ⟨1, _⟩ => exact (lhs_rowdot_1 _ _).trans hk)
  have er : Cert.ReferenceIdeal.dot_S32768x512_S512x512_S32768x512_1_0_0_1_n_n.rhsIdx (ix2 n q) ((contrEquiv1 Cert.ReferenceIdeal.dot_S32768x512_S512x512_S32768x512_1_0_0_1_n_n 512 rfl rfl).symm k) = ix2 k q := funext fun d => Fin.ext (by
    match d with
    | ⟨0, _⟩ => exact (rhs_rowdot_0 _ _).trans hk
    | ⟨1, _⟩ => exact rhs_rowdot_1 _ _)
  rw [el, er]

set_option maxHeartbeats 400000 in
/-- The reference's term at `(n, q)`: the residual's entry plus (the product's entry plus the bias row's entry of
    column `q`). -/
theorem ref_apply (fe x : FVec Ideal Cert.ReferenceIdeal.S32768x512 .f32) (w : FVec Ideal Cert.ReferenceIdeal.S512x512 .f32) (b : FVec Ideal Cert.ReferenceIdeal.S1x512 .f32)
    (n : Fin 32768) (q : Fin 512) :
    addf (F := Ideal) fe (addf (F := Ideal) (Host.dotGeneral (F := Ideal) (φ₁ := .f32) (φ₂ := .f32) Cert.ReferenceIdeal.dot_S32768x512_S512x512_S32768x512_1_0_0_1_n_n none x w)
          (broadcastInDim (α := Ideal .f32) Cert.ReferenceIdeal.S32768x512 ![0, 1] Cert.ReferenceIdeal.Facts₀.bcast_S1x512_S32768x512_0_1 b)) (ix2 n q)
      = fe (ix2 n q) + (∑ k : Fin 512, x (ix2 n k) * w (ix2 k q) + b (ix2 (0 : Fin 1) q)) := by
  rw [addf_apply, addf_apply]
  refine congrArg₂ (· + ·) rfl (congrArg₂ (· + ·) (rowdot_apply x w n q) ?_)
  refine broadcastInDim_apply _ _ _ _ _ fun d => ?_
  match d with
  | ⟨0, _⟩ => rfl
  | ⟨1, _⟩ => rfl

/-- The reference's result as one term of the residual, the activation, the weight and the bias row. -/
abbrev projTerm (fe x : FVec Ideal Cert.ReferenceIdeal.S32768x512 .f32) (w : FVec Ideal Cert.ReferenceIdeal.S512x512 .f32) (b : FVec Ideal Cert.ReferenceIdeal.S1x512 .f32) :
    FVec Ideal Cert.ReferenceIdeal.S32768x512 .f32 :=
  addf (F := Ideal) fe (addf (F := Ideal) (Host.dotGeneral (F := Ideal) (φ₁ := .f32) (φ₂ := .f32) Cert.ReferenceIdeal.dot_S32768x512_S512x512_S32768x512_1_0_0_1_n_n none x w)
    (broadcastInDim (α := Ideal .f32) Cert.ReferenceIdeal.S32768x512 ![0, 1] Cert.ReferenceIdeal.Facts₀.bcast_S1x512_S32768x512_0_1 b))

set_option maxHeartbeats 400000 in
/-- The body's stored value at `(r, q)` of a block is the reference's term at `(n, q)` once the operand blocks read as
    row `n` of their arrays: the two sides are the same three summands associated differently, and addition of
    extended reals is associative. -/
theorem pay_eq_term (v0 v6 : Vec Ideal S1024x512 .f32) (v3 : Vec Ideal S512x512 .f32) (v8 : Vec Ideal S1x512 .f32)
    (fe x : FVec Ideal Cert.ReferenceIdeal.S32768x512 .f32) (w : FVec Ideal Cert.ReferenceIdeal.S512x512 .f32) (b : FVec Ideal Cert.ReferenceIdeal.S1x512 .f32)
    (r : Fin 1024) (q : Fin 512) (n : Fin 32768)
    (h6 : v6 (ix2 r q) = fe (ix2 n q)) (h0 : ∀ k : Fin 512, v0 (ix2 r k) = x (ix2 n k))
    (h3 : ∀ k : Fin 512, v3 (ix2 k q) = w (ix2 k q)) (h8 : v8 (ix2 (0 : Fin 1) q) = b (ix2 (0 : Fin 1) q)) :
    k2_pay1 (F := Ideal) v0 v3 v6 v8 (ix2 r q) = projTerm fe x w b (ix2 n q) := by
  rw [pay_apply, projTerm, ref_apply, h6, h8, add_assoc]
  simp only [h0, h3]

/-! ## The windows' blocks as rows of their arrays -/

/-- The printed index maps over the 32 points: the residual, the activation and the result move down the rows with the
    point; the weight and the bias stay at their one block. -/
theorem proj_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `r` of point `t`'s block is row `1024 t + r` of the array. -/
def projRow (t : Fin cfg2.N) (r : Fin 1024) : Fin 32768 :=
  ⟨1024 * t.val + r.val, by have h : t.val < 32 := lt_of_lt_of_eq t.isLt N_2; have := r.isLt; omega⟩

section Blocks
variable (V : (c : Dev nD) → (b : Ref sig .tc) → Buf (Elt Ideal) ((c : Thread nD τ).loc b)) (c : Dev nD) (t : Fin cfg2.N)

set_option maxHeartbeats 400000 in
/-- The residual's block at `(r, q)` is the residual at `(1024 t + r, q)`. -/
theorem blk_fe_apply (r : Fin 1024) (q : Fin 512) :
    (iblk2 V c 0 t : Vec Ideal S1024x512 .f32) (ix2 r q) = (V c main_arg0 : S32768x512.Idx → EReal) (ix2 (projRow t r) q) := by
  obtain ⟨e0, e1, -⟩ := proj_index_facts t
  show V c main_arg0 (((cfg2.win 0).blk t).view.emb (ix2 r q)) = _
  refine congrArg (V c main_arg0) (funext fun a => Fin.ext ?_)
  match a with
  | ⟨0, _⟩ => show win2_0.index t (0 : Fin 2) * 1024 + 1 * r.val = 1024 * t.val + r.val; omega
  | ⟨1, _⟩ => show win2_0.index t (1 : Fin 2) * 512 + 1 * q.val = q.val; omega

set_option maxHeartbeats 400000 in
/-- The activation's block at `(r, k)` is the activation at `(1024 t + r, k)`. -/
theorem blk_x_apply (r : Fin 1024) (k : Fin 512) :
    (iblk2 V c 1 t : Vec Ideal S1024x512 .f32) (ix2 r k) = (V c main_v52 : S32768x512.Idx → EReal) (ix2 (projRow t r) k) := by
  obtain ⟨-, -, e0, e1, -⟩ := proj_index_facts t
  show V c main_v52 (((cfg2.win 1).blk t).view.emb (ix2 r k)) = _
  refine congrArg (V c main_v52) (funext fun a => Fin.ext ?_)
  match a with
  | ⟨0, _⟩ => show win2_1.index t (0 : Fin 2) * 1024 + 1 * r.val = 1024 * t.val + r.val; omega
  | ⟨1, _⟩ => show win2_1.index t (1 : Fin 2) * 512 + 1 * k.val = k.val; omega

set_option maxHeartbeats 400000 in
/-- The weight's block is the weight. -/
theorem blk_w_apply (k : Fin 512) (q : Fin 512) :
    (iblk2 V c 2 t : Vec Ideal S512x512 .f32) (ix2 k q) = (V c main_arg6 : S512x512.Idx → EReal) (ix2 k q) := by
  obtain ⟨-, -, -, -, e0, e1, -⟩ := proj_index_facts t
  show V c main_arg6 (((cfg2.win 2).blk t).view.emb (ix2 k q)) = _
  refine congrArg (V c main_arg6) (funext fun a => Fin.ext ?_)
  match a with
  | ⟨0, _⟩ => show win2_2.index t (0 : Fin 2) * 512 + 1 * k.val = k.val; omega
  | ⟨1, _⟩ => show win2_2.index t (1 : Fin 2) * 512 + 1 * q.val = q.val; omega

set_option maxHeartbeats 400000 in
/-- The bias row's block is the bias row. -/
theorem blk_b_apply (z : Fin 1) (q : Fin 512) :
    (iblk2 V c 3 t : Vec Ideal S1x512 .f32) (ix2 z q) = (V c main_v53 : S1x512.Idx → EReal) (ix2 z q) := by
  obtain ⟨-, -, -, -, -, -, e0, e1, -⟩ := proj_index_facts t
  show V c main_v53 (((cfg2.win 3).blk t).view.emb (ix2 z q)) = _
  refine congrArg (V c main_v53) (funext fun a => Fin.ext ?_)
  match a with
  | ⟨0, _⟩ => show win2_3.index t (0 : Fin 2) * 1 + 1 * z.val = z.val; omega
  | ⟨1, _⟩ => show win2_3.index t (1 : Fin 2) * 512 + 1 * q.val = q.val; omega

end Blocks

/-! ## What each point writes back, and the array after the region -/

section Region
variable (V : (c : Dev nD) → (b : Ref sig .tc) → Buf (Elt Ideal) ((c : Thread nD τ).loc b)) (c : Dev nD)

set_option maxHeartbeats 400000 in
/-- What point `t` writes back is block `t` of the reference's term of the arrays as the region finds them. -/
theorem flushed_proj (t : Fin cfg2.N) :
    (dat2 (F := Ideal) V c).flushed 4 t = ((cfg2.win 4).blk t).view.read (Elt Ideal)
      (projTerm (V c main_arg0) (V c main_v52) (V c main_arg6) (V c main_v53)) := by
  show (cfg2.win 4).cut (grid2.coords t) ((dat2 V c).after 4 t) = _
  rw [after2_4]
  unfold out2_4
  rw [View.canon_unit_zero proj_zero_off]
  simp only [View.ld_unit_zero (S := S1024x512) proj_zero_off, View.ld_unit_zero (S := S512x512) proj_zero_off, View.ld_unit_zero (S := S1x512) proj_zero_off]
  obtain ⟨-, -, -, -, -, -, -, -, e0, e1⟩ := proj_index_facts t
  refine funext fun j => ?_
  obtain ⟨r, q, rfl⟩ : ∃ (r : Fin 1024) (q : Fin 512), j = ix2 r q := ⟨j 0, j 1, eq_ix2 (n0 := 1024) (n1 := 512) j⟩
  have hemb : (((cfg2.win 4).blk t).view.emb (ix2 r q) : S32768x512.Idx) = ix2 (projRow t r) q := funext fun a => Fin.ext (by
    match a with
    | ⟨0, _⟩ => show win2_4.index t (0 : Fin 2) * 1024 + 1 * r.val = 1024 * t.val + r.val; omega
    | ⟨1, _⟩ => show win2_4.index t (1 : Fin 2) * 512 + 1 * q.val = q.val; omega)
  show k2_pay1 (F := Ideal) (iblk2 V c 1 t) (iblk2 V c 2 t) (iblk2 V c 0 t) (iblk2 V c 3 t) (ix2 r q)
    = projTerm (V c main_arg0) (V c main_v52) (V c main_arg6) (V c main_v53) (((cfg2.win 4).blk t).view.emb (ix2 r q))
  rw [hemb]
  exact pay_eq_term (iblk2 V c 1 t) (iblk2 V c 0 t) (iblk2 V c 2 t) (iblk2 V c 3 t) (V c main_arg0) (V c main_v52) (V c main_arg6) (V c main_v53)
    r q (projRow t r) (blk_fe_apply V c t r q) (fun k => blk_x_apply V c t r k) (fun k => blk_w_apply V c t k q) (blk_b_apply V c t 0 q)

/-- An index of the result array is in point `t`'s block iff each coordinate is in the block's range on its axis. -/
theorem mem_blk_proj (t : Fin cfg2.N) (i : S32768x512.Idx) :
    i ∈ ((cfg2.win 4).blk t).view.set ↔ ∀ a : Fin 2, win2_4.index t a * S1024x512.size a ≤ (i a).val ∧ (i a).val < win2_4.index t a * S1024x512.size a + S1024x512.size a := by
  show i ∈ ((View.whole main_v54).slice (win2_4.rect t)).set ↔ _
  rw [View.set_slice_whole, Rect.mem_set_unit]
  exact Iff.rfl

/-- Every row `n` of the result is written: it lies in the block of point `n / 1024`, and every point writes back. -/
theorem cover_proj (i : S32768x512.Idx) :
    ∃ t : Fin cfg2.N, (cfg2.win 4).flush t = true ∧ i ∈ ((cfg2.win 4).blk t).view.set := by
  have hi0 : (i 0).val < 32768 := (i 0).isLt
  have hi1 : (i 1).val < 512 := (i 1).isLt
  obtain ⟨t, ht⟩ : ∃ t : Fin cfg2.N, t.val = (i 0).val / 1024 :=
    ⟨⟨(i 0).val / 1024, lt_of_lt_of_eq (by omega : (i 0).val / 1024 < 32) N_2.symm⟩, rfl⟩
  obtain ⟨-, -, -, -, -, -, -, -, e0, e1⟩ := proj_index_facts t
  refine ⟨t, flush2_4 t, ?_⟩
  rw [mem_blk_proj]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 512 ≤ (i 1).val ∧ (i 1).val < win2_4.index t (1 : Fin 2) * 512 + 512; omega

end Region

end Proj

/-- THE ARRAY after the region: every index is in some point's block, and each block is written at the reference's term. -/
theorem proj_arrAt (V : (c : Dev nD) → (b : Ref sig .tc) → Buf (Elt Ideal) ((c : Thread nD τ).loc b)) (c : Dev nD) :
    (dat2 (F := Ideal) V c).arrAt 4 cfg2.N
      = addf (F := Ideal) (V c main_arg0) (addf (F := Ideal) (Host.dotGeneral (F := Ideal) (φ₁ := .f32) (φ₂ := .f32) Cert.ReferenceIdeal.dot_S32768x512_S512x512_S32768x512_1_0_0_1_n_n none (V c main_v52) (V c main_arg6))
          (broadcastInDim (α := Ideal .f32) Cert.ReferenceIdeal.S32768x512 ![0, 1] Cert.ReferenceIdeal.Facts₀.bcast_S1x512_S32768x512_0_1 (V c main_v53))) :=
  (dat2 (F := Ideal) V c).arrAt_eq_of_cover 4 (Proj.projTerm (V c main_arg0) (V c main_v52) (V c main_arg6) (V c main_v53))
    (fun t _ => Proj.flushed_proj V c t) Proj.cover_proj

end Cert.KernelIdeal.Val

end
-- ==== Proof.HostLeaves.lean ====
import proofs.«411299_j71957882077526_1_alg».proof.Proof.Gen.KernelIdeal.Frame
import proofs.«411299_j71957882077526_1_alg».proof.Proof.Gen.ReferenceIdeal.Read
import proofs.«411299_j71957882077526_1_alg».proof.Proof.TakeMask
import Idealize.ShloMosaic.Lib.StableHlo.Run

set_option maxRecDepth 16384

noncomputable section

namespace Cert.KernelIdeal.Val

open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (ρ : Dev nD → PrngReg)

/-! The argument arrays as the host stretches between the regions find them: no host operation and no region
    writes an argument, so each reads back to the launch memory. -/

theorem W2_arg1 (c : Dev nD) : W2 (F := Ideal) m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results_simp <;> rfl

theorem W2_arg2 (c : Dev nD) : W2 (F := Ideal) m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results_simp <;> rfl

theorem W2_arg3 (c : Dev nD) : W2 (F := Ideal) m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results_simp <;> rfl

theorem W2_arg6 (c : Dev nD) : W2 (F := Ideal) m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl

theorem W2_arg7 (c : Dev nD) : W2 (F := Ideal) m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl

theorem W2_arg8 (c : Dev nD) : W2 (F := Ideal) m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl

/-- Region 0's three inputs as it finds them: two arguments, and the bias row `b` laid out as [1, 1536]. -/
theorem W1_arg0 (c : Dev nD) : W1 (F := Ideal) m ρ c (Proc.devRef .tc main_arg0) = m ((c : Thread nD τ).loc main_arg0) := by
  show StableHlo.after hostOps0 (W0 m ρ c) (Proc.devRef .tc main_arg0) = _
  after_results_simp <;> rfl
theorem W1_arg4 (c : Dev nD) : W1 (F := Ideal) m ρ c (Proc.devRef .tc main_arg4) = m ((c : Thread nD τ).loc main_arg4) := by
  show StableHlo.after hostOps0 (W0 m ρ c) (Proc.devRef .tc main_arg4) = _
  after_results_simp <;> rfl
theorem W1_v0 (c : Dev nD) : W1 (F := Ideal) m ρ c (Proc.devRef .tc main_v0)
    = shapeCast S1x1536 (m ((c : Thread nD τ).loc main_arg5)) Facts₀.shapeCasts_S1536_S1x1536 := by
  show StableHlo.after hostOps0 (W0 m ρ c) (Proc.devRef .tc main_v0) = _
  after_results_simp <;> rfl

end Cert.KernelIdeal.Val

end
-- ==== Proof.HostQkv.lean ====
import proofs.«411299_j71957882077526_1_alg».proof.Proof.Gen.KernelIdeal.Frame
import proofs.«411299_j71957882077526_1_alg».proof.Proof.Gen.ReferenceIdeal.Read
import proofs.«411299_j71957882077526_1_alg».proof.Proof.TakeMask
import proofs.«411299_j71957882077526_1_alg».proof.Proof.HostLeaves
import Idealize.ShloMosaic.Lib.StableHlo.Run

set_option maxRecDepth 16384

noncomputable section

namespace Cert.KernelIdeal.Val

open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (ρ : Dev nD → PrngReg)

/-! Between the first two regions the projected rows are gathered into serialized order and cut into the heads'
    queries, keys and values. The kernel's gather is guarded by a range test; on valid indices it is the
    reference's gather, and the layout operations after it are the reference's own. -/

/-- Rows of `A` at the indices `o`, a negative index counted from the end. -/
def qkvRows (A : FVec Ideal Cert.ReferenceIdeal.S32768x1536 .f32) (o : IVec Cert.ReferenceIdeal.S32768 32) : FVec Ideal Cert.ReferenceIdeal.S32768x1536 .f32 :=
  Host.gather Cert.ReferenceIdeal.gather_S32768x1536_S32768x1_S32768x1536_1_0_n_n_0_1_11536 A (Cert.ReferenceIdeal.Read.val_main_v9 (F := Ideal) o)

/-- The queries [patch, head, position, dimension]: third 0 of each gathered row. -/
def qOf (A : FVec Ideal Cert.ReferenceIdeal.S32768x1536 .f32) (o : IVec Cert.ReferenceIdeal.S32768 32) : FVec Ideal Cert.ReferenceIdeal.S256x8x128x64 .f32 :=
  transpose Cert.ReferenceIdeal.S256x8x128x64 [0, 2, 1, 3]
    (shapeCast Cert.ReferenceIdeal.S256x128x8x64
      (extractStridedSlice Cert.ReferenceIdeal.S256x128x1x8x64 ![0, 0, 0, 0, 0]
        (shapeCast Cert.ReferenceIdeal.S256x128x3x8x64 (qkvRows A o) Cert.ReferenceIdeal.Facts₀.shapeCasts_S32768x1536_S256x128x3x8x64)
        Cert.ReferenceIdeal.Facts₀.slices_S256x128x3x8x64_S256x128x1x8x64_0_0_0_0_0)
      Cert.ReferenceIdeal.Facts₀.shapeCasts_S256x128x1x8x64_S256x128x8x64)
    Cert.ReferenceIdeal.Facts₀.transposes_S256x128x8x64_S256x8x128x64_0_2_1_3

/-- The keys: third 1 of each gathered row. -/
def kOf (A : FVec Ideal Cert.ReferenceIdeal.S32768x1536 .f32) (o : IVec Cert.ReferenceIdeal.S32768 32) : FVec Ideal Cert.ReferenceIdeal.S256x8x128x64 .f32 :=
  transpose Cert.ReferenceIdeal.S256x8x128x64 [0, 2, 1, 3]
    (shapeCast Cert.ReferenceIdeal.S256x128x8x64
      (extractStridedSlice Cert.ReferenceIdeal.S256x128x1x8x64 ![0, 0, 1, 0, 0]
        (shapeCast Cert.ReferenceIdeal.S256x128x3x8x64 (qkvRows A o) Cert.ReferenceIdeal.Facts₀.shapeCasts_S32768x1536_S256x128x3x8x64)
        Cert.ReferenceIdeal.Facts₀.slices_S256x128x3x8x64_S256x128x1x8x64_0_0_1_0_0)
      Cert.ReferenceIdeal.Facts₀.shapeCasts_S256x128x1x8x64_S256x128x8x64)
    Cert.ReferenceIdeal.Facts₀.transposes_S256x128x8x64_S256x8x128x64_0_2_1_3

/-- The values: third 2 of each gathered row. -/
def vOf (A : FVec Ideal Cert.ReferenceIdeal.S32768x1536 .f32) (o : IVec Cert.ReferenceIdeal.S32768 32) : FVec Ideal Cert.ReferenceIdeal.S256x8x128x64 .f32 :=
  transpose Cert.ReferenceIdeal.S256x8x128x64 [0, 2, 1, 3]
    (shapeCast Cert.ReferenceIdeal.S256x128x8x64
      (extractStridedSlice Cert.ReferenceIdeal.S256x128x1x8x64 ![0, 0, 2, 0, 0]
        (shapeCast Cert.ReferenceIdeal.S256x128x3x8x64 (qkvRows A o) Cert.ReferenceIdeal.Facts₀.shapeCasts_S32768x1536_S256x128x3x8x64)
        Cert.ReferenceIdeal.Facts₀.slices_S256x128x3x8x64_S256x128x1x8x64_0_0_2_0_0)
      Cert.ReferenceIdeal.Facts₀.shapeCasts_S256x128x1x8x64_S256x128x8x64)
    Cert.ReferenceIdeal.Facts₀.transposes_S256x128x8x64_S256x8x128x64_0_2_1_3

theorem W18_v6 (c : Dev nD) (ho : IdxOk (m ((c : Thread nD τ).loc main_arg2))) :
    W18 (F := Ideal) m ρ c (Proc.devRef .tc main_v6) = qOf (W2 (F := Ideal) m ρ c (Proc.devRef .tc main_v1)) (m ((c : Thread nD τ).loc main_arg2)) := by
  after_results_simp
  simp only [TRef.toBuf, TRef.ofBuf, cast_eq]
  rw [W2_arg2]
  simp only [mask_rows_true _ ho, select_bcast_one]
  rfl

theorem W18_v9 (c : Dev nD) (ho : IdxOk (m ((c : Thread nD τ).loc main_arg2))) :
    W18 (F := Ideal) m ρ c (Proc.devRef .tc main_v9) = kOf (W2 (F := Ideal) m ρ c (Proc.devRef .tc main_v1)) (m ((c : Thread nD τ).loc main_arg2)) := by
  after_results_simp
  simp only [TRef.toBuf, TRef.ofBuf, cast_eq]
  rw [W2_arg2]
  simp only [mask_rows_true _ ho, select_bcast_one]
  rfl

theorem W18_v12 (c : Dev nD) (ho : IdxOk (m ((c : Thread nD τ).loc main_arg2))) :
    W18 (F := Ideal) m ρ c (Proc.devRef .tc main_v12) = vOf (W2 (F := Ideal) m ρ c (Proc.devRef .tc main_v1)) (m ((c : Thread nD τ).loc main_arg2)) := by
  after_results_simp
  simp only [TRef.toBuf, TRef.ofBuf, cast_eq]
  rw [W2_arg2]
  simp only [mask_rows_true _ ho, select_bcast_one]
  rfl

/-- The reference's own queries, keys and values are these functions of its projected rows. -/
theorem ref_q (x0 x2 x4 x5) : Cert.ReferenceIdeal.Read.val_main_v14 (F := Ideal) x0 x2 x4 x5 = qOf (Cert.ReferenceIdeal.Read.val_main_v3 (F := Ideal) x0 x4 x5) x2 := rfl
theorem ref_k (x0 x2 x4 x5) : Cert.ReferenceIdeal.Read.val_main_v17 (F := Ideal) x0 x2 x4 x5 = kOf (Cert.ReferenceIdeal.Read.val_main_v3 (F := Ideal) x0 x4 x5) x2 := rfl
theorem ref_v (x0 x2 x4 x5) : Cert.ReferenceIdeal.Read.val_main_v20 (F := Ideal) x0 x2 x4 x5 = vOf (Cert.ReferenceIdeal.Read.val_main_v3 (F := Ideal) x0 x4 x5) x2 := rfl

end Cert.KernelIdeal.Val

end
-- ==== Proof.BiasSum.lean ====
import proofs.«411299_j71957882077526_1_alg».proof.Proof.Gen.KernelIdeal
import proofs.«411299_j71957882077526_1_alg».proof.Proof.Gen.ReferenceIdeal
import Idealize.ShloMosaic.Lib.Pipeline.Value
import Idealize.ShloMosaic.Lib.ValueIdx
import Idealize.ShloMosaic.PureOps.Ideal.Laws

/-! The position bias before its transpose, as a function of the array `R` of coordinate differences
    [patch, query, key, coordinate] and of the 93-row table: the kernel looks the three coordinates up one at a
    time and adds the three rows to a zero array; the reference looks all three up at once and sums over the
    coordinate axis. -/

noncomputable section

namespace Cert.KernelIdeal.Val

open Idealize.ShloMosaic Cert.KernelIdeal Cert.KernelIdeal.Facts₀ Cert.KernelIdeal.Facts

/-- A difference clipped to [-15, 15], shifted by 15 and by the offset `k` of its coordinate's third of the table. -/
abbrev tabIdx (X : IVec S256x128x128 32) (k : BitVec 32) : IVec S256x128x128 32 :=
  addi (addi (minsi (broadcastInDim S256x128x128 ![] bcast_S_S256x128x128 (id (constantI S_ 32 15#32)))
        (maxsi (broadcastInDim S256x128x128 ![] bcast_S_S256x128x128 (id (constantI S_ 32 4294967281#32))) X))
      (broadcastInDim S256x128x128 ![] bcast_S_S256x128x128 (constantI S_ 32 15#32)))
    (broadcastInDim S256x128x128 ![] bcast_S_S256x128x128 (constantI S_ 32 k))

/-- The table's rows at an index array (a negative index counted from the end), one row of 8 per index. -/
abbrev tabGather (tab : FVec Ideal S93x8 .f32) (I : IVec S256x128x128 32) : FVec Ideal S256x128x128x8 .f32 :=
  Host.gather gather_S93x8_S256x128x128x1_S256x128x128x8_3_0_n_n_0_3_18 tab
    (broadcastInDim S256x128x128x1 ![0, 1, 2] bcast_S256x128x128_S256x128x128x1_0_1_2
      (select (cmpi .slt I (broadcastInDim S256x128x128 ![] bcast_S_S256x128x128 (constantI S_ 32 0#32)))
        (addi I (broadcastInDim S256x128x128 ![] bcast_S_S256x128x128 (constantI S_ 32 93#32))) I))

/-- Coordinate 0, 1, 2 of the differences as a [patch, query, key] array. -/
abbrev relCoord0 (R : IVec S256x128x128x3 32) : IVec S256x128x128 32 :=
  shapeCast S256x128x128 (extractStridedSlice S256x128x128x1 ![0, 0, 0, 0] R slices_S256x128x128x3_S256x128x128x1_0_0_0_0) shapeCasts_S256x128x128x1_S256x128x128
abbrev relCoord1 (R : IVec S256x128x128x3 32) : IVec S256x128x128 32 :=
  shapeCast S256x128x128 (extractStridedSlice S256x128x128x1 ![0, 0, 0, 1] R slices_S256x128x128x3_S256x128x128x1_0_0_0_1) shapeCasts_S256x128x128x1_S256x128x128
abbrev relCoord2 (R : IVec S256x128x128x3 32) : IVec S256x128x128 32 :=
  shapeCast S256x128x128 (extractStridedSlice S256x128x128x1 ![0, 0, 0, 2] R slices_S256x128x128x3_S256x128x128x1_0_0_0_2) shapeCasts_S256x128x128x1_S256x128x128

/-- The reference's index array: every coordinate clipped and shifted at once, the offsets `31 · d` from an iota. -/
abbrev refIdx (R : IVec Cert.ReferenceIdeal.S256x128x128x3 32) : IVec Cert.ReferenceIdeal.S256x128x128x3 32 :=
  addi (addi (minsi (broadcastInDim Cert.ReferenceIdeal.S256x128x128x3 ![] Cert.ReferenceIdeal.Facts₀.bcast_S_S256x128x128x3 (id (constantI Cert.ReferenceIdeal.S_ 32 15#32)))
        (maxsi (broadcastInDim Cert.ReferenceIdeal.S256x128x128x3 ![] Cert.ReferenceIdeal.Facts₀.bcast_S_S256x128x128x3 (id (constantI Cert.ReferenceIdeal.S_ 32 4294967281#32))) R))
      (broadcastInDim Cert.ReferenceIdeal.S256x128x128x3 ![] Cert.ReferenceIdeal.Facts₀.bcast_S_S256x128x128x3 (constantI Cert.ReferenceIdeal.S_ 32 15#32)))
    (broadcastInDim Cert.ReferenceIdeal.S256x128x128x3 ![0, 1, 2, 3] Cert.ReferenceIdeal.Facts₀.bcast_S1x1x1x3_S256x128x128x3_0_1_2_3
      (broadcastInDim Cert.ReferenceIdeal.S1x1x1x3 ![3] Cert.ReferenceIdeal.Facts₀.bcast_S3_S1x1x1x3_3
        (muli (iotaInDim Cert.ReferenceIdeal.S3 32 0) (broadcastInDim Cert.ReferenceIdeal.S3 ![] Cert.ReferenceIdeal.Facts₀.bcast_S_S3 (constantI Cert.ReferenceIdeal.S_ 32 31#32)))))

open Idealize.ShloMosaic.ValueIdx

/-! ## The three words of one lookup

At one coordinate both programs compute the same three 32-bit words from a difference `x`: the clipped and shifted
word, the same word counted from the table's end when it is negative, and the table row the lookup reads for it. -/

/-- A difference `x` clipped to [-15, 15] (signed), shifted by 15 and by its coordinate's offset `k`. -/
abbrev clipWord (x k : BitVec 32) : BitVec 32 :=
  IntOp.addi (IntOp.addi (IntOp.minsi 15#32 (IntOp.maxsi 4294967281#32 x)) 15#32) k

/-- An index word that is negative (signed) counted from the end of the 93 rows instead. -/
abbrev wrapWord (i : BitVec 32) : BitVec 32 :=
  Scalar.select (IntOp.cmpi .slt i 0#32) (IntOp.addi i 93#32) i

/-- The table row a start word names: the word read as a signed integer and clamped to the rows 0 … 92. -/
abbrev tabRow (w : BitVec 32) : Fin 93 := ⟨min w.toInt.toNat 92, by omega⟩

/-- The row of 8 the table holds for the difference `x` under the offset `k`, at column `h`. -/
abbrev tabAt (tab : FVec Ideal S93x8 .f32) (x k : BitVec 32) (h : Fin 8) : EReal :=
  tab (ix2 (tabRow (wrapWord (clipWord x k))) h)

/-! ## The kernel's side: one coordinate at a time -/

/-- The kernel's lookup of a [patch, query, key, 1] array of start words, read at (p, a, b, h): the table at the row the
    start word at (p, a, b, 0) names, column `h`. On the table's row axis the operand index is the clamped start alone
    (the axis is collapsed, so no offset is added); on its column axis it is the result's offset coordinate alone. -/
theorem gatherK_apply (tab : FVec Ideal S93x8 .f32) (idx : IVec S256x128x128x1 32)
    (p : Fin 256) (a b : Fin 128) (h : Fin 8) :
    Host.gather gather_S93x8_S256x128x128x1_S256x128x128x8_3_0_n_n_0_3_18 tab idx (ix4 p a b h)
      = tab (ix2 (tabRow (idx (ix4 p a b (0 : Fin 1)))) h) := by
  unfold Host.gather
  refine congrArg tab (funext fun c => Fin.ext ?_)
  match c with
  | ⟨0, _⟩ =>
    show gather_S93x8_S256x128x128x1_S256x128x128x8_3_0_n_n_0_3_18.start (ix4 p a b h) idx 0
        + gather_S93x8_S256x128x128x1_S256x128x128x8_3_0_n_n_0_3_18.batchCoord (ix4 p a b h) 0
        + gather_S93x8_S256x128x128x1_S256x128x128x8_3_0_n_n_0_3_18.offCoord (ix4 p a b h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S93x8_S256x128x128x1_S256x128x128x8_3_0_n_n_0_3_18.startIndexMap from List.mem_singleton.mpr rfl)]
    -- the start word is read where the result's three batch coordinates point, at component 0 of the index vector
    have hsi : gather_S93x8_S256x128x128x1_S256x128x128x8_3_0_n_n_0_3_18.siIdx (ix4 p a b h)
        ⟨List.idxOf (0 : Fin 2) gather_S93x8_S256x128x128x1_S256x128x128x8_3_0_n_n_0_3_18.startIndexMap,
          List.idxOf_lt_length_iff.2 (List.mem_singleton.mpr rfl)⟩ = ix4 p a b (0 : Fin 1) := by
      funext d; refine Fin.ext ?_
      match d with
      | ⟨0, _⟩ => rfl
      | ⟨1, _⟩ => rfl
      | ⟨2, _⟩ => rfl
      | ⟨3, _⟩ => rfl
    rw [hsi]
    rfl
  | ⟨1, _⟩ =>
    show gather_S93x8_S256x128x128x1_S256x128x128x8_3_0_n_n_0_3_18.start (ix4 p a b h) idx 1
        + gather_S93x8_S256x128x128x1_S256x128x128x8_3_0_n_n_0_3_18.batchCoord (ix4 p a b h) 1
        + gather_S93x8_S256x128x128x1_S256x128x128x8_3_0_n_n_0_3_18.offCoord (ix4 p a b h) 1 = h.val
    rw [GatherDims.batchCoord_eq_zero _ _ _ List.not_mem_nil]
    have hs : gather_S93x8_S256x128x128x1_S256x128x128x8_3_0_n_n_0_3_18.start (ix4 p a b h) idx 1 = 0 := by
      unfold GatherDims.start
      exact dif_neg (by decide)
    rw [hs]
    simp only [Nat.add_zero, Nat.zero_add]
    unfold GatherDims.offCoord
    rw [dif_pos (by decide)]
    rfl

/-- The clipped and shifted index array is the clipped and shifted word at every index: every operation in it is
    pointwise, the constants are scalars read everywhere. -/
theorem tabIdx_apply (X : IVec S256x128x128 32) (k : BitVec 32) (j : S256x128x128.Idx) :
    tabIdx X k j = clipWord (X j) k := rfl

/-- The rows gathered at an index array `I`, read at (p, a, b, h): the table at the row the wrapped word of
    `I` at (p, a, b) names. The start words are `I`'s wrapped words under a trailing unit axis. -/
theorem tabGather_apply (tab : FVec Ideal S93x8 .f32) (I : IVec S256x128x128 32)
    (p : Fin 256) (a b : Fin 128) (h : Fin 8) :
    tabGather tab I (ix4 p a b h) = tab (ix2 (tabRow (wrapWord (I (ix3 p a b)))) h) := by
  refine (gatherK_apply tab _ p a b h).trans ?_
  refine congrArg (fun w => tab (ix2 (tabRow w) h)) ?_
  exact broadcastInDim_apply _ bcast_S256x128x128_S256x128x128x1_0_1_2 _ (ix4 p a b (0 : Fin 1)) (ix3 p a b) (fun c => match c with
    | ⟨0, _⟩ => by show p.val = if (256 : Nat) = 1 then 0 else p.val; rw [if_neg (by decide)]
    | ⟨1, _⟩ => by show a.val = if (128 : Nat) = 1 then 0 else a.val; rw [if_neg (by decide)]
    | ⟨2, _⟩ => by show b.val = if (128 : Nat) = 1 then 0 else b.val; rw [if_neg (by decide)])

/-- Coordinate 0 of the differences at (p, a, b) is the difference array at (p, a, b, 0): the slice starts at 0 on
    the last axis and the shape cast only drops that axis's unit extent (same row-major position). -/
theorem relCoord0_apply (R : IVec S256x128x128x3 32) (p : Fin 256) (a b : Fin 128) :
    relCoord0 R (ix3 p a b) = R (ix4 p a b (0 : Fin 3)) := by
  refine (shapeCast_apply _ shapeCasts_S256x128x128x1_S256x128x128 (ix3 p a b) (ix4 p a b (0 : Fin 1)) ?_).trans ?_
  · rewrite [Shape.rowMajor_val_four, Shape.rowMajor_val_three]
    show ((p.val * 128 + a.val) * 128 + b.val) * 1 + 0 = (p.val * 128 + a.val) * 128 + b.val
    omega
  · exact extractStridedSlice_apply ![0, 0, 0, 0] R slices_S256x128x128x3_S256x128x128x1_0_0_0_0 (ix4 p a b (0 : Fin 1)) (ix4 p a b (0 : Fin 3)) (fun c => match c with
      | ⟨0, _⟩ => by show p.val = 0 + p.val; omega
      | ⟨1, _⟩ => by show a.val = 0 + a.val; omega
      | ⟨2, _⟩ => by show b.val = 0 + b.val; omega
      | ⟨3, _⟩ => by show (0 : Nat) = 0 + 0; omega)

/-- Coordinate 1 likewise: the slice starts at 1 on the last axis. -/
theorem relCoord1_apply (R : IVec S256x128x128x3 32) (p : Fin 256) (a b : Fin 128) :
    relCoord1 R (ix3 p a b) = R (ix4 p a b (1 : Fin 3)) := by
  refine (shapeCast_apply _ shapeCasts_S256x128x128x1_S256x128x128 (ix3 p a b) (ix4 p a b (0 : Fin 1)) ?_).trans ?_
  · rewrite [Shape.rowMajor_val_four, Shape.rowMajor_val_three]
    show ((p.val * 128 + a.val) * 128 + b.val) * 1 + 0 = (p.val * 128 + a.val) * 128 + b.val
    omega
  · exact extractStridedSlice_apply ![0, 0, 0, 1] R slices_S256x128x128x3_S256x128x128x1_0_0_0_1 (ix4 p a b (0 : Fin 1)) (ix4 p a b (1 : Fin 3)) (fun c => match c with
      | ⟨0, _⟩ => by show p.val = 0 + p.val; omega
      | ⟨1, _⟩ => by show a.val = 0 + a.val; omega
      | ⟨2, _⟩ => by show b.val = 0 + b.val; omega
      | ⟨3, _⟩ => by show (1 : Nat) = 1 + 0; omega)

/-- Coordinate 2 likewise: the slice starts at 2 on the last axis. -/
theorem relCoord2_apply (R : IVec S256x128x128x3 32) (p : Fin 256) (a b : Fin 128) :
    relCoord2 R (ix3 p a b) = R (ix4 p a b (2 : Fin 3)) := by
  refine (shapeCast_apply _ shapeCasts_S256x128x128x1_S256x128x128 (ix3 p a b) (ix4 p a b (0 : Fin 1)) ?_).trans ?_
  · rewrite [Shape.rowMajor_val_four, Shape.rowMajor_val_three]
    show ((p.val * 128 + a.val) * 128 + b.val) * 1 + 0 = (p.val * 128 + a.val) * 128 + b.val
    omega
  · exact extractStridedSlice_apply ![0, 0, 0, 2] R slices_S256x128x128x3_S256x128x128x1_0_0_0_2 (ix4 p a b (0 : Fin 1)) (ix4 p a b (2 : Fin 3)) (fun c => match c with
      | ⟨0, _⟩ => by show p.val = 0 + p.val; omega
      | ⟨1, _⟩ => by show a.val = 0 + a.val; omega
      | ⟨2, _⟩ => by show b.val = 0 + b.val; omega
      | ⟨3, _⟩ => by show (2 : Nat) = 2 + 0; omega)

/-- The kernel's three lookups at (p, a, b, h), each the table's row for its coordinate's difference under its offset. -/
theorem kTerm0 (R : IVec S256x128x128x3 32) (tab : FVec Ideal S93x8 .f32) (p : Fin 256) (a b : Fin 128) (h : Fin 8) :
    tabGather tab (tabIdx (relCoord0 R) 0#32) (ix4 p a b h) = tabAt tab (R (ix4 p a b (0 : Fin 3))) 0#32 h := by
  rw [tabGather_apply, tabIdx_apply, relCoord0_apply]
theorem kTerm1 (R : IVec S256x128x128x3 32) (tab : FVec Ideal S93x8 .f32) (p : Fin 256) (a b : Fin 128) (h : Fin 8) :
    tabGather tab (tabIdx (relCoord1 R) 31#32) (ix4 p a b h) = tabAt tab (R (ix4 p a b (1 : Fin 3))) 31#32 h := by
  rw [tabGather_apply, tabIdx_apply, relCoord1_apply]
theorem kTerm2 (R : IVec S256x128x128x3 32) (tab : FVec Ideal S93x8 .f32) (p : Fin 256) (a b : Fin 128) (h : Fin 8) :
    tabGather tab (tabIdx (relCoord2 R) 62#32) (ix4 p a b h) = tabAt tab (R (ix4 p a b (2 : Fin 3))) 62#32 h := by
  rw [tabGather_apply, tabIdx_apply, relCoord2_apply]

/-! ## The reference's side: all three coordinates at once -/

/-- The reference's lookup of a [patch, query, key, coordinate, 1] array of start words, read at (p, a, b, d, h): the
    table at the row the start word at (p, a, b, d, 0) names, column `h`. The same reading of the operand index as on
    the kernel's side, with one more batch coordinate. -/
theorem gatherR_apply (tab : FVec Ideal S93x8 .f32) (idx : IVec Cert.ReferenceIdeal.S256x128x128x3x1 32)
    (p : Fin 256) (a b : Fin 128) (d : Fin 3) (h : Fin 8) :
    Host.gather Cert.ReferenceIdeal.gather_S93x8_S256x128x128x3x1_S256x128x128x3x8_4_0_n_n_0_4_18 tab idx (ix5 p a b d h)
      = tab (ix2 (tabRow (idx (ix5 p a b d (0 : Fin 1)))) h) := by
  unfold Host.gather
  refine congrArg tab (funext fun c => Fin.ext ?_)
  match c with
  | ⟨0, _⟩ =>
    show Cert.ReferenceIdeal.gather_S93x8_S256x128x128x3x1_S256x128x128x3x8_4_0_n_n_0_4_18.start (ix5 p a b d h) idx 0
        + Cert.ReferenceIdeal.gather_S93x8_S256x128x128x3x1_S256x128x128x3x8_4_0_n_n_0_4_18.batchCoord (ix5 p a b d h) 0
        + Cert.ReferenceIdeal.gather_S93x8_S256x128x128x3x1_S256x128x128x3x8_4_0_n_n_0_4_18.offCoord (ix5 p a b d h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ Cert.ReferenceIdeal.gather_S93x8_S256x128x128x3x1_S256x128x128x3x8_4_0_n_n_0_4_18.startIndexMap from List.mem_singleton.mpr rfl)]
    have hsi : Cert.ReferenceIdeal.gather_S93x8_S256x128x128x3x1_S256x128x128x3x8_4_0_n_n_0_4_18.siIdx (ix5 p a b d h)
        ⟨List.idxOf (0 : Fin 2) Cert.ReferenceIdeal.gather_S93x8_S256x128x128x3x1_S256x128x128x3x8_4_0_n_n_0_4_18.startIndexMap,
          List.idxOf_lt_length_iff.2 (List.mem_singleton.mpr rfl)⟩ = ix5 p a b d (0 : Fin 1) := by
      funext e; refine Fin.ext ?_
      match e with
      | ⟨0, _⟩ => rfl
      | ⟨1, _⟩ => rfl
      | ⟨2, _⟩ => rfl
      | ⟨3, _⟩ => rfl
      | ⟨4, _⟩ => rfl
    rw [hsi]
    rfl
  | ⟨1, _⟩ =>
    show Cert.ReferenceIdeal.gather_S93x8_S256x128x128x3x1_S256x128x128x3x8_4_0_n_n_0_4_18.start (ix5 p a b d h) idx 1
        + Cert.ReferenceIdeal.gather_S93x8_S256x128x128x3x1_S256x128x128x3x8_4_0_n_n_0_4_18.batchCoord (ix5 p a b d h) 1
        + Cert.ReferenceIdeal.gather_S93x8_S256x128x128x3x1_S256x128x128x3x8_4_0_n_n_0_4_18.offCoord (ix5 p a b d h) 1 = h.val
    rw [GatherDims.batchCoord_eq_zero _ _ _ List.not_mem_nil]
    have hs : Cert.ReferenceIdeal.gather_S93x8_S256x128x128x3x1_S256x128x128x3x8_4_0_n_n_0_4_18.start (ix5 p a b d h) idx 1 = 0 := by
      unfold GatherDims.start
      exact dif_neg (by decide)
    rw [hs]
    simp only [Nat.add_zero, Nat.zero_add]
    unfold GatherDims.offCoord
    rw [dif_pos (by decide)]
    rfl

/-- The reference's offsets, read at (p, a, b, d): the iota's word `d` times 31 — the two broadcasts read the
    length-3 vector at the last coordinate. -/
theorem refOffset_apply (p : Fin 256) (a b : Fin 128) (d : Fin 3) :
    (broadcastInDim Cert.ReferenceIdeal.S256x128x128x3 ![0, 1, 2, 3] Cert.ReferenceIdeal.Facts₀.bcast_S1x1x1x3_S256x128x128x3_0_1_2_3
      (broadcastInDim Cert.ReferenceIdeal.S1x1x1x3 ![3] Cert.ReferenceIdeal.Facts₀.bcast_S3_S1x1x1x3_3
        (muli (iotaInDim Cert.ReferenceIdeal.S3 32 0) (broadcastInDim Cert.ReferenceIdeal.S3 ![] Cert.ReferenceIdeal.Facts₀.bcast_S_S3 (constantI Cert.ReferenceIdeal.S_ 32 31#32)))))
      (ix4 p a b d) = IntOp.muli (BitVec.ofNat 32 d.val) 31#32 := by
  refine (broadcastInDim_apply _ Cert.ReferenceIdeal.Facts₀.bcast_S1x1x1x3_S256x128x128x3_0_1_2_3 _ (ix4 p a b d)
    (ix4 (0 : Fin 1) (0 : Fin 1) (0 : Fin 1) d) (fun c => match c with
    | ⟨0, _⟩ => by show (0 : Nat) = if (1 : Nat) = 1 then 0 else p.val; rw [if_pos rfl]
    | ⟨1, _⟩ => by show (0 : Nat) = if (1 : Nat) = 1 then 0 else a.val; rw [if_pos rfl]
    | ⟨2, _⟩ => by show (0 : Nat) = if (1 : Nat) = 1 then 0 else b.val; rw [if_pos rfl]
    | ⟨3, _⟩ => by show d.val = if (3 : Nat) = 1 then 0 else d.val; rw [if_neg (by decide)])).trans ?_
  exact broadcastInDim_apply _ Cert.ReferenceIdeal.Facts₀.bcast_S3_S1x1x1x3_3 _ (ix4 (0 : Fin 1) (0 : Fin 1) (0 : Fin 1) d) (ix1 d) (fun c => match c with
    | ⟨0, _⟩ => by show d.val = if (3 : Nat) = 1 then 0 else d.val; rw [if_neg (by decide)])

/-- The reference's index array at (p, a, b, d): the difference there clipped and shifted, under the offset 31 · d. -/
theorem refIdx_apply (R : IVec Cert.ReferenceIdeal.S256x128x128x3 32) (p : Fin 256) (a b : Fin 128) (d : Fin 3) :
    refIdx R (ix4 p a b d) = clipWord (R (ix4 p a b d)) (IntOp.muli (BitVec.ofNat 32 d.val) 31#32) :=
  congrArg (IntOp.addi (IntOp.addi (IntOp.minsi 15#32 (IntOp.maxsi 4294967281#32 (R (ix4 p a b d)))) 15#32))
    (refOffset_apply p a b d)

/-- The reference's sum over the coordinate axis, read at (p, a, b, h): zero plus the three terms at (p, a, b, d, h). -/
theorem reduceR_apply (y : FVec Ideal Cert.ReferenceIdeal.S256x128x128x3x8 .f32) (p : Fin 256) (a b : Fin 128) (h : Fin 8) :
    Host.reduceAdd (F := Ideal) y (constant (F := Ideal) Cert.ReferenceIdeal.S_ .f32 0x00000000#32)
        Cert.ReferenceIdeal.Facts₀.reducesTo_S256x128x128x3x8_S256x128x128x8_d3 Cert.ReferenceIdeal.Facts₀.h_S_ (ix4 p a b h)
      = 0 + ∑ d : Fin 3, y (ix5 p a b d h) := by
  simp only [Host.reduceAdd, Ideal.hostReduceAdd_def]
  rw [Ideal.hostReduceAdd_single Cert.ReferenceIdeal.Facts₀.reducesTo_S256x128x128x3x8_S256x128x128x8_d3 (by decide)]
  refine congrArg₂ (· + ·) ?_ (Finset.sum_congr rfl fun d _ => ?_)
  · exact Ideal.ofBits_zero_f32
  · exact congrArg y (funext fun c => Fin.ext (by match c with | ⟨0, _⟩ => rfl | ⟨1, _⟩ => rfl | ⟨2, _⟩ => rfl | ⟨3, _⟩ => rfl | ⟨4, _⟩ => rfl))

/-- The reference's lookup at (p, a, b, d, h): the table's row for the difference at (p, a, b, d) under the offset
    31 · d. The start words are the index array's wrapped words under a trailing unit axis. -/
theorem rTerm (R : IVec S256x128x128x3 32) (tab : FVec Ideal S93x8 .f32) (p : Fin 256) (a b : Fin 128) (d : Fin 3) (h : Fin 8) :
    Host.gather Cert.ReferenceIdeal.gather_S93x8_S256x128x128x3x1_S256x128x128x3x8_4_0_n_n_0_4_18 tab
          (broadcastInDim Cert.ReferenceIdeal.S256x128x128x3x1 ![0, 1, 2, 3] Cert.ReferenceIdeal.Facts₀.bcast_S256x128x128x3_S256x128x128x3x1_0_1_2_3
            (select (cmpi .slt (refIdx R) (broadcastInDim Cert.ReferenceIdeal.S256x128x128x3 ![] Cert.ReferenceIdeal.Facts₀.bcast_S_S256x128x128x3 (constantI Cert.ReferenceIdeal.S_ 32 0#32)))
              (addi (refIdx R) (broadcastInDim Cert.ReferenceIdeal.S256x128x128x3 ![] Cert.ReferenceIdeal.Facts₀.bcast_S_S256x128x128x3 (constantI Cert.ReferenceIdeal.S_ 32 93#32)))
              (refIdx R)))
        (ix5 p a b d h)
      = tabAt tab (R (ix4 p a b d)) (IntOp.muli (BitVec.ofNat 32 d.val) 31#32) h := by
  refine (gatherR_apply tab _ p a b d h).trans ?_
  refine congrArg (fun w => tab (ix2 (tabRow w) h)) ?_
  refine (broadcastInDim_apply _ Cert.ReferenceIdeal.Facts₀.bcast_S256x128x128x3_S256x128x128x3x1_0_1_2_3 _ (ix5 p a b d (0 : Fin 1)) (ix4 p a b d) (fun c => match c with
    | ⟨0, _⟩ => by show p.val = if (256 : Nat) = 1 then 0 else p.val; rw [if_neg (by decide)]
    | ⟨1, _⟩ => by show a.val = if (128 : Nat) = 1 then 0 else a.val; rw [if_neg (by decide)]
    | ⟨2, _⟩ => by show b.val = if (128 : Nat) = 1 then 0 else b.val; rw [if_neg (by decide)]
    | ⟨3, _⟩ => by show d.val = if (3 : Nat) = 1 then 0 else d.val; rw [if_neg (by decide)])).trans ?_
  exact congrArg wrapWord (refIdx_apply R p a b d)

/-- The kernel's zero array is the extended real 0 everywhere. -/
theorem zeroK_apply (j : S256x128x128x8.Idx) :
    broadcastInDim S256x128x128x8 ![] bcast_S_S256x128x128x8 (constant (F := Ideal) S_ .f32 0x00000000#32) j = (0 : EReal) :=
  Ideal.ofBits_zero_f32

/-- The iota's three offsets as words: 31 · 0, 31 · 1, 31 · 2. -/
theorem offset0 : IntOp.muli (BitVec.ofNat 32 (0 : Fin 3).val) 31#32 = 0#32 := by decide
theorem offset1 : IntOp.muli (BitVec.ofNat 32 (1 : Fin 3).val) 31#32 = 31#32 := by decide
theorem offset2 : IntOp.muli (BitVec.ofNat 32 (2 : Fin 3).val) 31#32 = 62#32 := by decide

/-- The three rows added one after the other to zero are the sum over the coordinate axis of the rows looked up at once. -/
theorem bias_sum_eq (R : IVec S256x128x128x3 32) (tab : FVec Ideal S93x8 .f32) :
    addf (F := Ideal) (addf (F := Ideal) (addf (F := Ideal)
          (broadcastInDim S256x128x128x8 ![] bcast_S_S256x128x128x8 (constant (F := Ideal) S_ .f32 0x00000000#32))
          (tabGather tab (tabIdx (relCoord0 R) 0#32)))
        (tabGather tab (tabIdx (relCoord1 R) 31#32)))
      (tabGather tab (tabIdx (relCoord2 R) 62#32))
    = Host.reduceAdd (F := Ideal)
        (Host.gather Cert.ReferenceIdeal.gather_S93x8_S256x128x128x3x1_S256x128x128x3x8_4_0_n_n_0_4_18 tab
          (broadcastInDim Cert.ReferenceIdeal.S256x128x128x3x1 ![0, 1, 2, 3] Cert.ReferenceIdeal.Facts₀.bcast_S256x128x128x3_S256x128x128x3x1_0_1_2_3
            (select (cmpi .slt (refIdx R) (broadcastInDim Cert.ReferenceIdeal.S256x128x128x3 ![] Cert.ReferenceIdeal.Facts₀.bcast_S_S256x128x128x3 (constantI Cert.ReferenceIdeal.S_ 32 0#32)))
              (addi (refIdx R) (broadcastInDim Cert.ReferenceIdeal.S256x128x128x3 ![] Cert.ReferenceIdeal.Facts₀.bcast_S_S256x128x128x3 (constantI Cert.ReferenceIdeal.S_ 32 93#32)))
              (refIdx R))))
        (constant (F := Ideal) Cert.ReferenceIdeal.S_ .f32 0x00000000#32)
        Cert.ReferenceIdeal.Facts₀.reducesTo_S256x128x128x3x8_S256x128x128x8_d3 Cert.ReferenceIdeal.Facts₀.h_S_ := by
  funext j
  obtain ⟨p, a, b, h, rfl⟩ : ∃ (p : Fin 256) (a b : Fin 128) (h : Fin 8), j = ix4 p a b h :=
    ⟨j 0, j 1, j 2, j 3, eq_ix4 j⟩
  -- the reference at (p, a, b, h): zero plus the sum over the coordinate of the table's rows
  refine Eq.trans ?_ ((reduceR_apply _ p a b h).trans
    (congrArg (0 + ·) (Finset.sum_congr rfl fun d _ => rTerm R tab p a b d h))).symm
  -- the kernel at (p, a, b, h): the three rows added to zero one after the other
  show ((broadcastInDim S256x128x128x8 ![] bcast_S_S256x128x128x8 (constant (F := Ideal) S_ .f32 0x00000000#32) (ix4 p a b h)
        + tabGather tab (tabIdx (relCoord0 R) 0#32) (ix4 p a b h))
        + tabGather tab (tabIdx (relCoord1 R) 31#32) (ix4 p a b h))
        + tabGather tab (tabIdx (relCoord2 R) 62#32) (ix4 p a b h) = _
  rw [zeroK_apply, kTerm0, kTerm1, kTerm2, Fin.sum_univ_three, offset0, offset1, offset2]
  -- both are the same three extended reals; zero is the additive unit
  rw [zero_add, zero_add]

end Cert.KernelIdeal.Val

end
-- ==== Proof.HostBias.lean ====
import proofs.«411299_j71957882077526_1_alg».proof.Proof.Gen.KernelIdeal.Frame
import proofs.«411299_j71957882077526_1_alg».proof.Proof.Gen.ReferenceIdeal.Read
import proofs.«411299_j71957882077526_1_alg».proof.Proof.TakeMask
import proofs.«411299_j71957882077526_1_alg».proof.Proof.HostLeaves
import proofs.«411299_j71957882077526_1_alg».proof.Proof.BiasSum
import Idealize.ShloMosaic.Lib.StableHlo.Run

set_option maxRecDepth 16384

noncomputable section

namespace Cert.KernelIdeal.Val

open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (ρ : Dev nD → PrngReg)

/-! The position bias as the second region finds it. The kernel's host code gathers the grid coordinates into
    serialized order (a guarded gather: the reference's on valid indices), takes their pairwise differences, and
    looks each coordinate of a difference up in the table by a guarded gather whose index, clipped and shifted, is
    always a row of the table; what is left is the table rows added coordinate by coordinate, which is the
    reference's sum over the coordinate axis. The host operations are read in four stretches — one per coordinate's
    lookup, then the last sum and the transpose — each from whatever the buffers hold before it. -/

/-- Transport along an equation of a type with itself changes nothing. -/
theorem cast_self {α : Sort _} (h : α = α) (a : α) : cast h a = a := eq_of_heq (cast_heq h a)

/-- Pairwise differences of the gathered coordinates within a patch: [patch, query, key, coordinate]. -/
def relK (gc : IVec S32768x3 32) : IVec S256x128x128x3 32 :=
  subi
    (broadcastInDim S256x128x128x3 ![0, 1, 2, 3] Facts₀.bcast_S256x128x1x3_S256x128x128x3_0_1_2_3
      (broadcastInDim S256x128x1x3 ![0, 1, 3] Facts₀.bcast_S256x128x3_S256x128x1x3_0_1_3
        (shapeCast S256x128x3 gc Facts₀.shapeCasts_S32768x3_S256x128x3)))
    (broadcastInDim S256x128x128x3 ![0, 1, 2, 3] Facts₀.bcast_S256x1x128x3_S256x128x128x3_0_1_2_3
      (broadcastInDim S256x1x128x3 ![0, 2, 3] Facts₀.bcast_S256x128x3_S256x1x128x3_0_2_3
        (shapeCast S256x128x3 gc Facts₀.shapeCasts_S32768x3_S256x128x3)))

/-- The bias [patch, head, query, key] of gathered coordinates and the table, as the reference computes it. -/
def biasOf (gc : IVec Cert.ReferenceIdeal.S32768x3 32) (tab : FVec Ideal Cert.ReferenceIdeal.S93x8 .f32) : FVec Ideal Cert.ReferenceIdeal.S256x8x128x128 .f32 :=
  transpose Cert.ReferenceIdeal.S256x8x128x128 [0, 3, 1, 2]
    (Host.reduceAdd (F := Ideal)
        (Host.gather Cert.ReferenceIdeal.gather_S93x8_S256x128x128x3x1_S256x128x128x3x8_4_0_n_n_0_4_18 tab
          (broadcastInDim Cert.ReferenceIdeal.S256x128x128x3x1 ![0, 1, 2, 3] Cert.ReferenceIdeal.Facts₀.bcast_S256x128x128x3_S256x128x128x3x1_0_1_2_3
            (select (cmpi .slt (refIdx (relK gc)) (broadcastInDim Cert.ReferenceIdeal.S256x128x128x3 ![] Cert.ReferenceIdeal.Facts₀.bcast_S_S256x128x128x3 (constantI Cert.ReferenceIdeal.S_ 32 0#32)))
              (addi (refIdx (relK gc)) (broadcastInDim Cert.ReferenceIdeal.S256x128x128x3 ![] Cert.ReferenceIdeal.Facts₀.bcast_S_S256x128x128x3 (constantI Cert.ReferenceIdeal.S_ 32 93#32)))
              (refIdx (relK gc)))))
        (constant (F := Ideal) Cert.ReferenceIdeal.S_ .f32 0x00000000#32)
        Cert.ReferenceIdeal.Facts₀.reducesTo_S256x128x128x3x8_S256x128x128x8_d3 Cert.ReferenceIdeal.Facts₀.h_S_)
    Cert.ReferenceIdeal.Facts₀.transposes_S256x128x128x8_S256x8x128x128_0_3_1_2

/-- The reference's own bias is this function of its gathered coordinates. -/
theorem ref_bias (x1 x2 x8) : Cert.ReferenceIdeal.Read.val_main_v54 (F := Ideal) x1 x2 x8
    = biasOf (Cert.ReferenceIdeal.Read.val_main_v30 (F := Ideal) x1 x2) x8 := rfl

section Stretches
variable (V : Valuation τ sig (Elt Ideal))

/-! ### First coordinate: differences, the zero array, the first lookup -/

theorem s0_v19 : StableHlo.after hostOps1_6 (StableHlo.after hostOps1_5 (StableHlo.after hostOps1_4 (StableHlo.after hostOps1_3 (V)))) (Proc.devRef .tc main_v19) = relK (V (Proc.devRef .tc main_v13)) := by
  after_results_simp <;> (try simp only [TRef.toBuf, TRef.ofBuf, cast_self]) <;> (try rfl)
theorem s0_v20 : StableHlo.after hostOps1_6 (StableHlo.after hostOps1_5 (StableHlo.after hostOps1_4 (StableHlo.after hostOps1_3 (V)))) (Proc.devRef .tc main_v20)
    = broadcastInDim S256x128x128x8 ![] Facts₀.bcast_S_S256x128x128x8 (constant (F := Ideal) S_ .f32 0x00000000#32) := by
  after_results_simp <;> (try simp only [TRef.toBuf, TRef.ofBuf, cast_self]) <;> (try rfl)
theorem s0_arg8 : StableHlo.after hostOps1_6 (StableHlo.after hostOps1_5 (StableHlo.after hostOps1_4 (StableHlo.after hostOps1_3 (V)))) (Proc.devRef .tc main_arg8) = V (Proc.devRef .tc main_arg8) := by
  after_results_simp <;> (try rfl)
/-- One guarded lookup, from whatever the buffers hold, when the index buffer holds rows of the table. -/
theorem t0_v28 (hI : ∀ j, 0 ≤ ((V (Proc.devRef .tc main_v27) : IVec S256x128x128 32) j).toInt ∧ ((V (Proc.devRef .tc main_v27) : IVec S256x128x128 32) j).toInt ≤ 92) :
    StableHlo.after hostOps1_6 (V) (Proc.devRef .tc main_v28) = tabGather (V (Proc.devRef .tc main_arg8)) (V (Proc.devRef .tc main_v27)) := by
  obtain ⟨x, hx⟩ : ∃ x, StableHlo.after hostOps1_6 (V) (Proc.devRef .tc main_v28) = x := ⟨_, rfl⟩
  have hx0 := hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at hx
  simp only [TRef.toBuf, TRef.ofBuf, cast_self] at hx
  rw [mask_tab_true _ hI] at hx
  simp only [select_bcast_one] at hx
  exact hx0.trans hx.symm

theorem i0_v27 : StableHlo.after hostOps1_5 (StableHlo.after hostOps1_4 (StableHlo.after hostOps1_3 (V))) (Proc.devRef .tc main_v27) = tabIdx (relCoord0 (relK (V (Proc.devRef .tc main_v13)))) 0#32 := by
  obtain ⟨x, hx⟩ : ∃ x, StableHlo.after hostOps1_5 (StableHlo.after hostOps1_4 (StableHlo.after hostOps1_3 (V))) (Proc.devRef .tc main_v27) = x := ⟨_, rfl⟩
  have hx0 := hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at hx
  simp only [TRef.toBuf, TRef.ofBuf, cast_self] at hx
  exact hx0.trans hx.symm
theorem i0_v27_arg8 : StableHlo.after hostOps1_5 (StableHlo.after hostOps1_4 (StableHlo.after hostOps1_3 (V))) (Proc.devRef .tc main_arg8) = V (Proc.devRef .tc main_arg8) := by
  after_results_simp <;> (try rfl)

theorem s0_v28 : StableHlo.after hostOps1_6 (StableHlo.after hostOps1_5 (StableHlo.after hostOps1_4 (StableHlo.after hostOps1_3 (V)))) (Proc.devRef .tc main_v28)
    = tabGather (V (Proc.devRef .tc main_arg8)) (tabIdx (relCoord0 (relK (V (Proc.devRef .tc main_v13)))) 0#32) := by
  rw [t0_v28 _ (by rw [i0_v27]; exact clip_shift_range _ 0#32 (by decide)), i0_v27, i0_v27_arg8]

/-! ### Second coordinate -/

theorem s1_v19 : StableHlo.after hostOps1_10 (StableHlo.after hostOps1_9 (StableHlo.after hostOps1_8 (StableHlo.after hostOps1_7 (V)))) (Proc.devRef .tc main_v19) = V (Proc.devRef .tc main_v19) := by
  after_results_simp <;> (try rfl)
theorem s1_arg8 : StableHlo.after hostOps1_10 (StableHlo.after hostOps1_9 (StableHlo.after hostOps1_8 (StableHlo.after hostOps1_7 (V)))) (Proc.devRef .tc main_arg8) = V (Proc.devRef .tc main_arg8) := by
  after_results_simp <;> (try rfl)
theorem s1_v29 : StableHlo.after hostOps1_10 (StableHlo.after hostOps1_9 (StableHlo.after hostOps1_8 (StableHlo.after hostOps1_7 (V)))) (Proc.devRef .tc main_v29) = addf (F := Ideal) (s := S256x128x128x8) (φ := .f32) (V (Proc.devRef .tc main_v20)) (V (Proc.devRef .tc main_v28)) := by
  after_results_simp <;> (try simp only [TRef.toBuf, TRef.ofBuf, cast_self]) <;> (try rfl)
/-- One guarded lookup, from whatever the buffers hold, when the index buffer holds rows of the table. -/
theorem t1_v37 (hI : ∀ j, 0 ≤ ((V (Proc.devRef .tc main_v36) : IVec S256x128x128 32) j).toInt ∧ ((V (Proc.devRef .tc main_v36) : IVec S256x128x128 32) j).toInt ≤ 92) :
    StableHlo.after hostOps1_10 (V) (Proc.devRef .tc main_v37) = tabGather (V (Proc.devRef .tc main_arg8)) (V (Proc.devRef .tc main_v36)) := by
  obtain ⟨x, hx⟩ : ∃ x, StableHlo.after hostOps1_10 (V) (Proc.devRef .tc main_v37) = x := ⟨_, rfl⟩
  have hx0 := hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at hx
  simp only [TRef.toBuf, TRef.ofBuf, cast_self] at hx
  rw [mask_tab_true _ hI] at hx
  simp only [select_bcast_one] at hx
  exact hx0.trans hx.symm

theorem i1_v36 : StableHlo.after hostOps1_9 (StableHlo.after hostOps1_8 (StableHlo.after hostOps1_7 (V))) (Proc.devRef .tc main_v36) = tabIdx (relCoord1 (V (Proc.devRef .tc main_v19))) 31#32 := by
  obtain ⟨x, hx⟩ : ∃ x, StableHlo.after hostOps1_9 (StableHlo.after hostOps1_8 (StableHlo.after hostOps1_7 (V))) (Proc.devRef .tc main_v36) = x := ⟨_, rfl⟩
  have hx0 := hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at hx
  simp only [TRef.toBuf, TRef.ofBuf, cast_self] at hx
  exact hx0.trans hx.symm
theorem i1_v36_arg8 : StableHlo.after hostOps1_9 (StableHlo.after hostOps1_8 (StableHlo.after hostOps1_7 (V))) (Proc.devRef .tc main_arg8) = V (Proc.devRef .tc main_arg8) := by
  after_results_simp <;> (try rfl)

theorem s1_v37 : StableHlo.after hostOps1_10 (StableHlo.after hostOps1_9 (StableHlo.after hostOps1_8 (StableHlo.after hostOps1_7 (V)))) (Proc.devRef .tc main_v37)
    = tabGather (V (Proc.devRef .tc main_arg8)) (tabIdx (relCoord1 (V (Proc.devRef .tc main_v19))) 31#32) := by
  rw [t1_v37 _ (by rw [i1_v36]; exact clip_shift_range _ 31#32 (by decide)), i1_v36, i1_v36_arg8]

/-! ### Third coordinate -/

theorem s2_v38 : StableHlo.after hostOps1_14 (StableHlo.after hostOps1_13 (StableHlo.after hostOps1_12 (StableHlo.after hostOps1_11 (V)))) (Proc.devRef .tc main_v38) = addf (F := Ideal) (s := S256x128x128x8) (φ := .f32) (V (Proc.devRef .tc main_v29)) (V (Proc.devRef .tc main_v37)) := by
  after_results_simp <;> (try simp only [TRef.toBuf, TRef.ofBuf, cast_self]) <;> (try rfl)
/-- One guarded lookup, from whatever the buffers hold, when the index buffer holds rows of the table. -/
theorem t2_v46 (hI : ∀ j, 0 ≤ ((V (Proc.devRef .tc main_v45) : IVec S256x128x128 32) j).toInt ∧ ((V (Proc.devRef .tc main_v45) : IVec S256x128x128 32) j).toInt ≤ 92) :
    StableHlo.after hostOps1_14 (V) (Proc.devRef .tc main_v46) = tabGather (V (Proc.devRef .tc main_arg8)) (V (Proc.devRef .tc main_v45)) := by
  obtain ⟨x, hx⟩ : ∃ x, StableHlo.after hostOps1_14 (V) (Proc.devRef .tc main_v46) = x := ⟨_, rfl⟩
  have hx0 := hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at hx
  simp only [TRef.toBuf, TRef.ofBuf, cast_self] at hx
  rw [mask_tab_true _ hI] at hx
  simp only [select_bcast_one] at hx
  exact hx0.trans hx.symm

theorem i2_v45 : StableHlo.after hostOps1_13 (StableHlo.after hostOps1_12 (StableHlo.after hostOps1_11 (V))) (Proc.devRef .tc main_v45) = tabIdx (relCoord2 (V (Proc.devRef .tc main_v19))) 62#32 := by
  obtain ⟨x, hx⟩ : ∃ x, StableHlo.after hostOps1_13 (StableHlo.after hostOps1_12 (StableHlo.after hostOps1_11 (V))) (Proc.devRef .tc main_v45) = x := ⟨_, rfl⟩
  have hx0 := hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at hx
  simp only [TRef.toBuf, TRef.ofBuf, cast_self] at hx
  exact hx0.trans hx.symm
theorem i2_v45_arg8 : StableHlo.after hostOps1_13 (StableHlo.after hostOps1_12 (StableHlo.after hostOps1_11 (V))) (Proc.devRef .tc main_arg8) = V (Proc.devRef .tc main_arg8) := by
  after_results_simp <;> (try rfl)

theorem s2_v46 : StableHlo.after hostOps1_14 (StableHlo.after hostOps1_13 (StableHlo.after hostOps1_12 (StableHlo.after hostOps1_11 (V)))) (Proc.devRef .tc main_v46)
    = tabGather (V (Proc.devRef .tc main_arg8)) (tabIdx (relCoord2 (V (Proc.devRef .tc main_v19))) 62#32) := by
  rw [t2_v46 _ (by rw [i2_v45]; exact clip_shift_range _ 62#32 (by decide)), i2_v45, i2_v45_arg8]

/-! ### The last sum, heads first -/

theorem s3_v48 : StableHlo.after hostOps1_15 (V) (Proc.devRef .tc main_v48)
    = transpose S256x8x128x128 [0, 3, 1, 2] (addf (F := Ideal) (s := S256x128x128x8) (φ := .f32) (V (Proc.devRef .tc main_v38)) (V (Proc.devRef .tc main_v46)))
        Facts₀.transposes_S256x128x128x8_S256x8x128x128_0_3_1_2 := by
  after_results_simp <;> (try simp only [TRef.toBuf, TRef.ofBuf, cast_self]) <;> (try rfl)

/-- From the gathered coordinates on, whatever the buffers hold: the host operations up to the second region leave
    the bias of the gathered coordinates and the table. -/
theorem bias_tail : StableHlo.after hostOps1_15 (StableHlo.after hostOps1_14 (StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (V))))))))))))) (Proc.devRef .tc main_v48)
      = biasOf (V (Proc.devRef .tc main_v13)) (V (Proc.devRef .tc main_arg8)) := by
  rw [s3_v48, s2_v38, s2_v46, s1_v29, s1_v37, s1_v19, s1_arg8, s0_v20, s0_v28, s0_v19, s0_arg8]
  exact congrArg (fun z => transpose Cert.ReferenceIdeal.S256x8x128x128 [0, 3, 1, 2] z Cert.ReferenceIdeal.Facts₀.transposes_S256x128x128x8_S256x8x128x128_0_3_1_2)
    (bias_sum_eq (relK (V (Proc.devRef .tc main_v13))) (V (Proc.devRef .tc main_arg8)))

end Stretches

/-- The coordinates gathered into serialized order: on valid indices, the reference's gather. -/
theorem W5_v13 (c : Dev nD) (ho : IdxOk (m ((c : Thread nD τ).loc main_arg2))) :
    W5 (F := Ideal) m ρ c (Proc.devRef .tc main_v13)
      = Cert.ReferenceIdeal.Read.val_main_v30 (F := Ideal) (m ((c : Thread nD τ).loc main_arg1)) (m ((c : Thread nD τ).loc main_arg2)) := by
  after_results_simp
  simp only [TRef.toBuf, TRef.ofBuf, cast_self]
  rw [W2_arg1, W2_arg2]
  simp only [mask_rows_true _ ho, select_bcast_one]
  rfl

theorem W5_arg8 (c : Dev nD) : W5 (F := Ideal) m ρ c (Proc.devRef .tc main_arg8) = m ((c : Thread nD τ).loc main_arg8) := by
  after_results_simp
  exact W2_arg8 m ρ c

theorem W18_v48 (c : Dev nD) (ho : IdxOk (m ((c : Thread nD τ).loc main_arg2))) :
    W18 (F := Ideal) m ρ c (Proc.devRef .tc main_v48)
      = Cert.ReferenceIdeal.Read.val_main_v54 (F := Ideal) (m ((c : Thread nD τ).loc main_arg1)) (m ((c : Thread nD τ).loc main_arg2)) (m ((c : Thread nD τ).loc main_arg8)) := by
  refine (bias_tail (W5 m ρ c)).trans ?_
  rw [W5_v13 m ρ c ho, W5_arg8]
  exact (ref_bias _ _ _).symm

end Cert.KernelIdeal.Val

end
-- ==== Proof.HostOut.lean ====
import proofs.«411299_j71957882077526_1_alg».proof.Proof.Gen.KernelIdeal.Frame
import proofs.«411299_j71957882077526_1_alg».proof.Proof.Gen.ReferenceIdeal.Read
import proofs.«411299_j71957882077526_1_alg».proof.Proof.TakeMask
import proofs.«411299_j71957882077526_1_alg».proof.Proof.HostLeaves
import Idealize.ShloMosaic.Lib.StableHlo.Run

set_option maxRecDepth 16384

noncomputable section

namespace Cert.KernelIdeal.Val

open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (ρ : Dev nD → PrngReg)

/-! Between the last two regions the attention output goes back to point order — heads joined, rows gathered at
    the inverse permutation — and the output bias is laid out as a row. The gather is guarded as before and is
    the reference's on valid indices. The arguments the last region reads are still as launched. -/

/-- Region 0 leaves its first input, the argument `feat`, as launched. -/
theorem W2_arg0 (c : Dev nD) : W2 (F := Ideal) m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)

theorem W18_arg0 (c : Dev nD) : W18 (F := Ideal) m ρ c (Proc.devRef .tc main_arg0) = m ((c : Thread nD τ).loc main_arg0) := by
  after_results_simp
  exact W2_arg0 m ρ c
theorem W19_arg0 (c : Dev nD) : W19 (F := Ideal) m ρ c (Proc.devRef .tc main_arg0) = m ((c : Thread nD τ).loc main_arg0) :=
  (W19_of_ne m ρ c main_arg0 (by decide)).trans (W18_arg0 m ρ c)

theorem W18_arg3 (c : Dev nD) : W18 (F := Ideal) m ρ c (Proc.devRef .tc main_arg3) = m ((c : Thread nD τ).loc main_arg3) := by
  after_results_simp
  exact W2_arg3 m ρ c
theorem W19_arg3 (c : Dev nD) : W19 (F := Ideal) m ρ c (Proc.devRef .tc main_arg3) = m ((c : Thread nD τ).loc main_arg3) :=
  (W19_of_ne m ρ c main_arg3 (by decide)).trans (W18_arg3 m ρ c)

theorem W18_arg6 (c : Dev nD) : W18 (F := Ideal) m ρ c (Proc.devRef .tc main_arg6) = m ((c : Thread nD τ).loc main_arg6) := by
  after_results_simp
  exact W2_arg6 m ρ c
theorem W19_arg6 (c : Dev nD) : W19 (F := Ideal) m ρ c (Proc.devRef .tc main_arg6) = m ((c : Thread nD τ).loc main_arg6) :=
  (W19_of_ne m ρ c main_arg6 (by decide)).trans (W18_arg6 m ρ c)

theorem W18_arg7 (c : Dev nD) : W18 (F := Ideal) m ρ c (Proc.devRef .tc main_arg7) = m ((c : Thread nD τ).loc main_arg7) := by
  after_results_simp
  exact W2_arg7 m ρ c
theorem W19_arg7 (c : Dev nD) : W19 (F := Ideal) m ρ c (Proc.devRef .tc main_arg7) = m ((c : Thread nD τ).loc main_arg7) :=
  (W19_of_ne m ρ c main_arg7 (by decide)).trans (W18_arg7 m ρ c)

/-- Heads joined back into rows of 512, then the rows at the indices `o`, a negative index counted from the end. -/
def outRows (Y : FVec Ideal Cert.ReferenceIdeal.S256x8x128x64 .f32) (o : IVec Cert.ReferenceIdeal.S32768 32) : FVec Ideal Cert.ReferenceIdeal.S32768x512 .f32 :=
  Host.gather Cert.ReferenceIdeal.gather_S32768x512_S32768x1_S32768x512_1_0_n_n_0_1_1512
    (shapeCast Cert.ReferenceIdeal.S32768x512 (transpose Cert.ReferenceIdeal.S256x128x8x64 [0, 2, 1, 3] Y Cert.ReferenceIdeal.Facts₀.transposes_S256x8x128x64_S256x128x8x64_0_2_1_3)
      Cert.ReferenceIdeal.Facts₀.shapeCasts_S256x128x8x64_S32768x512)
    (Cert.ReferenceIdeal.Read.val_main_v75 (F := Ideal) o)

theorem W22_v52 (c : Dev nD) (ho : IdxOk (m ((c : Thread nD τ).loc main_arg3))) :
    W22 (F := Ideal) m ρ c (Proc.devRef .tc main_v52) = outRows (W19 (F := Ideal) m ρ c (Proc.devRef .tc main_v49)) (m ((c : Thread nD τ).loc main_arg3)) := by
  after_results_simp
  simp only [TRef.toBuf, TRef.ofBuf, cast_eq]
  rw [W19_arg3]
  simp only [mask_rows_true _ ho, select_bcast_one]
  rfl

theorem W22_v53 (c : Dev nD) : W22 (F := Ideal) m ρ c (Proc.devRef .tc main_v53)
    = shapeCast S1x512 (m ((c : Thread nD τ).loc main_arg7)) Facts₀.shapeCasts_S512_S1x512 := by
  after_results_simp
  rw [W19_arg7] <;> rfl

theorem W22_arg0 (c : Dev nD) : W22 (F := Ideal) m ρ c (Proc.devRef .tc main_arg0) = m ((c : Thread nD τ).loc main_arg0) := by
  after_results_simp
  exact W19_arg0 m ρ c
theorem W22_arg6 (c : Dev nD) : W22 (F := Ideal) m ρ c (Proc.devRef .tc main_arg6) = m ((c : Thread nD τ).loc main_arg6) := by
  after_results_simp
  exact W19_arg6 m ρ c

/-- The reference's own rows before its output projection are this function of its attention output. -/
theorem ref_x (x0 x1 x2 x3 x4 x5 x8) : Cert.ReferenceIdeal.Read.val_main_v76 (F := Ideal) x0 x1 x2 x3 x4 x5 x8
    = outRows (Cert.ReferenceIdeal.Read.val_main_v67 (F := Ideal) x0 x1 x2 x4 x5 x8) x3 := rfl

end Cert.KernelIdeal.Val

end
-- ==== Proof.RowLayout.lean ====
import proofs.«411299_j71957882077526_1_alg».proof.Proof.Gen.KernelIdeal
import proofs.«411299_j71957882077526_1_alg».proof.Proof.Gen.ReferenceIdeal
import Idealize.ShloMosaic.Lib.Pipeline.Value

/-! A vector laid out as a one-row matrix: reshaping [n] to [1, n] and broadcasting [n] along the second axis of
    [1, n] are the same function — entry (0, j) is entry j. -/

noncomputable section

namespace Cert.KernelIdeal.Val

open Idealize.ShloMosaic Idealize.ShloMosaic.Pipeline

theorem row_eq_bcast {α : Type} {n : Nat} (hn : n ≠ 1) (b : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ ![1]) :
    shapeCast ⟨2, ![1, n]⟩ b h1 = broadcastInDim ⟨2, ![1, n]⟩ ![1] h2 b := by
  funext j
  refine (shapeCast_addUnit_apply ![n] b h1 j).trans ?_
  refine (broadcastInDim_apply ![1] h2 b j (fun a => j a.succ) ?_).symm
  intro a
  have ha : a = 0 := Subsingleton.elim _ _
  subst ha
  rw [if_neg (by simpa using hn)]
  rfl

theorem row_1536 {α : Type} (b : Cert.KernelIdeal.S1536.Idx → α) :
    shapeCast Cert.KernelIdeal.S1x1536 b Cert.KernelIdeal.Facts₀.shapeCasts_S1536_S1x1536
      = broadcastInDim Cert.ReferenceIdeal.S1x1536 ![1] Cert.ReferenceIdeal.Facts₀.bcast_S1536_S1x1536_1 b :=
  row_eq_bcast (by decide) b _ _

theorem row_512 {α : Type} (b : Cert.KernelIdeal.S512.Idx → α) :
    shapeCast Cert.KernelIdeal.S1x512 b Cert.KernelIdeal.Facts₀.shapeCasts_S512_S1x512
      = broadcastInDim Cert.ReferenceIdeal.S1x512 ![1] Cert.ReferenceIdeal.Facts₀.bcast_S512_S1x512_1 b :=
  row_eq_bcast (by decide) b _ _

end Cert.KernelIdeal.Val

end
-- ==== Proof.KernelValue.lean ====
import proofs.«411299_j71957882077526_1_alg».proof.Proof.KRun
import proofs.«411299_j71957882077526_1_alg».proof.Proof.RegionQkv
import proofs.«411299_j71957882077526_1_alg».proof.Proof.RegionAttn
import proofs.«411299_j71957882077526_1_alg».proof.Proof.RegionProj
import proofs.«411299_j71957882077526_1_alg».proof.Proof.HostQkv
import proofs.«411299_j71957882077526_1_alg».proof.Proof.HostBias
import proofs.«411299_j71957882077526_1_alg».proof.Proof.HostOut
import proofs.«411299_j71957882077526_1_alg».proof.Proof.RowLayout

/-! The kernel program's result as a function of its arguments: the three regions' arrays and the host
    operations between them, composed. On valid indices every stage is the reference's stage of the same name:
    the projected rows, the heads' queries, keys, values and bias, the attention output, the rows gathered back,
    and the output projection with the residual. -/

set_option maxRecDepth 16384

noncomputable section

namespace Cert.KernelIdeal.Val

open Idealize.ShloMosaic Idealize.ShloMosaic.TcCoe Idealize.SL.Sem Cert.KernelIdeal Cert.KernelIdeal.Gen Idealize.ShloMosaic.StableHlo
open Cert.ReferenceIdeal.Read (val_main_v3 val_main_v67 val_main_v81 val_main_v54 val_main_v14 val_main_v17 val_main_v20 val_main_v76)

variable (m : (ℓ : Loc nD τ sig) → Buf (Elt Ideal) ℓ) (ρ : Dev nD → PrngReg)

/-- After the first region: the rows `feat · w_qkv + b_qkv`. -/
theorem W2_v1 (c : Dev nD) : W2 (F := Ideal) m ρ c (Proc.devRef .tc main_v1)
    = val_main_v3 (F := Ideal) (m ((c : Thread nD τ).loc main_arg0)) (m ((c : Thread nD τ).loc main_arg4)) (m ((c : Thread nD τ).loc main_arg5)) := by
  refine ((W2_arr m ρ c 3).trans (qkv_arrAt (V1 m ρ) c)).trans ?_
  show addf (F := Ideal) (Host.dotGeneral (F := Ideal) (φ₁ := .f32) (φ₂ := .f32) Cert.ReferenceIdeal.dot_S32768x512_S512x1536_S32768x1536_1_0_0_1_n_n none
        (W1 m ρ c (Proc.devRef .tc main_arg0)) (W1 m ρ c (Proc.devRef .tc main_arg4)))
      (broadcastInDim (α := Ideal .f32) Cert.ReferenceIdeal.S32768x1536 ![0, 1] Cert.ReferenceIdeal.Facts₀.bcast_S1x1536_S32768x1536_0_1 (W1 m ρ c (Proc.devRef .tc main_v0))) = _
  rw [W1_arg0, W1_arg4, W1_v0, row_1536]
  rfl

/-- After the second region: the attention output of the reference's queries, keys, values and bias. -/
theorem W19_v49 (c : Dev nD) (ho : IdxOk (m ((c : Thread nD τ).loc main_arg2))) : W19 (F := Ideal) m ρ c (Proc.devRef .tc main_v49)
    = val_main_v67 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) := by
  refine ((W19_arr m ρ c 4).trans (attn_arrAt (V18 m ρ) c)).trans ?_
  show Cert.AttnSpec.attn (W18 m ρ c (Proc.devRef .tc main_v6)) (W18 m ρ c (Proc.devRef .tc main_v9))
      (W18 m ρ c (Proc.devRef .tc main_v12)) (W18 m ρ c (Proc.devRef .tc main_v48)) = _
  rw [W18_v6 m ρ c ho, W18_v9 m ρ c ho, W18_v12 m ρ c ho, W18_v48 m ρ c ho, W2_v1]
  rfl

/-- After the third region: the reference's result. -/
theorem W23_v54 (c : Dev nD) (ho : IdxOk (m ((c : Thread nD τ).loc main_arg2))) (hi : IdxOk (m ((c : Thread nD τ).loc main_arg3))) : W23 (F := Ideal) m ρ c (Proc.devRef .tc main_v54)
    = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W23_arr m ρ c 4).trans (proj_arrAt (V22 m ρ) c)).trans ?_
  show addf (F := Ideal) (W22 m ρ c (Proc.devRef .tc main_arg0))
      (addf (F := Ideal) (Host.dotGeneral (F := Ideal) (φ₁ := .f32) (φ₂ := .f32) Cert.ReferenceIdeal.dot_S32768x512_S512x512_S32768x512_1_0_0_1_n_n none
          (W22 m ρ c (Proc.devRef .tc main_v52)) (W22 m ρ c (Proc.devRef .tc main_arg6)))
        (broadcastInDim (α := Ideal .f32) Cert.ReferenceIdeal.S32768x512 ![0, 1] Cert.ReferenceIdeal.Facts₀.bcast_S1x512_S32768x512_0_1 (W22 m ρ c (Proc.devRef .tc main_v53)))) = _
  rw [W22_arg0, W22_arg6, W22_v53, W22_v52 m ρ c hi, W19_v49 m ρ c ho, row_512]
  rfl

/-- The kernel program's run, its result named: on valid indices every weakly fair execution terminates with the
    result buffer at the reference's function of the arguments, the arguments unchanged. -/
theorem run_value (hidx : ∀ c : Dev nD, IdxOk (m ((c : Thread nD τ).loc main_arg2)) ∧ IdxOk (m ((c : Thread nD τ).loc main_arg3))) :
    θ_run defs (onTc (τ := τ) (main (F := Ideal))) ⟨m, fun _ => 0, ρ⟩ (fun r => ∀ c : Dev nD,
      r.2.mem ((c.tc : Thread nD τ).loc main_v54)
        = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W23_v54 m ρ c (hidx c).1 (hidx c).2), (h c).2⟩) (run_result m ρ)

end Cert.KernelIdeal.Val

end
-- ==== Proof.lean ====
/- Patch attention over points in serialized order, against its plain reference, over the extended reals.

   The kernel program is three pipelined regions with host operations between them: rows `feat · w_qkv + b_qkv`;
   those rows gathered by `order`, cut into heads, and attended patch by patch — softmax over the keys of
   `(q / 8) · k + bias`, applied to `v`, the bias a sum of three table rows indexed by clipped coordinate
   differences —; and the attention output gathered back by `inverse`, projected by `w_proj`, `b_proj` and
   `feat` added. The reference computes the same stages as whole-array host operations.

   Both programs first count a negative index from the end; the kernel's gathers then test the index against the
   axis and fill a row whose index fails the test, where the reference's gather clamps. On valid indices of the
   axis — the added precondition on `order` and `inverse` — the test passes everywhere and the two gathers are
   one. The clipped table index is always a row of the table, so its test always passes. What is left is
   re-indexing: each region's blocks tile its output array, a block's matrix product is the whole product's rows,
   the per-block softmax is the whole softmax's rows, the three table rows added one after the other are the sum
   over the coordinate axis, and `(feat + x·w) + b = feat + (x·w + b)`. No law used needs finiteness. -/
import proofs.«411299_j71957882077526_1_alg».proof.Defs
import proofs.«411299_j71957882077526_1_alg».proof.Proof.Gen.Kernel
import proofs.«411299_j71957882077526_1_alg».proof.Proof.Gen.Kernel.Frame
import proofs.«411299_j71957882077526_1_alg».proof.Proof.Gen.KernelIdeal
import proofs.«411299_j71957882077526_1_alg».proof.Proof.Gen.KernelIdeal.Frame
import proofs.«411299_j71957882077526_1_alg».proof.Proof.Gen.ReferenceIdeal
import proofs.«411299_j71957882077526_1_alg».proof.Proof.Gen.ReferenceIdeal.Read
import proofs.«411299_j71957882077526_1_alg».proof.Proof.Gen.Pre_finite_inputs
import proofs.«411299_j71957882077526_1_alg».proof.Proof.TakeMask
import proofs.«411299_j71957882077526_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories that agree on the arguments, with `order` and `inverse` valid indices, both programs end with
    the reference's function of the arguments in their result buffers. -/
theorem algebraic : Cert.algebraic_KernelIdeal_ReferenceIdeal := by
  intro m ρ m' ρ' hpre hagree
  refine ⟨fun c => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Val.run_value m ρ (fun c => Cert.KernelIdeal.Val.idxOk_of_pre m hpre c), ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8⟩ := hagree c
  rw [(h c).1, Cert.ReferenceIdeal.Read.val_main_v81_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
